-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S3072 : Shape := ⟨1, ![3072]⟩
abbrev S1 : Shape := ⟨1, ![1]⟩
abbrev S786432x64 : Shape := ⟨2, ![786432, 64]⟩
abbrev S786432 : Shape := ⟨1, ![786432]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S3072 : S_.BroadcastsInDim S3072 (![] : Fin 0 → Fin S3072.rank)
  reducesTo_S3072_S_d0 : S3072.ReducesTo [0] S_
  bcast_S_S1 : S_.BroadcastsInDim S1 (![] : Fin 0 → Fin S1.rank)
  reducesTo_S1_S_d0 : S1.ReducesTo [0] S_
  bcast_S_S786432x64 : S_.BroadcastsInDim S786432x64 (![] : Fin 0 → Fin S786432x64.rank)
  reducesTo_S786432x64_S_d0_1 : S786432x64.ReducesTo [0, 1] S_

variable [Facts]

def fn_part1 {F : FTy → Type} [FloatOps F] (main_arg4 : FVec F S1 .f32) (main_arg5 : IVec S786432x64 32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S786432x64 32 := broadcastInDim S786432x64 ![] bcast_S_S786432x64 main_c_8
  let main_v25 : IVec S786432x64 1 := cmpi .sge main_arg5 main_v24
  let main_c_9 : IVec S_ 32 := constantI S_ 32 16#32
  let main_v26 : IVec S786432x64 32 := broadcastInDim S786432x64 ![] bcast_S_S786432x64 main_c_9
  let main_v27 : IVec S786432x64 1 := cmpi .slt main_arg5 main_v26
  let main_v28 : IVec S786432x64 1 := andi main_v25 main_v27
  let main_c_10 : IVec S_ 1 := constantI S_ 1 1#1
  let main_v29 : IVec S_ 1 := (fun x v => Host.reduce IntOp.andi x v reducesTo_S786432x64_S_d0_1 h_S_) main_v28 main_c_10
  let main_v30 : IVec S_ 1 := andi main_v23 main_v29
  main_v30

def fn {F : FTy → Type} [FloatOps F] (main_arg0 : FVec F S4096x4096 .f32) (main_arg1 : FVec F S4096 .f32) (main_arg2 : FVec F S4096 .f32) (main_arg3 : FVec F S3072 .f32) (main_arg4 : FVec F S1 .f32) (main_arg5 : IVec S786432x64 32) (main_arg6 : IVec S786432 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S4096x4096 : Shape := ⟨2, ![4096, 4096]⟩
abbrev S4096 : Shape := ⟨1, ![4096]⟩
abbrev S3072 : Shape := ⟨1, ![3072]⟩
abbrev S1 : Shape := ⟨1, ![1]⟩
abbrev S786432x64 : Shape := ⟨2, ![786432, 64]⟩
abbrev S786432 : Shape := ⟨1, ![786432]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S12288x4096 : Shape := ⟨2, ![12288, 4096]⟩
abbrev S12288x64 : Shape := ⟨2, ![12288, 64]⟩
abbrev S3072x4 : Shape := ⟨2, ![3072, 4]⟩
abbrev S12288 : Shape := ⟨1, ![12288]⟩
abbrev S12288x1 : Shape := ⟨2, ![12288, 1]⟩
abbrev S1x1 : Shape := ⟨2, ![1, 1]⟩
abbrev S4096x12288 : Shape := ⟨2, ![4096, 12288]⟩
abbrev S128x4096 : Shape := ⟨2, ![128, 4096]⟩
abbrev S512x4096 : Shape := ⟨2, ![512, 4096]⟩
abbrev S512x64 : Shape := ⟨2, ![512, 64]⟩
abbrev S512x1 : Shape := ⟨2, ![512, 1]⟩
abbrev S128x512 : Shape := ⟨2, ![128, 512]⟩
abbrev S512x1024 : Shape := ⟨2, ![512, 1024]⟩
abbrev S512x16 : Shape := ⟨2, ![512, 16]⟩
abbrev S512x16x1 : Shape := ⟨3, ![512, 16, 1]⟩
abbrev S512x16x64 : Shape := ⟨3, ![512, 16, 64]⟩
abbrev S4096x512 : Shape := ⟨2, ![4096, 512]⟩

abbrev nBuf : Space → Nat
  | .hbm => 16
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S3072, .f32⟩
  | .hbm, ⟨4, _⟩ => ⟨S1, .f32⟩
  | .hbm, ⟨5, _⟩ => ⟨S786432x64, .i32⟩
  | .hbm, ⟨6, _⟩ => ⟨S786432, .i32⟩
  | .hbm, ⟨7, _⟩ => ⟨S4096x4096, .f32⟩
  | .hbm, ⟨8, _⟩ => ⟨S4096x4096, .bf16⟩
  | .hbm, ⟨9, _⟩ => ⟨S12288x4096, .i32⟩
  | .hbm, ⟨10, _⟩ => ⟨S12288x64, .i32⟩
  | .hbm, ⟨11, _⟩ => ⟨S3072x4, .f32⟩
  | .hbm, ⟨12, _⟩ => ⟨S12288, .f32⟩
  | .hbm, ⟨13, _⟩ => ⟨S12288x1, .f32⟩
  | .hbm, ⟨14, _⟩ => ⟨S1x1, .f32⟩
  | .hbm, ⟨15, _⟩ => ⟨S4096x12288, .f32⟩
  | .local _ .vmem, ⟨0, _⟩ => ⟨S256x4096, .f32⟩
  | .local _ .vmem, ⟨1, _⟩ => ⟨S256x4096, .f32⟩
  | .local _ .vmem, ⟨2, _⟩ => ⟨S4096, .f32⟩
  | .local _ .vmem, ⟨3, _⟩ => ⟨S4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S128x4096, .bf16⟩
  | .local _ .vmem, ⟨9, _⟩ => ⟨S128x4096, .bf16⟩
  | .local _ .vmem, ⟨10, _⟩ => ⟨S512x4096, .i32⟩
  | .local _ .vmem, ⟨11, _⟩ => ⟨S512x4096, .i32⟩
  | .local _ .vmem, ⟨12, _⟩ => ⟨S512x64, .i32⟩
  | .local _ .vmem, ⟨13, _⟩ => ⟨S512x64, .i32⟩
  | .local _ .vmem, ⟨14, _⟩ => ⟨S512x1, .f32⟩
  | .local _ .vmem, ⟨15, _⟩ => ⟨S512x1, .f32⟩
  | .local _ .vmem, ⟨16, _⟩ => ⟨S1x1, .f32⟩
  | .local _ .vmem, ⟨17, _⟩ => ⟨S128x512, .f32⟩
  | .local _ .vmem, ⟨18, _⟩ => ⟨S128x512, .f32⟩
  | .local _ .vmem, ⟨19, _⟩ => ⟨S512x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![24, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x64 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S786432x64_S12288x4096 : S786432x64.ShapeCasts S12288x4096
  shapeCasts_S786432_S12288x64 : S786432.ShapeCasts S12288x64
  bcast_S3072_S3072x4_0 : S3072.BroadcastsInDim S3072x4 (![0] : Fin 1 → Fin S3072x4.rank)
  shapeCasts_S3072x4_S12288 : S3072x4.ShapeCasts S12288
  shapeCasts_S12288_S12288x1 : S12288.ShapeCasts S12288x1
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x64 : S1x1.Broadcasts S512x64
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  slices_S512x64_o0_0_S512x16 : S512x64.Slices ![0, 0] S512x16
  shapeCasts_S512x16_S512x16x1 : S512x16.ShapeCasts S512x16x1
  shapeCasts_S512x16x1_S512x16x1 : S512x16x1.ShapeCasts S512x16x1
  broadcasts_S512x16x1_S512x16x64 : S512x16x1.Broadcasts S512x16x64
  shapeCasts_S512x16x64_S512x1024 : S512x16x64.ShapeCasts S512x1024
  packedbf16_S512x4096_S512x1024_0_0 : (Rect.unit (s := S512x4096) ![0, 0] S512x1024.size inb_S512x4096_S512x1024_0_0).PackedRows (EltTy.packing .bf16)
  inb_S512x4096_S512x1024_0_1024 : ∀ a, (![0, 1024] : Fin 2 → Nat) a + S512x1024.size a ≤ S512x4096.size a
  slices_S512x64_o0_16_S512x16 : S512x64.Slices ![0, 16] S512x16
  packedbf16_S512x4096_S512x1024_0_1024 : (Rect.unit (s := S512x4096) ![0, 1024] S512x1024.size inb_S512x4096_S512x1024_0_1024).PackedRows (EltTy.packing .bf16)
  inb_S512x4096_S512x1024_0_2048 : ∀ a, (![0, 2048] : Fin 2 → Nat) a + S512x1024.size a ≤ S512x4096.size a
  slices_S512x64_o0_32_S512x16 : S512x64.Slices ![0, 32] S512x16
  packedbf16_S512x4096_S512x1024_0_2048 : (Rect.unit (s := S512x4096) ![0, 2048] S512x1024.size inb_S512x4096_S512x1024_0_2048).PackedRows (EltTy.packing .bf16)
  inb_S512x4096_S512x1024_0_3072 : ∀ a, (![0, 3072] : Fin 2 → Nat) a + S512x1024.size a ≤ S512x4096.size a
  slices_S512x64_o0_48_S512x16 : S512x64.Slices ![0, 48] S512x16
  packedbf16_S512x4096_S512x1024_0_3072 : (Rect.unit (s := S512x4096) ![0, 3072] S512x1024.size inb_S512x4096_S512x1024_0_3072).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  transposes_S512x4096_p1_0_S4096x512 : S512x4096.Transposes [1, 0] S4096x512
  inb_S128x512_S128x512_0_0 : ∀ a, (![0, 0] : Fin 2 → Nat) a + S128x512.size a ≤ S128x512.size a
  h_S128x512 : 0 < S128x512.numel
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .bf16 = 32 ∨ (Rect.block (s := S4096x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S12288x4096.size a
  hwx1_1 : ∀ i : grid1.Coords, EltTy.bits .i32 = 32 ∨ (Rect.block (s := S12288x4096) S512x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S12288x64.size a
  hwx1_2 : ∀ i : grid1.Coords, EltTy.bits .i32 = 32 ∨ (Rect.block (s := S12288x64) S512x64.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S12288x1.size a
  hwx1_3 : ∀ i : grid1.Coords, EltTy.bits .f32 = 32 ∨ (Rect.block (s := S12288x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S4096x12288.size a
  hwx1_5 : ∀ i : grid1.Coords, EltTy.bits .f32 = 32 ∨ (Rect.block (s := S4096x12288) S128x512.size (cc1_transform_5 i) (hinb1_5 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S128x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S3072 : Shape := ⟨1, ![3072]⟩
abbrev S1 : Shape := ⟨1, ![1]⟩
abbrev S786432x64 : Shape := ⟨2, ![786432, 64]⟩
abbrev S786432 : Shape := ⟨1, ![786432]⟩
abbrev S16 : Shape := ⟨1, ![16]⟩
abbrev S_ : Shape := ⟨0, ![]⟩
abbrev S4096x1 : Shape := ⟨2, ![4096, 1]⟩
abbrev S1x4096 : Shape := ⟨2, ![1, 4096]⟩
abbrev S3072x256 : Shape := ⟨2, ![3072, 256]⟩
abbrev S3072x1 : Shape := ⟨2, ![3072, 1]⟩
abbrev S1x1 : Shape := ⟨2, ![1, 1]⟩
abbrev S786432x1 : Shape := ⟨2, ![786432, 1]⟩
abbrev S786432x64x1 : Shape := ⟨3, ![786432, 64, 1]⟩
abbrev S12288x4096 : Shape := ⟨2, ![12288, 4096]⟩
abbrev S4096x12288 : Shape := ⟨2, ![4096, 12288]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S3072, .f32⟩
  | .hbm, ⟨4, _⟩ => ⟨S1, .f32⟩
  | .hbm, ⟨5, _⟩ => ⟨S786432x64, .i32⟩
  | .hbm, ⟨6, _⟩ => ⟨S786432, .i32⟩
  | .hbm, ⟨7, _⟩ => ⟨S16, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S786432, .f32⟩
  | .hbm, ⟨38, _⟩ => ⟨S3072x256, .f32⟩
  | .hbm, ⟨39, _⟩ => ⟨S3072x1, .f32⟩
  | .hbm, ⟨40, _⟩ => ⟨S3072x256, .f32⟩
  | .hbm, ⟨41, _⟩ => ⟨S3072x256, .f32⟩
  | .hbm, ⟨42, _⟩ => ⟨S1x1, .f32⟩
  | .hbm, ⟨43, _⟩ => ⟨S3072x256, .f32⟩
  | .hbm, ⟨44, _⟩ => ⟨S3072x256, .f32⟩
  | .hbm, ⟨45, _⟩ => ⟨S786432x1, .f32⟩
  | .hbm, ⟨46, _⟩ => ⟨S_, .i32⟩
  | .hbm, ⟨47, _⟩ => ⟨S786432x64, .i32⟩
  | .hbm, ⟨48, _⟩ => ⟨S786432x64, .i1⟩
  | .hbm, ⟨49, _⟩ => ⟨S_, .i32⟩
  | .hbm, ⟨50, _⟩ => ⟨S786432x64, .i32⟩
  | .hbm, ⟨51, _⟩ => ⟨S786432x64, .i32⟩
  | .hbm, ⟨52, _⟩ => ⟨S786432x64, .i32⟩
  | .hbm, ⟨53, _⟩ => ⟨S786432x64x1, .i32⟩
  | .hbm, ⟨54, _⟩ => ⟨S786432x64, .f32⟩
  | .hbm, ⟨55, _⟩ => ⟨S786432x64, .f32⟩
  | .hbm, ⟨56, _⟩ => ⟨S786432x64, .f32⟩
  | .hbm, ⟨57, _⟩ => ⟨S12288x4096, .f32⟩
  | .hbm, ⟨58, _⟩ => ⟨S4096x12288, .f32⟩
  | .hbm, ⟨59, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S786432_S3072x256 : S786432.ShapeCasts S3072x256
  bcast_S3072_S3072x1_0 : S3072.BroadcastsInDim S3072x1 (![0] : Fin 1 → Fin S3072x1.rank)
  bcast_S3072x1_S3072x256_0_1 : S3072x1.BroadcastsInDim S3072x256 (![0, 1] : Fin 2 → Fin S3072x256.rank)
  bcast_S1_S1x1_1 : S1.BroadcastsInDim S1x1 (![1] : Fin 1 → Fin S1x1.rank)
  bcast_S1x1_S3072x256_0_1 : S1x1.BroadcastsInDim S3072x256 (![0, 1] : Fin 2 → Fin S3072x256.rank)
  shapeCasts_S3072x256_S786432x1 : S3072x256.ShapeCasts S786432x1
  bcast_S_S786432x64 : S_.BroadcastsInDim S786432x64 (![] : Fin 0 → Fin S786432x64.rank)
  bcast_S786432x64_S786432x64x1_0_1 : S786432x64.BroadcastsInDim S786432x64x1 (![0, 1] : Fin 2 → Fin S786432x64x1.rank)
  bcast_S786432x1_S786432x64_0_1 : S786432x1.BroadcastsInDim S786432x64 (![0, 1] : Fin 2 → Fin S786432x64.rank)
  shapeCasts_S786432x64_S12288x4096 : S786432x64.ShapeCasts S12288x4096
  transposes_S12288x4096_S4096x12288_1_0 : S12288x4096.Transposes [1, 0] S4096x12288
  gather_S16_S786432x64x1_S786432x64_n_0_n_n_0_2_1_wf : GatherDims.WF S16 S786432x64x1 S786432x64 [] [0] [] [0] [] 2 ![1]
  dot_S4096x4096_S4096x12288_S4096x12288_1_0_0_1_n_n_wf : DotDims.WF S4096x4096 S4096x12288 S4096x12288 [1] [0] [0] [1] [] []

variable [Facts₀]

def gather_S16_S786432x64x1_S786432x64_n_0_n_n_0_2_1 : GatherDims S16 S786432x64x1 S786432x64 where
  offsetDims := []
  collapsedSliceDims := [0]
  operandBatchingDims := []
  startIndicesBatchingDims := []
  startIndexMap := [0]
  indexVectorDim := 2
  sliceSizes := ![1]
  wf := gather_S16_S786432x64x1_S786432x64_n_0_n_n_0_2_1_wf
def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf

class Facts : Prop extends Facts₀ where

variable [Facts]
-- ==== Proof.K.R0Defs.lean ====
/-
  The layer-normalisation region (the first pallas_call), at the contents `V` the region is entered with: the block
  of each window at a grid point, what the body leaves in its two output windows as a function of the three input
  blocks (the row block of `x`, the weight vector, the bias vector), and the proof data of the pipeline.
  Point `t` of the 16 reads rows `256 t … 256 t + 255` of `x` and the whole weight and bias vectors, and
  writes the same rows of both results (the f32 one and its bf16 copy).
-/
import proofs.«421015_j11192684773387_3_alg».proof.Proof.Gen.Kernel.Launch
import proofs.«421015_j11192684773387_3_alg».proof.Proof.Gen.Kernel.Skeleton
import proofs.«421015_j11192684773387_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row block, and the whole vector: the only rectangles the body touches. -/
abbrev r0_0 : Rect S256x4096 := Rect.unit (s := S256x4096) ![0, 0] S256x4096.size inb_S256x4096_S256x4096_0_0
abbrev r0_1 : Rect S4096 := Rect.unit (s := S4096) ![0] S4096.size inb_S4096_S4096_0

/-- The f32 result's block after the body: one store of the normalised rows. -/
def out0_3 (x0 : Vec F S256x4096 .f32) (x1 x2 : Vec F S4096 .f32) : Vec F S256x4096 .f32 :=
  View.canon [⟨r0_0, k0_pay1 (View.ld x0 r0_0) (View.ld x1 r0_1) (View.ld x2 r0_1)⟩]

/-- The bf16 copy's block after the body: one store of the same rows, narrowed. -/
def out0_4 (x0 : Vec F S256x4096 .f32) (x1 x2 : Vec F S4096 .f32) : Vec F S256x4096 .bf16 :=
  View.canon [⟨r0_0, k0_pay2 (View.ld x0 r0_0) (View.ld x1 r0_1) (View.ld x2 r0_1)⟩]

/-- The proof data of the first pipeline on core `c`: the arrays as the region finds them; after the body at point `t`
    each input's buffer at its block and each output's at the function above of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

end Cert.Kernel.Hand

end
-- ==== Proof.K.R1Defs.lean ====
/-
  The dequantise-and-multiply region (the second pallas_call), at the contents `V` the region is entered with.
  Its grid is 24 × 32: the outer coordinate `j` picks 512 weight rows, the inner `i` picks 128 rows of the
  normalised activations. At `i = 0` the body rebuilds the 512 × 4096 tile of dequantised weights in its scratch buffer
  from the point's blocks of codes, scalers, factors and the mean — four stores of 512 × 1024 columns each — and at every
  point it multiplies the activation block by the transposed scratch. The scratch is carried from point to point: what
  it holds after point `t` is the tile of the point's own weight blocks (they do not change while `i` runs).
-/
import proofs.«421015_j11192684773387_3_alg».proof.Proof.Gen.Kernel.Launch
import proofs.«421015_j11192684773387_3_alg».proof.Proof.Gen.Kernel.Skeleton
import proofs.«421015_j11192684773387_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches -/

/-- The four column quarters of the 512 × 4096 tile (codes read, weights stored). -/
abbrev rq0 : Rect S512x4096 := Rect.unit (s := S512x4096) ![0, 0] S512x1024.size inb_S512x4096_S512x1024_0_0
abbrev rq1 : Rect S512x4096 := Rect.unit (s := S512x4096) ![0, 1024] S512x1024.size inb_S512x4096_S512x1024_0_1024
abbrev rq2 : Rect S512x4096 := Rect.unit (s := S512x4096) ![0, 2048] S512x1024.size inb_S512x4096_S512x1024_0_2048
abbrev rq3 : Rect S512x4096 := Rect.unit (s := S512x4096) ![0, 3072] S512x1024.size inb_S512x4096_S512x1024_0_3072
/-- The whole blocks of the scalers, the factors, the mean, the activations, the tile and the output. -/
abbrev rs : Rect S512x64 := Rect.unit (s := S512x64) ![0, 0] S512x64.size inb_S512x64_S512x64_0_0
abbrev rf : Rect S512x1 := Rect.unit (s := S512x1) ![0, 0] S512x1.size inb_S512x1_S512x1_0_0
abbrev rm : Rect S1x1 := Rect.unit (s := S1x1) ![0, 0] S1x1.size inb_S1x1_S1x1_0_0
abbrev ra : Rect S128x4096 := Rect.unit (s := S128x4096) ![0, 0] S128x4096.size inb_S128x4096_S128x4096_0_0
abbrev rw : Rect S512x4096 := Rect.unit (s := S512x4096) ![0, 0] S512x4096.size inb_S512x4096_S512x4096_0_0
abbrev ro : Rect S128x512 := Rect.unit (s := S128x512) ![0, 0] S128x512.size inb_S128x512_S128x512_0_0

/-! ## What the body computes -/

/-- The 512 × 64 scales of the point's weight rows: scaler over factor plus mean. -/
def sc19 (x2 : Vec F S512x64 .i32) (x3 : Vec F S512x1 .f32) (x4 : Vec F S1x1 .f32) : FVec F S512x64 .f32 :=
  k1_pay3 (View.ld x2 rs) (View.ld x3 rf) (View.ld x4 rm)

/-- The four column quarters of the dequantised tile, each from its quarter of the codes and the scales. -/
def piece0 (x1 : Vec F S512x4096 .i32) (x2 : Vec F S512x64 .i32) (x3 : Vec F S512x1 .f32) (x4 : Vec F S1x1 .f32) : FVec F S512x1024 .bf16 :=
  k1_pay8 (k1_pay6 (k1_pay4 (View.ld x1 rq0)) (k1_pay5 (View.ld x1 rq0)) 6#32) (k1_pay7 (sc19 x2 x3 x4))
def piece1 (x1 : Vec F S512x4096 .i32) (x2 : Vec F S512x64 .i32) (x3 : Vec F S512x1 .f32) (x4 : Vec F S1x1 .f32) : FVec F S512x1024 .bf16 :=
  k1_pay12 (k1_pay11 (sc19 x2 x3 x4) (k1_pay9 (View.ld x1 rq1)) (k1_pay10 (View.ld x1 rq1)))
def piece2 (x1 : Vec F S512x4096 .i32) (x2 : Vec F S512x64 .i32) (x3 : Vec F S512x1 .f32) (x4 : Vec F S1x1 .f32) : FVec F S512x1024 .bf16 :=
  k1_pay18 (k1_pay17 (sc19 x2 x3 x4) (k1_pay13 (View.ld x1 rq2)) (k1_pay14 (View.ld x1 rq2)) (k1_pay15 (View.ld x1 rq2)) (k1_pay16 (F := F)))
def piece3 (x1 : Vec F S512x4096 .i32) (x2 : Vec F S512x64 .i32) (x3 : Vec F S512x1 .f32) (x4 : Vec F S1x1 .f32) : FVec F S512x1024 .bf16 :=
  k1_pay1 (k1_pay22 (sc19 x2 x3 x4) (k1_pay19 (View.ld x1 rq3)) (k1_pay20 (View.ld x1 rq3)) (k1_pay21 (View.ld x1 rq3)) (Scalar.ofBits .f32 0x3DA2FAFF#32))

/-- The dequantised weight tile: the four quarters stored side by side (the last store first). -/
def wq (x1 : Vec F S512x4096 .i32) (x2 : Vec F S512x64 .i32) (x3 : Vec F S512x1 .f32) (x4 : Vec F S1x1 .f32) : Vec F S512x4096 .bf16 :=
  View.canon [⟨rq3, piece3 x1 x2 x3 x4⟩, ⟨rq2, piece2 x1 x2 x3 x4⟩, ⟨rq1, piece1 x1 x2 x3 x4⟩, ⟨rq0, piece0 x1 x2 x3 x4⟩]

/-- The output block: the activation block times the transposed tile. -/
def mm (x0 : Vec F S128x4096 .bf16) (xs : Vec F S512x4096 .bf16) : Vec F S128x512 .f32 :=
  View.canon [⟨ro, k1_pay2 (View.ld x0 ra) (View.ld xs rw)⟩]

/-! ## The branch on the inner grid coordinate -/

/-- The condition of the body's one branch, from the grid coordinates: the inner coordinate is zero. -/
abbrev cond1_0 (i : grid1.Coords) : Prop := (Scalar.cmpi .ne (Scalar.extui (Scalar.cmpi .eq (BitVec.ofNat 32 (i 1).val) 0#32)) 0#32) = 1#1
/-- It holds at the points that are multiples of 32 — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The carried scratch and the invariant -/

/-- The scratch operand as the body is handed it. -/
abbrev scM1 : Memref sig .tc .vmem S512x4096 .bf16 := Memref.whole cc1_scratch0

/-- What the scratch holds after point `t`: the tile of the point's weight blocks. -/
def scAt (c : Dev nD) (t : Fin cfg1.N) : Vec F S512x4096 .bf16 :=
  wq (iblk1 V c 1 t) (iblk1 V c 2 t) (iblk1 V c 3 t) (iblk1 V c 4 t)

/-- The region invariant before position `n`: before the first point the scoped rest (every buffer at anything) and the
    generator register; afterwards the same with the scratch at what the point before left in it. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare (scAt V c ⟨n, hn⟩)) ∗ (∃ r, prngReg c r))

/-- The invariant handed by the launch, with the scratch as an owned memref at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare (scAt V c ⟨n, hn⟩)) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare (scAt V c ⟨n - 1, by omega⟩)) ∗ (∃ r, prngReg c r)) := by
  cases n with
  | zero => exact absurd rfl hz
  | succ n => rfl

/-- The proof data of the second pipeline on core `c`: the arrays as the region finds them; after the body at point `t`
    each input's buffer at its block and the output's at the product of the activation block with the tile the scratch
    holds then; the invariant carries the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => mm (iblk1 V c 0 t) (scAt V c t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = mm (iblk1 V c 0 t) (scAt V c t) := by dsimp only [dat1]

end Cert.Kernel.Hand

end
-- ==== Proof.K.RunDefs.lean ====
/-
  The contents of every unscoped buffer at each boundary of @main — launch, after the layer-normalisation region, after the
  six host reshapes and broadcasts that lay the quantised weights out, after the dequantise-and-multiply region — as a fold
  from the launch memory: a region leaves its windows' arrays at what its write-backs make of them and every other buffer
  as it found it; a host stretch applies its operations. Read at the arguments the last fold is the launch memory (no region
  and no host operation writes an argument); read at the two results it is what the two pipelines' proof data compute.
-/
import proofs.«421015_j11192684773387_3_alg».proof.Proof.Gen.Kernel.Launch
import proofs.«421015_j11192684773387_3_alg».proof.Proof.Gen.Kernel.Skeleton
import proofs.«421015_j11192684773387_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«421015_j11192684773387_3_alg».proof.Proof.Gen.Kernel.Regions
import proofs.«421015_j11192684773387_3_alg».proof.Proof.K.R0Defs
import proofs.«421015_j11192684773387_3_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the first region is entered with. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its two result arrays at what the pipeline leaves, everything else as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- The host stretch writes only its own six results. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- After the second region: its result array at what the pipeline leaves, everything else as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the results are the pipelines' -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W0 m ρ c (Proc.devRef .tc main_arg1) := (W2_arr m ρ c 1).trans (((dat0 (V1 m ρ) c).arrAt_in 1 rfl _).trans (A_eq0 (V1 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W0 m ρ c (Proc.devRef .tc main_arg2) := (W2_arr m ρ c 2).trans (((dat0 (V1 m ρ) c).arrAt_in 2 rfl _).trans (A_eq0 (V1 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W0 m ρ c (Proc.devRef .tc main_arg3) := W2_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W0 m ρ c (Proc.devRef .tc main_arg4) := W2_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W0 m ρ c (Proc.devRef .tc main_arg5) := W2_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W0 m ρ c (Proc.devRef .tc main_arg6) := W2_of_ne m ρ c main_arg6 (by decide)
    _ = m ((c : Thread nD τ).loc main_arg6) := rfl

/-- The linear layer's result is the second pipeline's output array. -/
theorem W4_main_v7 (c : Dev nD) : W4 m ρ c (Proc.devRef .tc main_v7) = (dat1 (V3 m ρ) c).arrAt 5 cfg1.N :=
  W4_arr m ρ c 5
/-- The normalised array is the first pipeline's f32 output array: nothing after that region writes it. -/
theorem W4_main_v0_0 (c : Dev nD) : W4 m ρ c (Proc.devRef .tc main_v0_0) = (dat0 (V1 m ρ) c).arrAt 3 cfg0.N :=
  calc W4 m ρ c (Proc.devRef .tc main_v0_0)
    _ = W3 m ρ c (Proc.devRef .tc main_v0_0) := W4_of_ne m ρ c main_v0_0 (by decide)
    _ = W2 m ρ c (Proc.devRef .tc main_v0_0) := W3_of m ρ c main_v0_0 (by decide)
    _ = (dat0 (V1 m ρ) c).arrAt 3 cfg0.N := W2_arr m ρ c 3
/-- The second region finds the bf16 copy as the first pipeline left it. -/
theorem V3_main_v0_1 (c : Dev nD) : V3 m ρ c main_v0_1 = (dat0 (V1 m ρ) c).arrAt 4 cfg0.N :=
  (W3_of m ρ c main_v0_1 (by decide)).trans (W2_arr m ρ c 4)

end Cert.Kernel.Hand

end
-- ==== Proof.K.R0Body.lean ====
/-
  The body obligation of the layer-normalisation region (the first pallas_call, a grid of 16 points).

  At point `t` the body reads three staging buffers — the row block of `x` (rows `256 t … 256 t + 255`), the weight
  vector and the bias vector — and fills two: the normalised rows in f32 and the same rows narrowed to bf16. Each
  result buffer is written whole by one store, so what it holds afterwards is a function of the three input blocks
  alone, whatever it held before (the body also reads each result buffer once before storing into it; the value read
  is never used). The weight and bias vectors are brought in at the first point only: their block index never moves,
  so at every later point the buffer still holds the one block there is.
-/
import proofs.«421015_j11192684773387_3_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- The row block of `x`: its buffer holds rows `256 t … 256 t + 255` at every point, for any proof data whose array is
    the region's and whose body leaves the block where it found it. The block index moves at every point, so the
    block is fetched each time. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight vector: fetched at the first point only, and still there at every later one, since the block index
    stays where it was and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector: as the weight vector. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Each result buffer is written whole -/

/-- The one store of the normalised rows is through the whole 256 x 4096 rectangle: every index lies under it. -/
theorem cover0_3 (p : Vec F S256x4096 .f32) (y : S256x4096.Idx) :
    ∃ pc ∈ ([⟨r0_0, p⟩] : List (View.Piece (Elt F) S256x4096 .f32)), y ∈ pc.1.set :=
  View.cover_of_tiled [⟨r0_0, p⟩] S256x4096.size (by rfl) y

/-- So is the one store of the narrowed rows. -/
theorem cover0_4 (p : Vec F S256x4096 .bf16) (y : S256x4096.Idx) :
    ∃ pc ∈ ([⟨r0_0, p⟩] : List (View.Piece (Elt F) S256x4096 .bf16)), y ∈ pc.1.set :=
  View.cover_of_tiled [⟨r0_0, p⟩] S256x4096.size (by rfl) y

/-! ## The body's triple -/

set_option maxHeartbeats 1000000 in
/-- The body at any grid coordinate, on whole buffers: the row block at `x0`, the weight vector at `x1`, the bias vector
    at `x2`, each result buffer at anything. It runs to a continuation that receives the three inputs as they were,
    the f32 result buffer at the normalised rows and the bf16 one at the same rows narrowed. The two reads of the result
    buffers return whatever was there and feed nothing; each result buffer's one store lies over the whole buffer, so
    what it reads afterwards is the store's payload laid over any prior contents, that is the canonical contents of
    the one-piece list. The grid coordinate enters no address and no value. -/
theorem sound_kernel0 (c : Dev nD) (E : Set ℕ) (i : grid0.Coords)
    (arg1 : Memref sig .tc .vmem S256x4096 .f32) (harg1 : arg1.IsWhole)
    (arg2 : Memref sig .tc .vmem S4096 .f32) (harg2 : arg2.IsWhole)
    (arg3 : Memref sig .tc .vmem S4096 .f32) (harg3 : arg3.IsWhole)
    (arg4 : Memref sig .tc .vmem S256x4096 .f32) (harg4 : arg4.IsWhole)
    (arg5 : Memref sig .tc .vmem S256x4096 .bf16) (harg5 : arg5.IsWhole)
    (x0 : Vec F S256x4096 .f32) (x1 x2 : Vec F S4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E
          (cc0__ln_kernel i arg1 harg1 arg2 harg2 arg3 harg3 arg4 harg4 arg5 harg5) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## What the body is handed, and what it hands back -/

/-- At the region's proof data each input buffer holds its block at every point: the row block of `x`, -/
theorem before0_0 (c : Dev nD) (t : Fin cfg0.N) (d) : (dat0 V c).before 0 t d = iblk0 V c 0 t :=
  before0_0_of V (dat0 V c) (A_eq0 V c 0) (after0_0 V c) t d
/-- the weight vector, -/
theorem before0_1 (c : Dev nD) (t : Fin cfg0.N) (d) : (dat0 V c).before 1 t d = iblk0 V c 1 t :=
  before0_1_of V (dat0 V c) (A_eq0 V c 1) (after0_1 V c) t d
/-- and the bias vector. -/
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what the core owes, and the five current buffers, each at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the three input buffers hold their blocks, so the body's triple applies at those blocks; the
    two result buffers are handed over at whatever they hold; the invariant and what the core owes do not depend on
    the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the layer-normalisation pipeline, at every one of its 16 points. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Kernel.lean ====
/-
  The body of the dequantise-and-multiply region as a triple, in its two control cases.
  When the inner grid coordinate is not zero the body leaves the scratch tile as it found it and stores the product of
  the activation block with the transposed tile into the output block. When it is zero the body first rebuilds the tile:
  it stores the four column quarters, each computed from its quarter of the codes and the scales, and the tile it then
  reads back whole is the four quarters side by side.
-/
import proofs.«421015_j11192684773387_3_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The stores cover their buffers -/

/-- The one store into the output block covers it. -/
theorem cover_o (p0 : Vec F S128x512 .f32) (y : S128x512.Idx) :
    ∃ pc ∈ ([⟨ro, p0⟩] : List (View.Piece (Elt F) S128x512 .f32)), y ∈ pc.1.set :=
  View.cover_of_tiled [⟨ro, p0⟩] S128x512.size (by rfl) y

/-- The four quarter stores tile the scratch tile, so they cover it. -/
theorem cover_w (p3 p2 p1 p0 : Vec F S512x1024 .bf16) (y : S512x4096.Idx) :
    ∃ pc ∈ ([⟨rq3, p3⟩, ⟨rq2, p2⟩, ⟨rq1, p1⟩, ⟨rq0, p0⟩] : List (View.Piece (Elt F) S512x4096 .bf16)), y ∈ pc.1.set :=
  View.cover_of_tiled [⟨rq3, p3⟩, ⟨rq2, p2⟩, ⟨rq1, p1⟩, ⟨rq0, p0⟩] S512x1024.size (by rfl) y

/-! ## The body's triple, case by case -/

set_option maxHeartbeats 1000000 in
/-- Off the first inner coordinate the body keeps the scratch tile and stores the product of the activation block with
    the transposed tile. -/
theorem sound_kernel1_B (c : Dev nD) (E : Set ℕ) (i : grid1.Coords) (hc : ¬cond1_0 i) (arg2 : Memref sig .tc .vmem S128x4096 .bf16) (harg2 : arg2.IsWhole) (arg3 : Memref sig .tc .vmem S512x4096 .i32) (harg3 : arg3.IsWhole) (arg4 : Memref sig .tc .vmem S512x64 .i32) (harg4 : arg4.IsWhole) (arg5 : Memref sig .tc .vmem S512x1 .f32) (harg5 : arg5.IsWhole) (arg6 : Memref sig .tc .vmem S1x1 .f32) (harg6 : arg6.IsWhole) (arg7 : Memref sig .tc .vmem S128x512 .f32) (harg7 : arg7.IsWhole) (arg8 : Memref sig .tc .vmem S512x4096 .bf16) (harg8 : arg8.IsWhole)
    (x0 : Vec F S128x4096 .bf16) (x1 : Vec F S512x4096 .i32) (x2 : Vec F S512x64 .i32) (x3 : Vec F S512x1 .f32) (x4 : Vec F S1x1 .f32) (xs : Vec F S512x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
             ∗ owns (c : Thread nD τ) arg7 fullShare (mm x0 xs) ∗ owns (c : Thread nD τ) arg8 fullShare xs) -∗ K ⟨⟩))
      ⊢ wp frame (wpE (defs₀ (F := F)) Variants.none c none) E (cc1__nf4_matmul_kernel i arg2 harg2 arg3 harg3 arg4 harg4 arg5 harg5 arg6 harg6 arg7 harg7 arg8 harg8) K := by
  simp only [cc1__nf4_matmul_kernel_eq_skeleton]; unfold cc1__nf4_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0 hf1 hf2 hf3 hf4 hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    unfold mm
    exact View.read_writes_eq_canon _ _ _ (cover_o _)
  iexists f8; isplitr; · ipureintro; rfl
  iexact H8

set_option maxHeartbeats 2000000 in
/-- At the first inner coordinate the body rebuilds the scratch tile from the point's blocks of codes, scalers, factors
    and the mean, quarter by quarter, reads it back whole, and stores the product of the activation block with the
    transposed tile. -/
theorem sound_kernel1_A (c : Dev nD) (E : Set ℕ) (i : grid1.Coords) (hc : cond1_0 i) (arg2 : Memref sig .tc .vmem S128x4096 .bf16) (harg2 : arg2.IsWhole) (arg3 : Memref sig .tc .vmem S512x4096 .i32) (harg3 : arg3.IsWhole) (arg4 : Memref sig .tc .vmem S512x64 .i32) (harg4 : arg4.IsWhole) (arg5 : Memref sig .tc .vmem S512x1 .f32) (harg5 : arg5.IsWhole) (arg6 : Memref sig .tc .vmem S1x1 .f32) (harg6 : arg6.IsWhole) (arg7 : Memref sig .tc .vmem S128x512 .f32) (harg7 : arg7.IsWhole) (arg8 : Memref sig .tc .vmem S512x4096 .bf16) (harg8 : arg8.IsWhole)
    (x0 : Vec F S128x4096 .bf16) (x1 : Vec F S512x4096 .i32) (x2 : Vec F S512x64 .i32) (x3 : Vec F S512x1 .f32) (x4 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
             ∗ owns (c : Thread nD τ) arg7 fullShare (mm x0 (wq x1 x2 x3 x4)) ∗ owns (c : Thread nD τ) arg8 fullShare (wq x1 x2 x3 x4)) -∗ K ⟨⟩))
      ⊢ wp frame (wpE (defs₀ (F := F)) Variants.none c none) E (cc1__nf4_matmul_kernel i arg2 harg2 arg3 harg3 arg4 harg4 arg5 harg5 arg6 harg6 arg7 harg7 arg8 harg8) K := by
  simp only [cc1__nf4_matmul_kernel_eq_skeleton]; unfold cc1__nf4_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    unfold mm wq piece3 piece2 piece1 piece0 sc19
    sl_unfold_words
    rw [View.readCov_eq_canon_ld _ _ _ (cover_w _ _ _ _)]
    exact View.read_writes_eq_canon _ _ _ (cover_o _)
  iexists _; isplitr
  swap; · iexact H8
  ipureintro
  unfold wq piece3 piece2 piece1 piece0 sc19
  sl_unfold_words
  exact View.read_writes_eq_canon _ _ _ (cover_w _ _ _ _)

end Cert.Kernel.Hand

end
-- ==== Proof.K.R1Body.lean ====
/-
  The body obligation of the dequantise-and-multiply region (the second pallas_call, a grid of 24 × 32 = 768 points).

  Point `t` has outer coordinate `t / 32` (which 512 weight rows) and inner coordinate `t % 32` (which 128 rows of the
  normalised activations). The blocks of the codes, the scalers, the factors and the mean depend on the outer coordinate
  only, so they are the same at `t - 1` and at `t` whenever the inner coordinate of `t` is not zero. The body rebuilds
  the dequantised tile in its scratch buffer when the inner coordinate is zero and reuses it otherwise; in both cases the
  scratch ends at the tile of the point's own weight blocks, and the output block ends at the activation block times the
  transposed tile. The output block is stored, and written back, at every point.
-/
import proofs.«421015_j11192684773387_3_alg».proof.Proof.K.R1Kernel

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- The activation block: its block index is the inner coordinate, which moves at every point, so the block is fetched
    each time and the buffer holds rows `128 (t % 32) … 128 (t % 32) + 127`, for any proof data whose array is the
    region's and whose body leaves the block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The codes: the block index is the outer coordinate; the block is fetched when the inner coordinate is zero and is
    still in its buffer at the 31 points that follow, since the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scalers: as the codes. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The factors: as the codes. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The mean: one block, fetched at the first point and in its buffer ever after. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- At the region's proof data each input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The weight blocks do not move while the inner coordinate runs -/

/-- Off the first inner coordinate the block index of the codes, the scalers, the factors and the mean is what it was at
    the point before: the first three read the outer coordinate only, the last reads none — decided over the grid. -/
theorem idx1_1 : ∀ t : Fin cfg1.N, ¬t.val % 32 = 0 → ∀ a,
    (cfg1.win 1).index ⟨t.val - 1, Nat.lt_of_le_of_lt (Nat.sub_le _ _) t.isLt⟩ a = (cfg1.win 1).index t a :=
  (by decide +kernel : ∀ t : Fin grid1.N, ¬t.val % 32 = 0 → ∀ a,
    win1_1.index ⟨t.val - 1, Nat.lt_of_le_of_lt (Nat.sub_le _ _) t.isLt⟩ a = win1_1.index t a)
theorem idx1_2 : ∀ t : Fin cfg1.N, ¬t.val % 32 = 0 → ∀ a,
    (cfg1.win 2).index ⟨t.val - 1, Nat.lt_of_le_of_lt (Nat.sub_le _ _) t.isLt⟩ a = (cfg1.win 2).index t a :=
  (by decide +kernel : ∀ t : Fin grid1.N, ¬t.val % 32 = 0 → ∀ a,
    win1_2.index ⟨t.val - 1, Nat.lt_of_le_of_lt (Nat.sub_le _ _) t.isLt⟩ a = win1_2.index t a)
theorem idx1_3 : ∀ t : Fin cfg1.N, ¬t.val % 32 = 0 → ∀ a,
    (cfg1.win 3).index ⟨t.val - 1, Nat.lt_of_le_of_lt (Nat.sub_le _ _) t.isLt⟩ a = (cfg1.win 3).index t a :=
  (by decide +kernel : ∀ t : Fin grid1.N, ¬t.val % 32 = 0 → ∀ a,
    win1_3.index ⟨t.val - 1, Nat.lt_of_le_of_lt (Nat.sub_le _ _) t.isLt⟩ a = win1_3.index t a)
theorem idx1_4 : ∀ t : Fin cfg1.N, ¬t.val % 32 = 0 → ∀ a,
    (cfg1.win 4).index ⟨t.val - 1, Nat.lt_of_le_of_lt (Nat.sub_le _ _) t.isLt⟩ a = (cfg1.win 4).index t a :=
  (by decide +kernel : ∀ t : Fin grid1.N, ¬t.val % 32 = 0 → ∀ a,
    win1_4.index ⟨t.val - 1, Nat.lt_of_le_of_lt (Nat.sub_le _ _) t.isLt⟩ a = win1_4.index t a)

/-- So the block itself is what it was at the point before: the two blocks are the same rectangle of the same array,
    its offset on each axis the block index times the block size. -/
theorem iblk1_1_same (c : Dev nD) (t : Fin cfg1.N) (h : ¬t.val % 32 = 0) :
    (iblk1 V c 1 ⟨t.val - 1, Nat.lt_of_le_of_lt (Nat.sub_le _ _) t.isLt⟩ : Vec F S512x4096 .i32) = iblk1 V c 1 t := by
  have hf : ∀ (s : Fin cfg1.N) d, (dat1 V c).fetched 1 s d = iblk1 V c 1 s := fun s d => by
    unfold Dat.fetched Dat.blockOf iblk1; rw [A_eq1]; try rfl
  exact (hf _ (iblk1 V c 1 t)).symm.trans
    (((dat1 V c).fetched_congr 1 (funext (idx1_1 t h)) rfl (iblk1 V c 1 t)).trans (hf t (iblk1 V c 1 t)))
theorem iblk1_2_same (c : Dev nD) (t : Fin cfg1.N) (h : ¬t.val % 32 = 0) :
    (iblk1 V c 2 ⟨t.val - 1, Nat.lt_of_le_of_lt (Nat.sub_le _ _) t.isLt⟩ : Vec F S512x64 .i32) = iblk1 V c 2 t := by
  have hf : ∀ (s : Fin cfg1.N) d, (dat1 V c).fetched 2 s d = iblk1 V c 2 s := fun s d => by
    unfold Dat.fetched Dat.blockOf iblk1; rw [A_eq1]; try rfl
  exact (hf _ (iblk1 V c 2 t)).symm.trans
    (((dat1 V c).fetched_congr 2 (funext (idx1_2 t h)) rfl (iblk1 V c 2 t)).trans (hf t (iblk1 V c 2 t)))
theorem iblk1_3_same (c : Dev nD) (t : Fin cfg1.N) (h : ¬t.val % 32 = 0) :
    (iblk1 V c 3 ⟨t.val - 1, Nat.lt_of_le_of_lt (Nat.sub_le _ _) t.isLt⟩ : Vec F S512x1 .f32) = iblk1 V c 3 t := by
  have hf : ∀ (s : Fin cfg1.N) d, (dat1 V c).fetched 3 s d = iblk1 V c 3 s := fun s d => by
    unfold Dat.fetched Dat.blockOf iblk1; rw [A_eq1]; try rfl
  exact (hf _ (iblk1 V c 3 t)).symm.trans
    (((dat1 V c).fetched_congr 3 (funext (idx1_3 t h)) rfl (iblk1 V c 3 t)).trans (hf t (iblk1 V c 3 t)))
theorem iblk1_4_same (c : Dev nD) (t : Fin cfg1.N) (h : ¬t.val % 32 = 0) :
    (iblk1 V c 4 ⟨t.val - 1, Nat.lt_of_le_of_lt (Nat.sub_le _ _) t.isLt⟩ : Vec F S1x1 .f32) = iblk1 V c 4 t := by
  have hf : ∀ (s : Fin cfg1.N) d, (dat1 V c).fetched 4 s d = iblk1 V c 4 s := fun s d => by
    unfold Dat.fetched Dat.blockOf iblk1; rw [A_eq1]; try rfl
  exact (hf _ (iblk1 V c 4 t)).symm.trans
    (((dat1 V c).fetched_congr 4 (funext (idx1_4 t h)) rfl (iblk1 V c 4 t)).trans (hf t (iblk1 V c 4 t)))

/-- And so is the tile built from the four blocks. -/
theorem scAt_same (c : Dev nD) (t : Fin cfg1.N) (h : ¬t.val % 32 = 0) :
    scAt V c ⟨t.val - 1, Nat.lt_of_le_of_lt (Nat.sub_le _ _) t.isLt⟩ = scAt V c t := by
  unfold scAt
  exact congr (congr (congr (congrArg wq (iblk1_1_same V c t h)) (iblk1_2_same V c t h)) (iblk1_3_same V c t h)) (iblk1_4_same V c t h)

/-! ## What the body is handed, and what it hands back -/

/-- What the body is called with at point `t`: the invariant, what the core owes, and the six current buffers, each at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same at the next point, each buffer at what the body leaves in it. No window is idle at any
    point: the output block is stored every time. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The tile of a point's own weight blocks, spelled out. -/
theorem scAt_eq (c : Dev nD) (t : Fin cfg1.N) :
    scAt V c t = wq (iblk1 V c 1 t) (iblk1 V c 2 t) (iblk1 V c 3 t) (iblk1 V c 4 t) := rfl

set_option maxHeartbeats 2000000 in
/-- The body at any point. The five input buffers hold their blocks. Where the inner coordinate is zero the body's
    rebuilding triple applies, whatever the scratch holds — at the very first point the launch's invariant hands it at
    anything, later the carried invariant hands it at the previous tile, which is forgotten —, and leaves in the scratch
    the tile of this point's weight blocks. Elsewhere the point is not the first, the carried invariant hands the
    scratch at the tile of the point before, which is this point's tile because the weight blocks have not moved, and the
    reusing triple applies at that tile and leaves it in place. Either way the output buffer ends at the activation
    block times the transposed tile of this point; the eight staging buffers of the other region, the generator register
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rewrite [show (dat1 V c).owesAt () t.succ = (dat1 V c).owesAt () t.castSucc from rfl]
  rewrite [show (dat1 V c).Φ t.succ = PhiS V c (t.val + 1) t.isLt from rfl, PhiS_succ,
    after1_0, after1_1, after1_2, after1_3, after1_4, after1_5,
    show scAt V c ⟨t.val, t.isLt⟩ = scAt V c t from rfl]
  by_cases h0 : t.val % 32 = 0
  · rewrite [scAt_eq V c t]
    by_cases hz : t.val = 0
    · rewrite [PhiS_castSucc V c t, PhiS_zero V c _ _ hz, PhiA1_eq]
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0) _ _ _ _ _ _ _ _ _ _ _ _ _ _
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hb0 Hb1 Hb2 Hb3 Hb4 Hb5 Hb6 Hb7 HS Hg]
      · isplitr [Hg]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rewrite [PhiS_castSucc V c t, PhiS_pos V c _ _ hz]
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0) _ _ _ _ _ _ _ _ _ _ _ _ _ _
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [Hb0 Hb1 Hb2 Hb3 Hb4 Hb5 Hb6 Hb7 HS Hg]
      · isplitr [Hg]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rewrite [PhiS_castSucc V c t, PhiS_pos V c _ _ hz, scAt_same V c t h0]
    iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun hc => h0 ((hcond1_0 t).mp hc)) _ _ _ _ _ _ _ _ _ _ _ _ _ _
      (iblk1 V c 0 t) (iblk1 V c 1 t) (iblk1 V c 2 t) (iblk1 V c 3 t) (iblk1 V c 4 t) (scAt V c t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hb0 Hb1 Hb2 Hb3 Hb4 Hb5 Hb6 Hb7 HS Hg]
    · isplitr [Hg]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation of the dequantise-and-multiply pipeline, at every one of its 768 points. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: the layer-normalisation region, the host stretch, the dequantise-and-multiply region, as three segments
  over the thread state "every unscoped buffer at the boundary's contents, the generator register at some state, nothing
  owed". Each region's arrays are split out of the unscoped buffers at its entry and put back at its exit; the second
  region's invariant starts as the launch's and ends with the scratch at named contents, which are forgotten at the exit.
-/
import proofs.«421015_j11192684773387_3_alg».proof.Proof.Gen.Kernel.Launch
import proofs.«421015_j11192684773387_3_alg».proof.Proof.Gen.Kernel.Skeleton
import proofs.«421015_j11192684773387_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«421015_j11192684773387_3_alg».proof.Proof.K.RunDefs
import proofs.«421015_j11192684773387_3_alg».proof.Proof.K.R0Body
import proofs.«421015_j11192684773387_3_alg».proof.Proof.K.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = PhiS (V3 m ρ) c cfg1.N (le_refl _) from rfl,
      PhiS_pos (V3 m ρ) c _ _ (by have : cfg1.N = 768 := N_1; omega)]
    change _ ⊢ iprop((∃ r, prngReg c r) ∗ BI.emp ∗ Pipeline.scopedRest spec1 c)
    rw [scopedRest1_eq]
    simp only [scM1, owns_whole]
    iintro ⟨⟨H1, H2, H3, H4, H5, H6, H7, H8, HS⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact HS
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and every final memory holds each unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The run with the two results named: the linear layer's output and the normalised array at what the two pipelines' proof
    data compute, the arguments as launched. -/
theorem run_results : θ_run defs (onTc (τ := τ) (main (F := F))) ⟨m, fun _ => 0, ρ⟩ (fun r => ∀ c : Dev nD,
      r.2.mem ((c.tc : Thread nD τ).loc main_v7) = (dat1 (V3 m ρ) c).arrAt 5 cfg1.N
      ∧ r.2.mem ((c.tc : Thread nD τ).loc main_v0_0) = (dat0 (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v7 (by decide))).trans (W4_main_v7 m ρ c),
     (h c _ (mem_uc main_v0_0 (by decide))).trans (W4_main_v0_0 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KI.R0Defs.lean ====
/-
  The layer-normalisation region (the first pallas_call), at the contents `V` the region is entered with: the block
  of each window at a grid point, what the body leaves in its two output windows as a function of the three input
  blocks (the row block of `x`, the weight vector, the bias vector), and the proof data of the pipeline.
  Point `t` of the 16 reads rows `256 t … 256 t + 255` of `x` and the whole weight and bias vectors, and
  writes the same rows of both results (the f32 one and its bf16 copy).
-/
import proofs.«421015_j11192684773387_3_alg».proof.Proof.Gen.KernelIdeal.Launch
import proofs.«421015_j11192684773387_3_alg».proof.Proof.Gen.KernelIdeal.Skeleton
import proofs.«421015_j11192684773387_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row block, and the whole vector: the only rectangles the body touches. -/
abbrev r0_0 : Rect S256x4096 := Rect.unit (s := S256x4096) ![0, 0] S256x4096.size inb_S256x4096_S256x4096_0_0
abbrev r0_1 : Rect S4096 := Rect.unit (s := S4096) ![0] S4096.size inb_S4096_S4096_0

/-- The f32 result's block after the body: one store of the normalised rows. -/
def out0_3 (x0 : Vec F S256x4096 .f32) (x1 x2 : Vec F S4096 .f32) : Vec F S256x4096 .f32 :=
  View.canon [⟨r0_0, k0_pay1 (View.ld x0 r0_0) (View.ld x1 r0_1) (View.ld x2 r0_1)⟩]

/-- The bf16 copy's block after the body: one store of the same rows, narrowed. -/
def out0_4 (x0 : Vec F S256x4096 .f32) (x1 x2 : Vec F S4096 .f32) : Vec F S256x4096 .bf16 :=
  View.canon [⟨r0_0, k0_pay2 (View.ld x0 r0_0) (View.ld x1 r0_1) (View.ld x2 r0_1)⟩]

/-- The proof data of the first pipeline on core `c`: the arrays as the region finds them; after the body at point `t`
    each input's buffer at its block and each output's at the function above of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

end Cert.KernelIdeal.Hand

end
-- ==== Proof.KI.R1Defs.lean ====
/-
  The dequantise-and-multiply region (the second pallas_call), at the contents `V` the region is entered with.
  Its grid is 24 × 32: the outer coordinate `j` picks 512 weight rows, the inner `i` picks 128 rows of the
  normalised activations. At `i = 0` the body rebuilds the 512 × 4096 tile of dequantised weights in its scratch buffer
  from the point's blocks of codes, scalers, factors and the mean — four stores of 512 × 1024 columns each — and at every
  point it multiplies the activation block by the transposed scratch. The scratch is carried from point to point: what
  it holds after point `t` is the tile of the point's own weight blocks (they do not change while `i` runs).
-/
import proofs.«421015_j11192684773387_3_alg».proof.Proof.Gen.KernelIdeal.Launch
import proofs.«421015_j11192684773387_3_alg».proof.Proof.Gen.KernelIdeal.Skeleton
import proofs.«421015_j11192684773387_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches -/

/-- The four column quarters of the 512 × 4096 tile (codes read, weights stored). -/
abbrev rq0 : Rect S512x4096 := Rect.unit (s := S512x4096) ![0, 0] S512x1024.size inb_S512x4096_S512x1024_0_0
abbrev rq1 : Rect S512x4096 := Rect.unit (s := S512x4096) ![0, 1024] S512x1024.size inb_S512x4096_S512x1024_0_1024
abbrev rq2 : Rect S512x4096 := Rect.unit (s := S512x4096) ![0, 2048] S512x1024.size inb_S512x4096_S512x1024_0_2048
abbrev rq3 : Rect S512x4096 := Rect.unit (s := S512x4096) ![0, 3072] S512x1024.size inb_S512x4096_S512x1024_0_3072
/-- The whole blocks of the scalers, the factors, the mean, the activations, the tile and the output. -/
abbrev rs : Rect S512x64 := Rect.unit (s := S512x64) ![0, 0] S512x64.size inb_S512x64_S512x64_0_0
abbrev rf : Rect S512x1 := Rect.unit (s := S512x1) ![0, 0] S512x1.size inb_S512x1_S512x1_0_0
abbrev rm : Rect S1x1 := Rect.unit (s := S1x1) ![0, 0] S1x1.size inb_S1x1_S1x1_0_0
abbrev ra : Rect S128x4096 := Rect.unit (s := S128x4096) ![0, 0] S128x4096.size inb_S128x4096_S128x4096_0_0
abbrev rw : Rect S512x4096 := Rect.unit (s := S512x4096) ![0, 0] S512x4096.size inb_S512x4096_S512x4096_0_0
abbrev ro : Rect S128x512 := Rect.unit (s := S128x512) ![0, 0] S128x512.size inb_S128x512_S128x512_0_0

/-! ## What the body computes -/

/-- The 512 × 64 scales of the point's weight rows: scaler over factor plus mean. -/
def sc19 (x2 : Vec F S512x64 .i32) (x3 : Vec F S512x1 .f32) (x4 : Vec F S1x1 .f32) : FVec F S512x64 .f32 :=
  k1_pay3 (View.ld x2 rs) (View.ld x3 rf) (View.ld x4 rm)

/-- The four column quarters of the dequantised tile, each from its quarter of the codes and the scales. -/
def piece0 (x1 : Vec F S512x4096 .i32) (x2 : Vec F S512x64 .i32) (x3 : Vec F S512x1 .f32) (x4 : Vec F S1x1 .f32) : FVec F S512x1024 .bf16 :=
  k1_pay8 (k1_pay6 (k1_pay4 (View.ld x1 rq0)) (k1_pay5 (View.ld x1 rq0)) 6#32) (k1_pay7 (sc19 x2 x3 x4))
def piece1 (x1 : Vec F S512x4096 .i32) (x2 : Vec F S512x64 .i32) (x3 : Vec F S512x1 .f32) (x4 : Vec F S1x1 .f32) : FVec F S512x1024 .bf16 :=
  k1_pay12 (k1_pay11 (sc19 x2 x3 x4) (k1_pay9 (View.ld x1 rq1)) (k1_pay10 (View.ld x1 rq1)))
def piece2 (x1 : Vec F S512x4096 .i32) (x2 : Vec F S512x64 .i32) (x3 : Vec F S512x1 .f32) (x4 : Vec F S1x1 .f32) : FVec F S512x1024 .bf16 :=
  k1_pay18 (k1_pay17 (sc19 x2 x3 x4) (k1_pay13 (View.ld x1 rq2)) (k1_pay14 (View.ld x1 rq2)) (k1_pay15 (View.ld x1 rq2)) (k1_pay16 (F := F)))
def piece3 (x1 : Vec F S512x4096 .i32) (x2 : Vec F S512x64 .i32) (x3 : Vec F S512x1 .f32) (x4 : Vec F S1x1 .f32) : FVec F S512x1024 .bf16 :=
  k1_pay1 (k1_pay22 (sc19 x2 x3 x4) (k1_pay19 (View.ld x1 rq3)) (k1_pay20 (View.ld x1 rq3)) (k1_pay21 (View.ld x1 rq3)) (Scalar.ofBits .f32 0x3DA2FAFF#32))

/-- The dequantised weight tile: the four quarters stored side by side (the last store first). -/
def wq (x1 : Vec F S512x4096 .i32) (x2 : Vec F S512x64 .i32) (x3 : Vec F S512x1 .f32) (x4 : Vec F S1x1 .f32) : Vec F S512x4096 .bf16 :=
  View.canon [⟨rq3, piece3 x1 x2 x3 x4⟩, ⟨rq2, piece2 x1 x2 x3 x4⟩, ⟨rq1, piece1 x1 x2 x3 x4⟩, ⟨rq0, piece0 x1 x2 x3 x4⟩]

/-- The output block: the activation block times the transposed tile. -/
def mm (x0 : Vec F S128x4096 .bf16) (xs : Vec F S512x4096 .bf16) : Vec F S128x512 .f32 :=
  View.canon [⟨ro, k1_pay2 (View.ld x0 ra) (View.ld xs rw)⟩]

/-! ## The branch on the inner grid coordinate -/

/-- The condition of the body's one branch, from the grid coordinates: the inner coordinate is zero. -/
abbrev cond1_0 (i : grid1.Coords) : Prop := (Scalar.cmpi .ne (Scalar.extui (Scalar.cmpi .eq (BitVec.ofNat 32 (i 1).val) 0#32)) 0#32) = 1#1
/-- It holds at the points that are multiples of 32 — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The carried scratch and the invariant -/

/-- The scratch operand as the body is handed it. -/
abbrev scM1 : Memref sig .tc .vmem S512x4096 .bf16 := Memref.whole cc1_scratch0

/-- What the scratch holds after point `t`: the tile of the point's weight blocks. -/
def scAt (c : Dev nD) (t : Fin cfg1.N) : Vec F S512x4096 .bf16 :=
  wq (iblk1 V c 1 t) (iblk1 V c 2 t) (iblk1 V c 3 t) (iblk1 V c 4 t)

/-- The region invariant before position `n`: before the first point the scoped rest (every buffer at anything) and the
    generator register; afterwards the same with the scratch at what the point before left in it. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare (scAt V c ⟨n, hn⟩)) ∗ (∃ r, prngReg c r))

/-- The invariant handed by the launch, with the scratch as an owned memref at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare (scAt V c ⟨n, hn⟩)) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare (scAt V c ⟨n - 1, by omega⟩)) ∗ (∃ r, prngReg c r)) := by
  cases n with
  | zero => exact absurd rfl hz
  | succ n => rfl

/-- The proof data of the second pipeline on core `c`: the arrays as the region finds them; after the body at point `t`
    each input's buffer at its block and the output's at the product of the activation block with the tile the scratch
    holds then; the invariant carries the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => mm (iblk1 V c 0 t) (scAt V c t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = mm (iblk1 V c 0 t) (scAt V c t) := by dsimp only [dat1]

end Cert.KernelIdeal.Hand

end
-- ==== Proof.KI.RunDefs.lean ====
/-
  The contents of every unscoped buffer at each boundary of @main — launch, after the layer-normalisation region, after the
  six host reshapes and broadcasts that lay the quantised weights out, after the dequantise-and-multiply region — as a fold
  from the launch memory: a region leaves its windows' arrays at what its write-backs make of them and every other buffer
  as it found it; a host stretch applies its operations. Read at the arguments the last fold is the launch memory (no region
  and no host operation writes an argument); read at the two results it is what the two pipelines' proof data compute.
-/
import proofs.«421015_j11192684773387_3_alg».proof.Proof.Gen.KernelIdeal.Launch
import proofs.«421015_j11192684773387_3_alg».proof.Proof.Gen.KernelIdeal.Skeleton
import proofs.«421015_j11192684773387_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«421015_j11192684773387_3_alg».proof.Proof.Gen.KernelIdeal.Regions
import proofs.«421015_j11192684773387_3_alg».proof.Proof.KI.R0Defs
import proofs.«421015_j11192684773387_3_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the first region is entered with. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its two result arrays at what the pipeline leaves, everything else as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- The host stretch writes only its own six results. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- After the second region: its result array at what the pipeline leaves, everything else as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the results are the pipelines' -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W0 m ρ c (Proc.devRef .tc main_arg1) := (W2_arr m ρ c 1).trans (((dat0 (V1 m ρ) c).arrAt_in 1 rfl _).trans (A_eq0 (V1 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W0 m ρ c (Proc.devRef .tc main_arg2) := (W2_arr m ρ c 2).trans (((dat0 (V1 m ρ) c).arrAt_in 2 rfl _).trans (A_eq0 (V1 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W0 m ρ c (Proc.devRef .tc main_arg3) := W2_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W0 m ρ c (Proc.devRef .tc main_arg4) := W2_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W0 m ρ c (Proc.devRef .tc main_arg5) := W2_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W0 m ρ c (Proc.devRef .tc main_arg6) := W2_of_ne m ρ c main_arg6 (by decide)
    _ = m ((c : Thread nD τ).loc main_arg6) := rfl

/-- The linear layer's result is the second pipeline's output array. -/
theorem W4_main_v7 (c : Dev nD) : W4 m ρ c (Proc.devRef .tc main_v7) = (dat1 (V3 m ρ) c).arrAt 5 cfg1.N :=
  W4_arr m ρ c 5
/-- The normalised array is the first pipeline's f32 output array: nothing after that region writes it. -/
theorem W4_main_v0_0 (c : Dev nD) : W4 m ρ c (Proc.devRef .tc main_v0_0) = (dat0 (V1 m ρ) c).arrAt 3 cfg0.N :=
  calc W4 m ρ c (Proc.devRef .tc main_v0_0)
    _ = W3 m ρ c (Proc.devRef .tc main_v0_0) := W4_of_ne m ρ c main_v0_0 (by decide)
    _ = W2 m ρ c (Proc.devRef .tc main_v0_0) := W3_of m ρ c main_v0_0 (by decide)
    _ = (dat0 (V1 m ρ) c).arrAt 3 cfg0.N := W2_arr m ρ c 3
/-- The second region finds the bf16 copy as the first pipeline left it. -/
theorem V3_main_v0_1 (c : Dev nD) : V3 m ρ c main_v0_1 = (dat0 (V1 m ρ) c).arrAt 4 cfg0.N :=
  (W3_of m ρ c main_v0_1 (by decide)).trans (W2_arr m ρ c 4)

end Cert.KernelIdeal.Hand

end
-- ==== Proof.KI.R0Body.lean ====
/-
  The body obligation of the layer-normalisation region (the first pallas_call, a grid of 16 points).

  At point `t` the body reads three staging buffers — the row block of `x` (rows `256 t … 256 t + 255`), the weight
  vector and the bias vector — and fills two: the normalised rows in f32 and the same rows narrowed to bf16. Each
  result buffer is written whole by one store, so what it holds afterwards is a function of the three input blocks
  alone, whatever it held before (the body also reads each result buffer once before storing into it; the value read
  is never used). The weight and bias vectors are brought in at the first point only: their block index never moves,
  so at every later point the buffer still holds the one block there is.
-/
import proofs.«421015_j11192684773387_3_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- The row block of `x`: its buffer holds rows `256 t … 256 t + 255` at every point, for any proof data whose array is
    the region's and whose body leaves the block where it found it. The block index moves at every point, so the
    block is fetched each time. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight vector: fetched at the first point only, and still there at every later one, since the block index
    stays where it was and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector: as the weight vector. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Each result buffer is written whole -/

/-- The one store of the normalised rows is through the whole 256 x 4096 rectangle: every index lies under it. -/
theorem cover0_3 (p : Vec F S256x4096 .f32) (y : S256x4096.Idx) :
    ∃ pc ∈ ([⟨r0_0, p⟩] : List (View.Piece (Elt F) S256x4096 .f32)), y ∈ pc.1.set :=
  View.cover_of_tiled [⟨r0_0, p⟩] S256x4096.size (by rfl) y

/-- So is the one store of the narrowed rows. -/
theorem cover0_4 (p : Vec F S256x4096 .bf16) (y : S256x4096.Idx) :
    ∃ pc ∈ ([⟨r0_0, p⟩] : List (View.Piece (Elt F) S256x4096 .bf16)), y ∈ pc.1.set :=
  View.cover_of_tiled [⟨r0_0, p⟩] S256x4096.size (by rfl) y

/-! ## The body's triple -/

set_option maxHeartbeats 1000000 in
/-- The body at any grid coordinate, on whole buffers: the row block at `x0`, the weight vector at `x1`, the bias vector
    at `x2`, each result buffer at anything. It runs to a continuation that receives the three inputs as they were,
    the f32 result buffer at the normalised rows and the bf16 one at the same rows narrowed. The two reads of the result
    buffers return whatever was there and feed nothing; each result buffer's one store lies over the whole buffer, so
    what it reads afterwards is the store's payload laid over any prior contents, that is the canonical contents of
    the one-piece list. The grid coordinate enters no address and no value. -/
theorem sound_kernel0 (c : Dev nD) (E : Set ℕ) (i : grid0.Coords)
    (arg1 : Memref sig .tc .vmem S256x4096 .f32) (harg1 : arg1.IsWhole)
    (arg2 : Memref sig .tc .vmem S4096 .f32) (harg2 : arg2.IsWhole)
    (arg3 : Memref sig .tc .vmem S4096 .f32) (harg3 : arg3.IsWhole)
    (arg4 : Memref sig .tc .vmem S256x4096 .f32) (harg4 : arg4.IsWhole)
    (arg5 : Memref sig .tc .vmem S256x4096 .bf16) (harg5 : arg5.IsWhole)
    (x0 : Vec F S256x4096 .f32) (x1 x2 : Vec F S4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E
          (cc0__ln_kernel i arg1 harg1 arg2 harg2 arg3 harg3 arg4 harg4 arg5 harg5) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## What the body is handed, and what it hands back -/

/-- At the region's proof data each input buffer holds its block at every point: the row block of `x`, -/
theorem before0_0 (c : Dev nD) (t : Fin cfg0.N) (d) : (dat0 V c).before 0 t d = iblk0 V c 0 t :=
  before0_0_of V (dat0 V c) (A_eq0 V c 0) (after0_0 V c) t d
/-- the weight vector, -/
theorem before0_1 (c : Dev nD) (t : Fin cfg0.N) (d) : (dat0 V c).before 1 t d = iblk0 V c 1 t :=
  before0_1_of V (dat0 V c) (A_eq0 V c 1) (after0_1 V c) t d
/-- and the bias vector. -/
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what the core owes, and the five current buffers, each at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the three input buffers hold their blocks, so the body's triple applies at those blocks; the
    two result buffers are handed over at whatever they hold; the invariant and what the core owes do not depend on
    the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the layer-normalisation pipeline, at every one of its 16 points. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Kernel.lean ====
/-
  The body of the dequantise-and-multiply region as a triple, in its two control cases.
  When the inner grid coordinate is not zero the body leaves the scratch tile as it found it and stores the product of
  the activation block with the transposed tile into the output block. When it is zero the body first rebuilds the tile:
  it stores the four column quarters, each computed from its quarter of the codes and the scales, and the tile it then
  reads back whole is the four quarters side by side.
-/
import proofs.«421015_j11192684773387_3_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The stores cover their buffers -/

/-- The one store into the output block covers it. -/
theorem cover_o (p0 : Vec F S128x512 .f32) (y : S128x512.Idx) :
    ∃ pc ∈ ([⟨ro, p0⟩] : List (View.Piece (Elt F) S128x512 .f32)), y ∈ pc.1.set :=
  View.cover_of_tiled [⟨ro, p0⟩] S128x512.size (by rfl) y

/-- The four quarter stores tile the scratch tile, so they cover it. -/
theorem cover_w (p3 p2 p1 p0 : Vec F S512x1024 .bf16) (y : S512x4096.Idx) :
    ∃ pc ∈ ([⟨rq3, p3⟩, ⟨rq2, p2⟩, ⟨rq1, p1⟩, ⟨rq0, p0⟩] : List (View.Piece (Elt F) S512x4096 .bf16)), y ∈ pc.1.set :=
  View.cover_of_tiled [⟨rq3, p3⟩, ⟨rq2, p2⟩, ⟨rq1, p1⟩, ⟨rq0, p0⟩] S512x1024.size (by rfl) y

/-! ## The body's triple, case by case -/

set_option maxHeartbeats 1000000 in
/-- Off the first inner coordinate the body keeps the scratch tile and stores the product of the activation block with
    the transposed tile. -/
theorem sound_kernel1_B (c : Dev nD) (E : Set ℕ) (i : grid1.Coords) (hc : ¬cond1_0 i) (arg2 : Memref sig .tc .vmem S128x4096 .bf16) (harg2 : arg2.IsWhole) (arg3 : Memref sig .tc .vmem S512x4096 .i32) (harg3 : arg3.IsWhole) (arg4 : Memref sig .tc .vmem S512x64 .i32) (harg4 : arg4.IsWhole) (arg5 : Memref sig .tc .vmem S512x1 .f32) (harg5 : arg5.IsWhole) (arg6 : Memref sig .tc .vmem S1x1 .f32) (harg6 : arg6.IsWhole) (arg7 : Memref sig .tc .vmem S128x512 .f32) (harg7 : arg7.IsWhole) (arg8 : Memref sig .tc .vmem S512x4096 .bf16) (harg8 : arg8.IsWhole)
    (x0 : Vec F S128x4096 .bf16) (x1 : Vec F S512x4096 .i32) (x2 : Vec F S512x64 .i32) (x3 : Vec F S512x1 .f32) (x4 : Vec F S1x1 .f32) (xs : Vec F S512x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
             ∗ owns (c : Thread nD τ) arg7 fullShare (mm x0 xs) ∗ owns (c : Thread nD τ) arg8 fullShare xs) -∗ K ⟨⟩))
      ⊢ wp frame (wpE (defs₀ (F := F)) Variants.none c none) E (cc1__nf4_matmul_kernel i arg2 harg2 arg3 harg3 arg4 harg4 arg5 harg5 arg6 harg6 arg7 harg7 arg8 harg8) K := by
  simp only [cc1__nf4_matmul_kernel_eq_skeleton]; unfold cc1__nf4_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0 hf1 hf2 hf3 hf4 hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    unfold mm
    exact View.read_writes_eq_canon _ _ _ (cover_o _)
  iexists f8; isplitr; · ipureintro; rfl
  iexact H8

set_option maxHeartbeats 2000000 in
/-- At the first inner coordinate the body rebuilds the scratch tile from the point's blocks of codes, scalers, factors
    and the mean, quarter by quarter, reads it back whole, and stores the product of the activation block with the
    transposed tile. -/
theorem sound_kernel1_A (c : Dev nD) (E : Set ℕ) (i : grid1.Coords) (hc : cond1_0 i) (arg2 : Memref sig .tc .vmem S128x4096 .bf16) (harg2 : arg2.IsWhole) (arg3 : Memref sig .tc .vmem S512x4096 .i32) (harg3 : arg3.IsWhole) (arg4 : Memref sig .tc .vmem S512x64 .i32) (harg4 : arg4.IsWhole) (arg5 : Memref sig .tc .vmem S512x1 .f32) (harg5 : arg5.IsWhole) (arg6 : Memref sig .tc .vmem S1x1 .f32) (harg6 : arg6.IsWhole) (arg7 : Memref sig .tc .vmem S128x512 .f32) (harg7 : arg7.IsWhole) (arg8 : Memref sig .tc .vmem S512x4096 .bf16) (harg8 : arg8.IsWhole)
    (x0 : Vec F S128x4096 .bf16) (x1 : Vec F S512x4096 .i32) (x2 : Vec F S512x64 .i32) (x3 : Vec F S512x1 .f32) (x4 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
             ∗ owns (c : Thread nD τ) arg7 fullShare (mm x0 (wq x1 x2 x3 x4)) ∗ owns (c : Thread nD τ) arg8 fullShare (wq x1 x2 x3 x4)) -∗ K ⟨⟩))
      ⊢ wp frame (wpE (defs₀ (F := F)) Variants.none c none) E (cc1__nf4_matmul_kernel i arg2 harg2 arg3 harg3 arg4 harg4 arg5 harg5 arg6 harg6 arg7 harg7 arg8 harg8) K := by
  simp only [cc1__nf4_matmul_kernel_eq_skeleton]; unfold cc1__nf4_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    unfold mm wq piece3 piece2 piece1 piece0 sc19
    sl_unfold_words
    rw [View.readCov_eq_canon_ld _ _ _ (cover_w _ _ _ _)]
    exact View.read_writes_eq_canon _ _ _ (cover_o _)
  iexists _; isplitr
  swap; · iexact H8
  ipureintro
  unfold wq piece3 piece2 piece1 piece0 sc19
  sl_unfold_words
  exact View.read_writes_eq_canon _ _ _ (cover_w _ _ _ _)

end Cert.KernelIdeal.Hand

end
-- ==== Proof.KI.R1Body.lean ====
/-
  The body obligation of the dequantise-and-multiply region (the second pallas_call, a grid of 24 × 32 = 768 points).

  Point `t` has outer coordinate `t / 32` (which 512 weight rows) and inner coordinate `t % 32` (which 128 rows of the
  normalised activations). The blocks of the codes, the scalers, the factors and the mean depend on the outer coordinate
  only, so they are the same at `t - 1` and at `t` whenever the inner coordinate of `t` is not zero. The body rebuilds
  the dequantised tile in its scratch buffer when the inner coordinate is zero and reuses it otherwise; in both cases the
  scratch ends at the tile of the point's own weight blocks, and the output block ends at the activation block times the
  transposed tile. The output block is stored, and written back, at every point.
-/
import proofs.«421015_j11192684773387_3_alg».proof.Proof.KI.R1Kernel

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- The activation block: its block index is the inner coordinate, which moves at every point, so the block is fetched
    each time and the buffer holds rows `128 (t % 32) … 128 (t % 32) + 127`, for any proof data whose array is the
    region's and whose body leaves the block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The codes: the block index is the outer coordinate; the block is fetched when the inner coordinate is zero and is
    still in its buffer at the 31 points that follow, since the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scalers: as the codes. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The factors: as the codes. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The mean: one block, fetched at the first point and in its buffer ever after. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- At the region's proof data each input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The weight blocks do not move while the inner coordinate runs -/

/-- Off the first inner coordinate the block index of the codes, the scalers, the factors and the mean is what it was at
    the point before: the first three read the outer coordinate only, the last reads none — decided over the grid. -/
theorem idx1_1 : ∀ t : Fin cfg1.N, ¬t.val % 32 = 0 → ∀ a,
    (cfg1.win 1).index ⟨t.val - 1, Nat.lt_of_le_of_lt (Nat.sub_le _ _) t.isLt⟩ a = (cfg1.win 1).index t a :=
  (by decide +kernel : ∀ t : Fin grid1.N, ¬t.val % 32 = 0 → ∀ a,
    win1_1.index ⟨t.val - 1, Nat.lt_of_le_of_lt (Nat.sub_le _ _) t.isLt⟩ a = win1_1.index t a)
theorem idx1_2 : ∀ t : Fin cfg1.N, ¬t.val % 32 = 0 → ∀ a,
    (cfg1.win 2).index ⟨t.val - 1, Nat.lt_of_le_of_lt (Nat.sub_le _ _) t.isLt⟩ a = (cfg1.win 2).index t a :=
  (by decide +kernel : ∀ t : Fin grid1.N, ¬t.val % 32 = 0 → ∀ a,
    win1_2.index ⟨t.val - 1, Nat.lt_of_le_of_lt (Nat.sub_le _ _) t.isLt⟩ a = win1_2.index t a)
theorem idx1_3 : ∀ t : Fin cfg1.N, ¬t.val % 32 = 0 → ∀ a,
    (cfg1.win 3).index ⟨t.val - 1, Nat.lt_of_le_of_lt (Nat.sub_le _ _) t.isLt⟩ a = (cfg1.win 3).index t a :=
  (by decide +kernel : ∀ t : Fin grid1.N, ¬t.val % 32 = 0 → ∀ a,
    win1_3.index ⟨t.val - 1, Nat.lt_of_le_of_lt (Nat.sub_le _ _) t.isLt⟩ a = win1_3.index t a)
theorem idx1_4 : ∀ t : Fin cfg1.N, ¬t.val % 32 = 0 → ∀ a,
    (cfg1.win 4).index ⟨t.val - 1, Nat.lt_of_le_of_lt (Nat.sub_le _ _) t.isLt⟩ a = (cfg1.win 4).index t a :=
  (by decide +kernel : ∀ t : Fin grid1.N, ¬t.val % 32 = 0 → ∀ a,
    win1_4.index ⟨t.val - 1, Nat.lt_of_le_of_lt (Nat.sub_le _ _) t.isLt⟩ a = win1_4.index t a)

/-- So the block itself is what it was at the point before: the two blocks are the same rectangle of the same array,
    its offset on each axis the block index times the block size. -/
theorem iblk1_1_same (c : Dev nD) (t : Fin cfg1.N) (h : ¬t.val % 32 = 0) :
    (iblk1 V c 1 ⟨t.val - 1, Nat.lt_of_le_of_lt (Nat.sub_le _ _) t.isLt⟩ : Vec F S512x4096 .i32) = iblk1 V c 1 t := by
  have hf : ∀ (s : Fin cfg1.N) d, (dat1 V c).fetched 1 s d = iblk1 V c 1 s := fun s d => by
    unfold Dat.fetched Dat.blockOf iblk1; rw [A_eq1]; try rfl
  exact (hf _ (iblk1 V c 1 t)).symm.trans
    (((dat1 V c).fetched_congr 1 (funext (idx1_1 t h)) rfl (iblk1 V c 1 t)).trans (hf t (iblk1 V c 1 t)))
theorem iblk1_2_same (c : Dev nD) (t : Fin cfg1.N) (h : ¬t.val % 32 = 0) :
    (iblk1 V c 2 ⟨t.val - 1, Nat.lt_of_le_of_lt (Nat.sub_le _ _) t.isLt⟩ : Vec F S512x64 .i32) = iblk1 V c 2 t := by
  have hf : ∀ (s : Fin cfg1.N) d, (dat1 V c).fetched 2 s d = iblk1 V c 2 s := fun s d => by
    unfold Dat.fetched Dat.blockOf iblk1; rw [A_eq1]; try rfl
  exact (hf _ (iblk1 V c 2 t)).symm.trans
    (((dat1 V c).fetched_congr 2 (funext (idx1_2 t h)) rfl (iblk1 V c 2 t)).trans (hf t (iblk1 V c 2 t)))
theorem iblk1_3_same (c : Dev nD) (t : Fin cfg1.N) (h : ¬t.val % 32 = 0) :
    (iblk1 V c 3 ⟨t.val - 1, Nat.lt_of_le_of_lt (Nat.sub_le _ _) t.isLt⟩ : Vec F S512x1 .f32) = iblk1 V c 3 t := by
  have hf : ∀ (s : Fin cfg1.N) d, (dat1 V c).fetched 3 s d = iblk1 V c 3 s := fun s d => by
    unfold Dat.fetched Dat.blockOf iblk1; rw [A_eq1]; try rfl
  exact (hf _ (iblk1 V c 3 t)).symm.trans
    (((dat1 V c).fetched_congr 3 (funext (idx1_3 t h)) rfl (iblk1 V c 3 t)).trans (hf t (iblk1 V c 3 t)))
theorem iblk1_4_same (c : Dev nD) (t : Fin cfg1.N) (h : ¬t.val % 32 = 0) :
    (iblk1 V c 4 ⟨t.val - 1, Nat.lt_of_le_of_lt (Nat.sub_le _ _) t.isLt⟩ : Vec F S1x1 .f32) = iblk1 V c 4 t := by
  have hf : ∀ (s : Fin cfg1.N) d, (dat1 V c).fetched 4 s d = iblk1 V c 4 s := fun s d => by
    unfold Dat.fetched Dat.blockOf iblk1; rw [A_eq1]; try rfl
  exact (hf _ (iblk1 V c 4 t)).symm.trans
    (((dat1 V c).fetched_congr 4 (funext (idx1_4 t h)) rfl (iblk1 V c 4 t)).trans (hf t (iblk1 V c 4 t)))

/-- And so is the tile built from the four blocks. -/
theorem scAt_same (c : Dev nD) (t : Fin cfg1.N) (h : ¬t.val % 32 = 0) :
    scAt V c ⟨t.val - 1, Nat.lt_of_le_of_lt (Nat.sub_le _ _) t.isLt⟩ = scAt V c t := by
  unfold scAt
  exact congr (congr (congr (congrArg wq (iblk1_1_same V c t h)) (iblk1_2_same V c t h)) (iblk1_3_same V c t h)) (iblk1_4_same V c t h)

/-! ## What the body is handed, and what it hands back -/

/-- What the body is called with at point `t`: the invariant, what the core owes, and the six current buffers, each at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same at the next point, each buffer at what the body leaves in it. No window is idle at any
    point: the output block is stored every time. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The tile of a point's own weight blocks, spelled out. -/
theorem scAt_eq (c : Dev nD) (t : Fin cfg1.N) :
    scAt V c t = wq (iblk1 V c 1 t) (iblk1 V c 2 t) (iblk1 V c 3 t) (iblk1 V c 4 t) := rfl

set_option maxHeartbeats 2000000 in
/-- The body at any point. The five input buffers hold their blocks. Where the inner coordinate is zero the body's
    rebuilding triple applies, whatever the scratch holds — at the very first point the launch's invariant hands it at
    anything, later the carried invariant hands it at the previous tile, which is forgotten —, and leaves in the scratch
    the tile of this point's weight blocks. Elsewhere the point is not the first, the carried invariant hands the
    scratch at the tile of the point before, which is this point's tile because the weight blocks have not moved, and the
    reusing triple applies at that tile and leaves it in place. Either way the output buffer ends at the activation
    block times the transposed tile of this point; the eight staging buffers of the other region, the generator register
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rewrite [show (dat1 V c).owesAt () t.succ = (dat1 V c).owesAt () t.castSucc from rfl]
  rewrite [show (dat1 V c).Φ t.succ = PhiS V c (t.val + 1) t.isLt from rfl, PhiS_succ,
    after1_0, after1_1, after1_2, after1_3, after1_4, after1_5,
    show scAt V c ⟨t.val, t.isLt⟩ = scAt V c t from rfl]
  by_cases h0 : t.val % 32 = 0
  · rewrite [scAt_eq V c t]
    by_cases hz : t.val = 0
    · rewrite [PhiS_castSucc V c t, PhiS_zero V c _ _ hz, PhiA1_eq]
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0) _ _ _ _ _ _ _ _ _ _ _ _ _ _
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hb0 Hb1 Hb2 Hb3 Hb4 Hb5 Hb6 Hb7 HS Hg]
      · isplitr [Hg]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rewrite [PhiS_castSucc V c t, PhiS_pos V c _ _ hz]
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0) _ _ _ _ _ _ _ _ _ _ _ _ _ _
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [Hb0 Hb1 Hb2 Hb3 Hb4 Hb5 Hb6 Hb7 HS Hg]
      · isplitr [Hg]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rewrite [PhiS_castSucc V c t, PhiS_pos V c _ _ hz, scAt_same V c t h0]
    iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun hc => h0 ((hcond1_0 t).mp hc)) _ _ _ _ _ _ _ _ _ _ _ _ _ _
      (iblk1 V c 0 t) (iblk1 V c 1 t) (iblk1 V c 2 t) (iblk1 V c 3 t) (iblk1 V c 4 t) (scAt V c t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hb0 Hb1 Hb2 Hb3 Hb4 Hb5 Hb6 Hb7 HS Hg]
    · isplitr [Hg]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation of the dequantise-and-multiply pipeline, at every one of its 768 points. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: the layer-normalisation region, the host stretch, the dequantise-and-multiply region, as three segments
  over the thread state "every unscoped buffer at the boundary's contents, the generator register at some state, nothing
  owed". Each region's arrays are split out of the unscoped buffers at its entry and put back at its exit; the second
  region's invariant starts as the launch's and ends with the scratch at named contents, which are forgotten at the exit.
-/
import proofs.«421015_j11192684773387_3_alg».proof.Proof.Gen.KernelIdeal.Launch
import proofs.«421015_j11192684773387_3_alg».proof.Proof.Gen.KernelIdeal.Skeleton
import proofs.«421015_j11192684773387_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«421015_j11192684773387_3_alg».proof.Proof.KI.RunDefs
import proofs.«421015_j11192684773387_3_alg».proof.Proof.KI.R0Body
import proofs.«421015_j11192684773387_3_alg».proof.Proof.KI.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = PhiS (V3 m ρ) c cfg1.N (le_refl _) from rfl,
      PhiS_pos (V3 m ρ) c _ _ (by have : cfg1.N = 768 := N_1; omega)]
    change _ ⊢ iprop((∃ r, prngReg c r) ∗ BI.emp ∗ Pipeline.scopedRest spec1 c)
    rw [scopedRest1_eq]
    simp only [scM1, owns_whole]
    iintro ⟨⟨H1, H2, H3, H4, H5, H6, H7, H8, HS⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact HS
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and every final memory holds each unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The run with the two results named: the linear layer's output and the normalised array at what the two pipelines' proof
    data compute, the arguments as launched. -/
theorem run_results : θ_run defs (onTc (τ := τ) (main (F := F))) ⟨m, fun _ => 0, ρ⟩ (fun r => ∀ c : Dev nD,
      r.2.mem ((c.tc : Thread nD τ).loc main_v7) = (dat1 (V3 m ρ) c).arrAt 5 cfg1.N
      ∧ r.2.mem ((c.tc : Thread nD τ).loc main_v0_0) = (dat0 (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v7 (by decide))).trans (W4_main_v7 m ρ c),
     (h c _ (mem_uc main_v0_0 (by decide))).trans (W4_main_v0_0 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The two results as functions of the seven argument arrays, index by index, on the extended reals.

  Result 1 is the layer normalisation of each row of `x`: with `mu r` the row's mean (its sum divided by 4096)
  and `var r` the mean of the squared deviations, entry `(r, k)` is
  `(x r k - mu r) * rsqrt (var r + eps) * w k + b k`.

  Result 0 is the product of that array with the transposed dequantised weights: entry `(r, n)` is the sum over
  `k` of `ln r k * wd n k`, where row `n` of the weights is made of 64 blocks of 64 codes — block `j = k / 64`
  of row `n` is block `n * 64 + j` of the code array — each code looked up in the sixteen-level table and
  multiplied by its block's scale `qs (n * 64 + j) / qf (n / 4) + sm`.
-/
import Idealize.ShloMosaic.PureOps.Ideal
import Idealize.ShloMosaic.Lib.ValueIdx

noncomputable section

namespace Cert.Spec

open Idealize.ShloMosaic Idealize.ShloMosaic.ValueIdx

/-- The divisor 4096 and the epsilon, as the words both programs print. -/
abbrev c4096 : EReal := Ideal.ofBits .f32 0x45800000#32
abbrev ceps : EReal := Ideal.ofBits .f32 0x3727C5AC#32

/-- A row's mean. -/
def mu (x : (⟨2, ![4096, 4096]⟩ : Shape).Idx → EReal) (r : Fin 4096) : EReal :=
  Ideal.div (∑ k : Fin 4096, x (ix2 r k)) c4096

/-- A row's variance: the mean of the squared deviations from the row's mean. -/
def var (x : (⟨2, ![4096, 4096]⟩ : Shape).Idx → EReal) (r : Fin 4096) : EReal :=
  Ideal.div (∑ k : Fin 4096, (x (ix2 r k) - mu x r) * (x (ix2 r k) - mu x r)) c4096

/-- The layer normalisation at an entry. -/
def ln (x : (⟨2, ![4096, 4096]⟩ : Shape).Idx → EReal) (w b : (⟨1, ![4096]⟩ : Shape).Idx → EReal) :
    (⟨2, ![4096, 4096]⟩ : Shape).Idx → EReal := fun i =>
  (x (ix2 (i 0) (i 1)) - mu x (i 0)) * Ideal.rsqrt (var x (i 0) + ceps) * w (ix1 (i 1)) + b (ix1 (i 1))

/-- The sixteen-level table as the chain of selections on the code word: level `v` where the code is `v`, zero
    where it is none of the sixteen. -/
def lut (c : BitVec 32) : EReal :=
  Scalar.select (IntOp.cmpi .eq c 15#32) (Ideal.ofBits .f32 0x3F800000#32) <|
  Scalar.select (IntOp.cmpi .eq c 14#32) (Ideal.ofBits .f32 0x3F3913B3#32) <|
  Scalar.select (IntOp.cmpi .eq c 13#32) (Ideal.ofBits .f32 0x3F1007AB#32) <|
  Scalar.select (IntOp.cmpi .eq c 12#32) (Ideal.ofBits .f32 0x3EE1A4B8#32) <|
  Scalar.select (IntOp.cmpi .eq c 11#32) (Ideal.ofBits .f32 0x3EAD033A#32) <|
  Scalar.select (IntOp.cmpi .eq c 10#32) (Ideal.ofBits .f32 0x3E7C04DD#32) <|
  Scalar.select (IntOp.cmpi .eq c 9#32) (Ideal.ofBits .f32 0x3E24CAE3#32) <|
  Scalar.select (IntOp.cmpi .eq c 8#32) (Ideal.ofBits .f32 0x3DA2FAFF#32) <|
  Scalar.select (IntOp.cmpi .eq c 7#32) (Ideal.ofBits .f32 0x00000000#32) <|
  Scalar.select (IntOp.cmpi .eq c 6#32) (Ideal.ofBits .f32 0xBDBA7871#32) <|
  Scalar.select (IntOp.cmpi .eq c 5#32) (Ideal.ofBits .f32 0xBE3D353F#32) <|
  Scalar.select (IntOp.cmpi .eq c 4#32) (Ideal.ofBits .f32 0xBE91A24D#32) <|
  Scalar.select (IntOp.cmpi .eq c 3#32) (Ideal.ofBits .f32 0xBECA32A0#32) <|
  Scalar.select (IntOp.cmpi .eq c 2#32) (Ideal.ofBits .f32 0xBF066B30#32) <|
  Scalar.select (IntOp.cmpi .eq c 1#32) (Ideal.ofBits .f32 0xBF3239B1#32) <|
  Scalar.select (IntOp.cmpi .eq c 0#32) (Ideal.ofBits .f32 0xBF800000#32) (Ideal.ofBits .f32 0x00000000#32)

/-- The scale of block `j` of weight row `n`: the block's integer scaler over the factor of the row's group of four,
    plus the mean. -/
def scale (qs : (⟨1, ![786432]⟩ : Shape).Idx → BitVec 32) (qf : (⟨1, ![3072]⟩ : Shape).Idx → EReal)
    (sm : (⟨1, ![1]⟩ : Shape).Idx → EReal) (n : Fin 12288) (j : Fin 64) : EReal :=
  Ideal.div (((qs (ix1 ⟨n.val * 64 + j.val, by omega⟩)).toInt : ℝ) : EReal) (qf (ix1 ⟨n.val / 4, by omega⟩)) + sm (ix1 0)

/-- The dequantised weight at row `n`, column `k`. -/
def wd (codes : (⟨2, ![786432, 64]⟩ : Shape).Idx → BitVec 32) (qs : (⟨1, ![786432]⟩ : Shape).Idx → BitVec 32)
    (qf : (⟨1, ![3072]⟩ : Shape).Idx → EReal) (sm : (⟨1, ![1]⟩ : Shape).Idx → EReal) (n : Fin 12288) (k : Fin 4096) : EReal :=
  lut (codes (ix2 ⟨n.val * 64 + k.val / 64, by omega⟩ ⟨k.val % 64, by omega⟩)) * scale qs qf sm n ⟨k.val / 64, by omega⟩

/-- The linear layer's output at an entry. -/
def out (x : (⟨2, ![4096, 4096]⟩ : Shape).Idx → EReal) (w b : (⟨1, ![4096]⟩ : Shape).Idx → EReal)
    (qf : (⟨1, ![3072]⟩ : Shape).Idx → EReal) (sm : (⟨1, ![1]⟩ : Shape).Idx → EReal)
    (codes : (⟨2, ![786432, 64]⟩ : Shape).Idx → BitVec 32) (qs : (⟨1, ![786432]⟩ : Shape).Idx → BitVec 32) :
    (⟨2, ![4096, 12288]⟩ : Shape).Idx → EReal := fun j =>
  ∑ k : Fin 4096, ln x w b (ix2 (j 0) k) * wd codes qs qf sm (j 1) k

end Cert.Spec

end
-- ==== Proof.KI.Value0.lean ====
/-
  What the layer-normalisation region leaves in its two result arrays, as one function of the three arrays it reads:
  every entry `(r, k)` of both results is `(x r k - mu r) * rsqrt (var r + eps) * w k + b k`, with `mu r` and
  `var r` the mean and the variance of row `r` of `x`.

  The body works on a block of 256 rows. Its two lane sums are the row sums of the block, the column forms
  [256] → [256,1] → [256,4096] repeat a row's value along the row, and the row form [4096] → [1,4096] → [256,4096]
  repeats the weight and bias vectors down the rows; so an entry of the body's result is the formula above over the block.
  Point `t` of the sixteen reads rows `256 t … 256 t + 255` of `x` and the whole vectors, and a row's mean and variance
  depend on that row alone, so what the point writes back is the same rows of the whole-array function. The sixteen
  blocks cover the 4096 rows (row `r` belongs to point `r / 256`), hence each result array ends holding that function
  everywhere. The bf16 copy is the f32 result narrowed, and on the extended reals narrowing is the identity.
-/
import proofs.«421015_j11192684773387_3_alg».proof.Proof.Spec
import proofs.«421015_j11192684773387_3_alg».proof.Proof.KI.R0Defs
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! The lemmas on the way live in their own namespace; the two results at the end are stated beside the region's data. -/
namespace Ln0

/-! ## The layout operations of the body, read at an entry -/

/-- A [256] vector viewed as a [256,1] column reads, at `(p, 0)`, the vector at `p`. -/
theorem col_cast_apply {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    omega)

/-- A [256,1] column spread over 4096 lanes reads, at `(p, q)`, the column at `p`. -/
theorem col_bcast_apply {α : Type} (w : S256x1.Idx → α) (h : S256x1.Broadcasts S256x4096) (p : Fin 256) (q : Fin 4096) :
    broadcastTo S256x4096 w h (ix2 p q) = w (ix2 p (0 : Fin 1)) := by
  refine broadcastTo_apply w h (ix2 p q) (ix2 p (0 : Fin 1)) fun ax => ?_
  match ax with
  | ⟨0, _⟩ => rfl
  | ⟨1, _⟩ => rfl

/-- A [4096] vector viewed as one row and spread over 256 rows reads, at `(p, q)`, the vector at `q`. -/
theorem row_bcast_apply {α : Type} (x : S4096.Idx → α) (h1 : S4096.ShapeCasts S1x4096) (h2 : S1x4096.Broadcasts S256x4096)
    (p : Fin 256) (q : Fin 4096) :
    broadcastTo S256x4096 (shapeCast S1x4096 x h1) h2 (ix2 p q) = x (ix1 q) :=
  (broadcastTo_1b_ab_apply _ h2 p q).trans (shapeCast_a_1a_apply x h1 0 q)

/-- The sum over the lanes of a [256,4096] block reads, at row `p`, the sum of that row's 4096 entries. -/
theorem lane_sum_apply (src : FVec Ideal S256x4096 .f32) (hφ : FTy.f32 = FTy.f32 ∨ FTy.f32 = FTy.bf16)
    (hacc : (0x00000000#32 : BitVec 32) = 0x00000000#32) (p : Fin 256) :
    multiReduction .add [1] S256 src 0x00000000#32 reduces_S256x4096_S256 hφ hacc (ix1 p) = ∑ k : Fin 4096, src (ix2 p k) := by
  refine (Ideal.multiReduction_add_single src 0x00000000#32 reduces_S256x4096_S256 hφ hacc (ix1 p)).trans ?_
  refine Finset.sum_congr rfl fun k _ => congrArg src ?_
  funext a
  match a with
  | ⟨0, _⟩ => exact Fin.ext rfl
  | ⟨1, _⟩ => exact Fin.ext rfl

/-- The reciprocal square root of a vector reads entry by entry. -/
theorem rsqrt_apply {s : Shape} {φ : FTy} (a : FVec Ideal s φ) (i : s.Idx) : rsqrt a i = Ideal.rsqrt (a i) := rfl

/-! ## The body's payload at an entry -/

/-- The mean of row `p` of a block. -/
def bmu (x0 : Vec Ideal S256x4096 .f32) (p : Fin 256) : EReal :=
  Ideal.div (∑ k : Fin 4096, x0 (ix2 p k)) Cert.Spec.c4096

/-- The variance of row `p` of a block. -/
def bvar (x0 : Vec Ideal S256x4096 .f32) (p : Fin 256) : EReal :=
  Ideal.div (∑ k : Fin 4096, (x0 (ix2 p k) - bmu x0 p) * (x0 (ix2 p k) - bmu x0 p)) Cert.Spec.c4096

theorem pay1_apply (x0 : Vec Ideal S256x4096 .f32) (x1 x2 : Vec Ideal S4096 .f32) (p : Fin 256) (q : Fin 4096) :
    k0_pay1 (F := Ideal) x0 x1 x2 (ix2 p q)
      = (x0 (ix2 p q) - bmu x0 p) * Ideal.rsqrt (bvar x0 p + Cert.Spec.ceps) * x1 (ix1 q) + x2 (ix1 q) := by
  unfold k0_pay1
  simp only [addf_apply, mulf_apply, subf_apply, divf_apply, rsqrt_apply, broadcast_apply, row_bcast_apply, col_bcast_apply,
    col_cast_apply, lane_sum_apply]
  rw [lane_sum_apply, lane_sum_apply]
  simp only [mulf_apply, subf_apply, divf_apply, broadcast_apply, col_bcast_apply, col_cast_apply]
  rw [lane_sum_apply]
  unfold bvar bmu
  rfl

/-- The narrowed payload is the same function. -/
theorem pay2_apply (x0 : Vec Ideal S256x4096 .f32) (x1 x2 : Vec Ideal S4096 .f32) (y : S256x4096.Idx) :
    k0_pay2 (F := Ideal) x0 x1 x2 y = k0_pay1 (F := Ideal) x0 x1 x2 y := rfl

/-- The payload of a block whose rows are rows `base + p` of `X`, against the whole weight and bias vectors, is the layer
    normalisation of `X` at the array entry the block entry stands for: the block row's mean and variance are the array
    row's, sums over the same 4096 entries. -/
theorem pay1_eq_ln (X : S4096x4096.Idx → EReal) (W B : S4096.Idx → EReal)
    (x0 : Vec Ideal S256x4096 .f32) (x1 x2 : Vec Ideal S4096 .f32) (base : Nat) (hbase : base + 256 ≤ 4096)
    (h0 : ∀ (p : Fin 256) (q : Fin 4096), x0 (ix2 p q) = X (ix2 ⟨base + p.val, by omega⟩ q))
    (h1 : ∀ q : Fin 4096, x1 (ix1 q) = W (ix1 q)) (h2 : ∀ q : Fin 4096, x2 (ix1 q) = B (ix1 q))
    (y : S256x4096.Idx) (i : S4096x4096.Idx) (hi0 : (i 0).val = base + (y 0).val) (hi1 : (i 1).val = (y 1).val) :
    k0_pay1 (F := Ideal) x0 x1 x2 y = Cert.Spec.ln X W B i := by
  have hr : i 0 = (⟨base + (y 0).val, by have hy0 : (y 0).val < 256 := (y 0).isLt; omega⟩ : Fin 4096) := Fin.ext hi0
  have hk : i 1 = (y 1 : Fin 4096) := Fin.ext hi1
  have hmu : bmu x0 (y 0) = Cert.Spec.mu X (i 0) := by
    unfold bmu Cert.Spec.mu
    rw [hr]
    exact congrArg (fun s => Ideal.div s Cert.Spec.c4096) (Finset.sum_congr rfl fun k _ => h0 (y 0) k)
  have hvar : bvar x0 (y 0) = Cert.Spec.var X (i 0) := by
    unfold bvar Cert.Spec.var
    rw [hmu, hr]
    exact congrArg (fun s => Ideal.div s Cert.Spec.c4096) (Finset.sum_congr rfl fun k _ => by rw [h0 (y 0) k])
  refine ((congrArg (k0_pay1 (F := Ideal) x0 x1 x2) (eq_ix2 y)).trans (pay1_apply x0 x1 x2 (y 0) (y 1))).trans ?_
  unfold Cert.Spec.ln
  rw [hmu, hvar, h0 (y 0) (y 1), h1 (y 1), h2 (y 1), hk, hr]

/-! ## The blocks: rows of `x`, the whole vectors -/

theorem hz2 : (![0, 0] : Fin 2 → Nat) = fun _ => 0 := funext fun a => by fin_cases a <;> rfl
theorem hz1 : (![0] : Fin 1 → Nat) = fun _ => 0 := funext fun a => by fin_cases a; rfl

/-- A point's number is below 16. -/
theorem pt_lt (t : Fin cfg0.N) : t.val < 16 := lt_of_lt_of_eq t.isLt N_0

/-- The windows' index maps over the sixteen points: the three row-blocked windows are at block row `t`, column block 0;
    the two vectors are at block 0. -/
theorem idx_facts0 : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point `t` is rows `256 t … 256 t + 255` of `x`. -/
theorem xblk_apply (c : Dev nD) (t : Fin cfg0.N) (p : Fin 256) (q : Fin 4096) :
    (iblk0 V c 0 t : Vec Ideal S256x4096 .f32) (ix2 p q)
      = (V c main_arg0 : S4096x4096.Idx → EReal) (ix2 ⟨t.val * 256 + p.val, by have := pt_lt t; omega⟩ q) := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t (0 : Fin 2) * 256 + 1 * p.val = t.val * 256 + p.val; rw [e0]; omega
  | ⟨1, _⟩ => show win0_0.index t (1 : Fin 2) * 4096 + 1 * q.val = q.val; rw [e1]; omega

/-- Window 1's block at every point is the whole weight vector. -/
theorem wblk_apply (c : Dev nD) (t : Fin cfg0.N) (q : Fin 4096) :
    (iblk0 V c 1 t : Vec Ideal S4096 .f32) (ix1 q) = (V c main_arg1 : S4096.Idx → EReal) (ix1 q) := by
  obtain ⟨-, -, e2, -⟩ := idx_facts0 t
  unfold iblk0
  rw [View.read_apply]
  show V c main_arg1 _ = V c main_arg1 _
  refine congrArg (V c main_arg1) ?_
  funext a
  apply Fin.ext
  match a with
  | ⟨0, _⟩ => show win0_1.index t (0 : Fin 1) * 4096 + 1 * q.val = q.val; rw [e2]; omega

/-- Window 2's block at every point is the whole bias vector. -/
theorem bblk_apply (c : Dev nD) (t : Fin cfg0.N) (q : Fin 4096) :
    (iblk0 V c 2 t : Vec Ideal S4096 .f32) (ix1 q) = (V c main_arg2 : S4096.Idx → EReal) (ix1 q) := by
  obtain ⟨-, -, -, e3, -⟩ := idx_facts0 t
  unfold iblk0
  rw [View.read_apply]
  show V c main_arg2 _ = V c main_arg2 _
  refine congrArg (V c main_arg2) ?_
  funext a
  apply Fin.ext
  match a with
  | ⟨0, _⟩ => show win0_2.index t (0 : Fin 1) * 4096 + 1 * q.val = q.val; rw [e3]; omega

/-! ## What a point writes back, and the arrays after the sixteen points -/

/-- Point `t` writes back, to the f32 result, rows `256 t … 256 t + 255` of the layer normalisation. -/
theorem flushed3_eq (c : Dev nD) (t : Fin cfg0.N) :
    (dat0 (F := Ideal) V c).flushed 3 t
      = ((cfg0.win 3).blk t).view.read (Elt Ideal) (Cert.Spec.ln (V c main_arg0) (V c main_arg1) (V c main_arg2)) := by
  show (cfg0.win 3).cut (grid0.coords t) ((dat0 (F := Ideal) V c).after 3 t) = _
  rw [after0_3]
  unfold out0_3
  rw [View.canon_unit_zero hz2]
  simp only [View.ld_unit_zero (S := S256x4096) hz2, View.ld_unit_zero (S := S4096) hz1]
  obtain ⟨-, -, -, -, e4, e5, -⟩ := idx_facts0 t
  have ht := pt_lt t
  funext j
  refine pay1_eq_ln (V c main_arg0) (V c main_arg1) (V c main_arg2) (iblk0 V c 0 t) (iblk0 V c 1 t) (iblk0 V c 2 t)
    (t.val * 256) (by omega) (fun p q => xblk_apply V c t p q) (fun q => wblk_apply V c t q) (fun q => bblk_apply V c t q)
    ((cfg0.win 3).xinj (grid0.coords t) j) (((cfg0.win 3).blk t).view.emb j) ?_ ?_
  · show win0_3.index t (0 : Fin 2) * 256 + 1 * (j 0).val = t.val * 256 + (j 0).val
    rw [e4]; omega
  · show win0_3.index t (1 : Fin 2) * 4096 + 1 * (j 1).val = (j 1).val
    rw [e5]; omega

/-- Point `t` writes back the same rows to the bf16 copy. -/
theorem flushed4_eq (c : Dev nD) (t : Fin cfg0.N) :
    (dat0 (F := Ideal) V c).flushed 4 t
      = ((cfg0.win 4).blk t).view.read (Elt Ideal) (Cert.Spec.ln (V c main_arg0) (V c main_arg1) (V c main_arg2)) := by
  show (cfg0.win 4).cut (grid0.coords t) ((dat0 (F := Ideal) V c).after 4 t) = _
  rw [after0_4]
  unfold out0_4
  rw [View.canon_unit_zero hz2]
  simp only [View.ld_unit_zero (S := S256x4096) hz2, View.ld_unit_zero (S := S4096) hz1]
  obtain ⟨-, -, -, -, -, -, e6, e7⟩ := idx_facts0 t
  have ht := pt_lt t
  funext j
  refine pay1_eq_ln (V c main_arg0) (V c main_arg1) (V c main_arg2) (iblk0 V c 0 t) (iblk0 V c 1 t) (iblk0 V c 2 t)
    (t.val * 256) (by omega) (fun p q => xblk_apply V c t p q) (fun q => wblk_apply V c t q) (fun q => bblk_apply V c t q)
    ((cfg0.win 4).xinj (grid0.coords t) j) (((cfg0.win 4).blk t).view.emb j) ?_ ?_
  · show win0_4.index t (0 : Fin 2) * 256 + 1 * (j 0).val = t.val * 256 + (j 0).val
    rw [e6]; omega
  · show win0_4.index t (1 : Fin 2) * 4096 + 1 * (j 1).val = (j 1).val
    rw [e7]; omega

/-- An entry of the f32 result lies in point `t`'s block iff each coordinate is in the block's range on its axis. -/
theorem mem_blk3 (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v0_0).slice (win0_3.rect t)).set ↔ _
  rw [View.set_slice_whole, Rect.mem_set_unit]
  exact Iff.rfl

/-- The same for the bf16 copy. -/
theorem mem_blk4 (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v0_1).slice (win0_4.rect t)).set ↔ _
  rw [View.set_slice_whole, Rect.mem_set_unit]
  exact Iff.rfl

/-- The point that covers row `r` is `r / 256`. -/
def ptOf (i : S4096x4096.Idx) : Fin cfg0.N :=
  ⟨(i 0).val / 256, by
    have h : (i 0).val < 4096 := (i 0).isLt
    show (i 0).val / 256 < grid0.N
    rw [N_0]; omega⟩

theorem ptOf_val (i : S4096x4096.Idx) : (ptOf i).val = (i 0).val / 256 := rfl

/-- Every entry of the f32 result is in the block of the point that covers its row. -/
theorem cover3 (i : S4096x4096.Idx) :
    ∃ t : Fin cfg0.N, (cfg0.win 3).flush t = true ∧ i ∈ ((cfg0.win 3).blk t).view.set := by
  refine ⟨ptOf i, flush0_3 (ptOf i), ?_⟩
  rw [mem_blk3]
  obtain ⟨-, -, -, -, e4, e5, -⟩ := idx_facts0 (ptOf i)
  have h0 : (i 0).val < 4096 := (i 0).isLt
  have h1 : (i 1).val < 4096 := (i 1).isLt
  have hv := ptOf_val i
  intro a
  match a with
  | ⟨0, _⟩ =>
    show win0_3.index (ptOf i) (0 : Fin 2) * 256 ≤ (i 0).val ∧ (i 0).val < win0_3.index (ptOf i) (0 : Fin 2) * 256 + 256
    rw [e4, hv]; omega
  | ⟨1, _⟩ =>
    show win0_3.index (ptOf i) (1 : Fin 2) * 4096 ≤ (i 1).val ∧ (i 1).val < win0_3.index (ptOf i) (1 : Fin 2) * 4096 + 4096
    rw [e5]; omega

/-- The same for the bf16 copy. -/
theorem cover4 (i : S4096x4096.Idx) :
    ∃ t : Fin cfg0.N, (cfg0.win 4).flush t = true ∧ i ∈ ((cfg0.win 4).blk t).view.set := by
  refine ⟨ptOf i, flush0_4 (ptOf i), ?_⟩
  rw [mem_blk4]
  obtain ⟨-, -, -, -, -, -, e6, e7⟩ := idx_facts0 (ptOf i)
  have h0 : (i 0).val < 4096 := (i 0).isLt
  have h1 : (i 1).val < 4096 := (i 1).isLt
  have hv := ptOf_val i
  intro a
  match a with
  | ⟨0, _⟩ =>
    show win0_4.index (ptOf i) (0 : Fin 2) * 256 ≤ (i 0).val ∧ (i 0).val < win0_4.index (ptOf i) (0 : Fin 2) * 256 + 256
    rw [e6, hv]; omega
  | ⟨1, _⟩ =>
    show win0_4.index (ptOf i) (1 : Fin 2) * 4096 ≤ (i 1).val ∧ (i 1).val < win0_4.index (ptOf i) (1 : Fin 2) * 4096 + 4096
    rw [e7]; omega

end Ln0

open Ln0

/-- The f32 result after the sixteen points: the layer normalisation of `x` with the weights and biases. -/
theorem final0_3 (c : Dev nD) :
    (dat0 (F := Ideal) V c).arrAt 3 cfg0.N = Cert.Spec.ln (V c main_arg0) (V c main_arg1) (V c main_arg2) :=
  (dat0 (F := Ideal) V c).arrAt_eq_of_cover 3 (Cert.Spec.ln (V c main_arg0) (V c main_arg1) (V c main_arg2))
    (fun t _ => flushed3_eq V c t) cover3

/-- The bf16 copy holds the same function: on the extended reals a change of float format is the identity. -/
theorem final0_4 (c : Dev nD) :
    (dat0 (F := Ideal) V c).arrAt 4 cfg0.N = Cert.Spec.ln (V c main_arg0) (V c main_arg1) (V c main_arg2) :=
  (dat0 (F := Ideal) V c).arrAt_eq_of_cover 4 (Cert.Spec.ln (V c main_arg0) (V c main_arg1) (V c main_arg2))
    (fun t _ => flushed4_eq V c t) cover4

end Cert.KernelIdeal.Hand

end
-- ==== Proof.KI.Scl.lean ====
/-
  The scale of one 64-code block of the point's weight rows, from the point's blocks: the block's integer scaler over its
  row's factor, plus the mean.
-/
import proofs.«421015_j11192684773387_3_alg».proof.Proof.Spec
import proofs.«421015_j11192684773387_3_alg».proof.Proof.KI.R1Defs
import Idealize.ShloMosaic.Lib.ValueIdx

noncomputable section

namespace Cert.KernelIdeal.Hand

open Idealize.ShloMosaic Idealize.ShloMosaic.TcCoe Idealize.ShloMosaic.ValueIdx
open Cert.KernelIdeal Cert.KernelIdeal.Gen

/-- Row `p` of the 512, block `j` of its 64: scaler over factor plus mean. -/
def scl (x2 : Vec Ideal S512x64 .i32) (x3 : Vec Ideal S512x1 .f32) (x4 : Vec Ideal S1x1 .f32) (p : Fin 512) (j : Fin 64) : EReal :=
  Ideal.div (((x2 (ix2 p j)).toInt : ℝ) : EReal) (x3 (ix2 p 0)) + x4 (ix2 0 0)

end Cert.KernelIdeal.Hand

end
-- ==== Proof.KI.Pieces01.lean ====
/-
  Two of the four column quarters of the dequantised weight tile, read at an entry: the code's level times its block's scale.
-/
import proofs.«421015_j11192684773387_3_alg».proof.Proof.KI.Scl
import Idealize.ShloMosaic.Lib.ValueLayout

noncomputable section

namespace Cert.KernelIdeal.Hand

open Idealize.ShloMosaic Idealize.ShloMosaic.TcCoe Idealize.ShloMosaic.ValueIdx
open Cert.KernelIdeal Cert.KernelIdeal.Gen

/-! ## Reading through a rectangle of columns -/

/-- A block read through the rectangle of `m0 × m1` entries at offsets `(o0, o1)` is, at `(a, b)`, the block at
    `(o0 + a, o1 + b)`. -/
private theorem ld_unit2_apply01 {α : Type} {n0 n1 m0 m1 : Nat} (X : (⟨2, ![n0, n1]⟩ : Shape).Idx → α) (o0 o1 : Nat)
    (inb : ∀ a, (![o0, o1] : Fin 2 → Nat) a + (![m0, m1] : Fin 2 → Nat) a ≤ (⟨2, ![n0, n1]⟩ : Shape).size a)
    (a : Fin m0) (b : Fin m1) (k0 : Fin n0) (k1 : Fin n1) (h0 : k0.val = o0 + a.val) (h1 : k1.val = o1 + b.val) :
    (fun x => X ((Rect.unit (s := ⟨2, ![n0, n1]⟩) ![o0, o1] ![m0, m1] inb).idx x)) (ix2 a b) = X (ix2 k0 k1) := by
  refine congrArg X (funext fun ax => Fin.ext ?_)
  match ax with
  | ⟨0, _⟩ => show o0 + 1 * a.val = k0.val; omega
  | ⟨1, _⟩ => show o1 + 1 * b.val = k1.val; omega

/-! ## The spread of a block's scale over its 64 codes -/

/-- The `[512, 16]` block scales cast to `[512, 16, 1]`, broadcast to `[512, 16, 64]` and cast to `[512, 1024]`: entry
    `(p, q)` is the scale of block `q / 64` of row `p`. -/
private theorem spread01_apply {α : Type} (B : S512x16.Idx → α)
    (h1 : S512x16.ShapeCasts S512x16x1) (h2 : S512x16x1.ShapeCasts S512x16x1)
    (h3 : S512x16x1.Broadcasts S512x16x64) (h4 : S512x16x64.ShapeCasts S512x1024)
    (p : Fin 512) (q : Fin 1024) :
    shapeCast S512x1024 (broadcastTo S512x16x64 (shapeCast S512x16x1 (shapeCast S512x16x1 B h1) h2) h3) h4 (ix2 p q)
      = B (ix2 p ⟨q.val / 64, by omega⟩) := by
  refine (shapeCast_apply _ h4 (ix2 p q) (ix3 p (⟨q.val / 64, by omega⟩ : Fin 16) (⟨q.val % 64, by omega⟩ : Fin 64)) ?_).trans ?_
  · rw [Shape.rowMajor_val_three, Shape.rowMajor_val_two]
    show (p.val * 16 + q.val / 64) * 64 + q.val % 64 = p.val * 1024 + q.val
    omega
  refine (broadcastTo_apply _ h3 _ (ix3 p (⟨q.val / 64, by omega⟩ : Fin 16) (0 : Fin 1)) ?_).trans ?_
  · intro a
    match a with
    | ⟨0, _⟩ => rfl
    | ⟨1, _⟩ => rfl
    | ⟨2, _⟩ => rfl
  rw [shapeCast_self]
  refine shapeCast_apply _ h1 _ (ix2 p (⟨q.val / 64, by omega⟩ : Fin 16)) ?_
  rw [Shape.rowMajor_val_three, Shape.rowMajor_val_two]
  show p.val * 16 + q.val / 64 = (p.val * 16 + q.val / 64) * 1 + 0
  omega

/-! ## The scales of the point's weight rows -/

/-- The `512 × 64` scales at `(p, j)`: the scaler of block `j` of row `p` over the row's factor, plus the mean. -/
private theorem sc19_apply01 (x2 : Vec Ideal S512x64 .i32) (x3 : Vec Ideal S512x1 .f32) (x4 : Vec Ideal S1x1 .f32)
    (p : Fin 512) (j : Fin 64) : sc19 (F := Ideal) x2 x3 x4 (ix2 p j) = scl x2 x3 x4 p j := by
  have e2 : View.ld x2 rs = x2 := funext fun i => by
    obtain ⟨a, b, rfl⟩ : ∃ (a : Fin 512) (b : Fin 64), i = ix2 a b := ⟨i 0, i 1, eq_ix2 i⟩
    exact ld_unit2_apply01 x2 0 0 _ a b a b (by omega) (by omega)
  have e3 : View.ld x3 rf = x3 := funext fun i => by
    obtain ⟨a, b, rfl⟩ : ∃ (a : Fin 512) (b : Fin 1), i = ix2 a b := ⟨i 0, i 1, eq_ix2 i⟩
    exact ld_unit2_apply01 x3 0 0 _ a b a b (by omega) (by omega)
  have e4 : View.ld x4 rm = x4 := funext fun i => by
    obtain ⟨a, b, rfl⟩ : ∃ (a : Fin 1) (b : Fin 1), i = ix2 a b := ⟨i 0, i 1, eq_ix2 i⟩
    exact ld_unit2_apply01 x4 0 0 _ a b a b (by omega) (by omega)
  unfold sc19 scl
  rw [e2, e3, e4]
  unfold k1_pay3
  rw [shapeCast_self, shapeCast_self, shapeCast_self]
  refine (addf_apply _ _ _).trans ?_
  refine congrArg₂ (· + ·) ?_ ?_
  · refine (divf_apply _ _ _).trans ?_
    refine congrArg₂ Ideal.div rfl ?_
    exact broadcastTo_apply x3 _ (ix2 p j) (ix2 p (0 : Fin 1)) (fun a => match a with
      | ⟨0, _⟩ => rfl
      | ⟨1, _⟩ => rfl)
  · exact broadcastTo_apply x4 _ (ix2 p j) (ix2 (0 : Fin 1) (0 : Fin 1)) (fun a => match a with
      | ⟨0, _⟩ => rfl
      | ⟨1, _⟩ => rfl)

/-! ## The sixteen-level table -/

/-- The first quarter's chain of sixteen selections at an entry is the table at the entry's code word: each layer compares
    the code word with one of the words 15 down to 0 and selects that level, the inner-most alternative being zero. -/
private theorem chain0_apply01 (v : Vec Ideal S512x1024 .i32) (i : S512x1024.Idx) :
    k1_pay6 (F := Ideal) (k1_pay4 v) (k1_pay5 v) 6#32 i = Cert.Spec.lut (v i) := by
  have h4 : k1_pay4 v = v := shapeCast_self v _
  unfold k1_pay6 k1_pay5
  rw [h4]
  rfl

/-! ## The first quarter -/

/-- The first quarter's product at an entry: the chain's value times the scale of the entry's block. -/
private theorem pay8_apply01 (A : FVec Ideal S512x1024 .f32) (B : FVec Ideal S512x16 .f32) (p : Fin 512) (q : Fin 1024) :
    k1_pay8 (F := Ideal) A B (ix2 p q) = A (ix2 p q) * B (ix2 p ⟨q.val / 64, by omega⟩) := by
  unfold k1_pay8
  refine (congrFun (shapeCast_self _ _) _).trans ?_
  refine (truncf_apply (ψ := .bf16) _ bitsLt_bf16_f32 _).trans ?_
  refine (mulf_apply _ _ _).trans ?_
  exact congrArg (A (ix2 p q) * ·) (spread01_apply B _ _ _ _ p q)

theorem piece0_apply (x1 : Vec Ideal S512x4096 .i32) (x2 : Vec Ideal S512x64 .i32) (x3 : Vec Ideal S512x1 .f32) (x4 : Vec Ideal S1x1 .f32)
    (p : Fin 512) (q : Fin 1024) :
    piece0 (F := Ideal) x1 x2 x3 x4 (ix2 p q) = Cert.Spec.lut (x1 (ix2 p ⟨q.val, by omega⟩)) * scl x2 x3 x4 p ⟨q.val / 64, by omega⟩ := by
  unfold piece0
  refine (pay8_apply01 _ _ p q).trans ?_
  refine congrArg₂ (· * ·) ?_ ?_
  · refine (chain0_apply01 _ _).trans ?_
    exact congrArg Cert.Spec.lut (ld_unit2_apply01 x1 0 0 _ p q p ⟨q.val, by omega⟩ (Nat.zero_add _).symm (Nat.zero_add _).symm)
  · unfold k1_pay7
    refine (slice2_axis1_apply 0 _ _ p (⟨q.val / 64, by omega⟩ : Fin 16) (⟨q.val / 64, by omega⟩ : Fin 64) (Nat.zero_add _).symm).trans ?_
    exact sc19_apply01 x2 x3 x4 p _

/-! ## The second quarter -/

/-- The second quarter's product at an entry: the table at the entry's code word times the scale of block `16 + q / 64`. -/
private theorem pay11_apply01 (sc : FVec Ideal S512x64 .f32) (v : Vec Ideal S512x1024 .i32) (p : Fin 512) (q : Fin 1024) :
    k1_pay11 (F := Ideal) sc (k1_pay9 v) (k1_pay10 v) (ix2 p q)
      = Cert.Spec.lut (v (ix2 p q)) * sc (ix2 p ⟨16 + q.val / 64, by omega⟩) := by
  have h9 : k1_pay9 v = v := shapeCast_self v _
  unfold k1_pay11 k1_pay10
  rw [h9]
  refine (mulf_apply _ _ _).trans ?_
  refine congrArg₂ (· * ·) rfl ?_
  refine (spread01_apply _ _ _ _ _ p q).trans ?_
  exact slice2_axis1_apply 16 sc _ p (⟨q.val / 64, by omega⟩ : Fin 16) (⟨16 + q.val / 64, by omega⟩ : Fin 64) rfl

/-- The narrowing to bf16 and the cast to the same shape change no entry. -/
private theorem pay12_apply01 (X : FVec Ideal S512x1024 .f32) (i : S512x1024.Idx) : k1_pay12 (F := Ideal) X i = X i := by
  unfold k1_pay12
  refine (congrFun (shapeCast_self _ _) _).trans ?_
  exact truncf_apply (ψ := .bf16) _ bitsLt_bf16_f32 _

theorem piece1_apply (x1 : Vec Ideal S512x4096 .i32) (x2 : Vec Ideal S512x64 .i32) (x3 : Vec Ideal S512x1 .f32) (x4 : Vec Ideal S1x1 .f32)
    (p : Fin 512) (q : Fin 1024) :
    piece1 (F := Ideal) x1 x2 x3 x4 (ix2 p q) = Cert.Spec.lut (x1 (ix2 p ⟨1024 + q.val, by omega⟩)) * scl x2 x3 x4 p ⟨16 + q.val / 64, by omega⟩ := by
  unfold piece1
  refine (pay12_apply01 _ _).trans ?_
  refine (pay11_apply01 _ _ p q).trans ?_
  refine congrArg₂ (· * ·) ?_ ?_
  · exact congrArg Cert.Spec.lut (ld_unit2_apply01 x1 0 1024 _ p q p ⟨1024 + q.val, by omega⟩ (Nat.zero_add _).symm rfl)
  · exact sc19_apply01 x2 x3 x4 p _

end Cert.KernelIdeal.Hand

end
-- ==== Proof.KI.Pieces23.lean ====
/-
  Two of the four column quarters of the dequantised weight tile, read at an entry: the code's level times its block's scale.
-/
import proofs.«421015_j11192684773387_3_alg».proof.Proof.KI.Scl
import Idealize.ShloMosaic.Lib.Pipeline.Value

noncomputable section

namespace Cert.KernelIdeal.Hand

open Idealize.ShloMosaic Idealize.ShloMosaic.TcCoe Idealize.ShloMosaic.ValueIdx
open Cert.KernelIdeal Cert.KernelIdeal.Gen

namespace P23

/-- A load through the third column quarter reads column `2048 + q`. -/
theorem ld_rq2 (x1 : Vec Ideal S512x4096 .i32) (p : Fin 512) (q : Fin 1024) :
    View.ld x1 rq2 (ix2 p q) = x1 (ix2 p ⟨2048 + q.val, by omega⟩) := by
  show x1 (rq2.idx (ix2 p q)) = _
  refine congrArg x1 (funext fun a => Fin.ext ?_)
  match a with
  | ⟨0, _⟩ => show 0 + 1 * p.val = p.val; omega
  | ⟨1, _⟩ => show 2048 + 1 * q.val = 2048 + q.val; omega

/-- A load through the fourth column quarter reads column `3072 + q`. -/
theorem ld_rq3 (x1 : Vec Ideal S512x4096 .i32) (p : Fin 512) (q : Fin 1024) :
    View.ld x1 rq3 (ix2 p q) = x1 (ix2 p ⟨3072 + q.val, by omega⟩) := by
  show x1 (rq3.idx (ix2 p q)) = _
  refine congrArg x1 (funext fun a => Fin.ext ?_)
  match a with
  | ⟨0, _⟩ => show 0 + 1 * p.val = p.val; omega
  | ⟨1, _⟩ => show 3072 + 1 * q.val = 3072 + q.val; omega

/-- The zero offsets of a whole-block rectangle, axis by axis. -/
theorem zeros2 : (![0, 0] : Fin 2 → Nat) = fun _ => 0 := funext fun a => match a with | ⟨0, _⟩ => rfl | ⟨1, _⟩ => rfl

/-- The scales at an entry: the block's scaler over the row's factor, plus the mean. -/
theorem sc19_apply (x2 : Vec Ideal S512x64 .i32) (x3 : Vec Ideal S512x1 .f32) (x4 : Vec Ideal S1x1 .f32) (p : Fin 512) (j : Fin 64) :
    sc19 (F := Ideal) x2 x3 x4 (ix2 p j) = scl x2 x3 x4 p j := by
  have e2 : View.ld x2 rs = x2 := View.ld_unit_zero (S := S512x64) zeros2 inb_S512x64_S512x64_0_0 x2
  have e3 : View.ld x3 rf = x3 := View.ld_unit_zero (S := S512x1) zeros2 inb_S512x1_S512x1_0_0 x3
  have e4 : View.ld x4 rm = x4 := View.ld_unit_zero (S := S1x1) zeros2 inb_S1x1_S1x1_0_0 x4
  unfold sc19
  rw [e2, e3, e4]
  unfold k1_pay3 scl
  simp only [shapeCast_self]
  have b3 : broadcastTo S512x64 x3 broadcasts_S512x1_S512x64 (ix2 p j) = x3 (ix2 p 0) :=
    broadcastTo_apply _ _ _ _ (fun a => match a with | ⟨0, _⟩ => rfl | ⟨1, _⟩ => rfl)
  have b4 : broadcastTo S512x64 x4 broadcasts_S1x1_S512x64 (ix2 p j) = x4 (ix2 0 0) :=
    broadcastTo_apply _ _ _ _ (fun a => match a with | ⟨0, _⟩ => rfl | ⟨1, _⟩ => rfl)
  show Ideal.div (((x2 (ix2 p j)).toInt : ℝ) : EReal) (broadcastTo S512x64 x3 broadcasts_S512x1_S512x64 (ix2 p j))
      + broadcastTo S512x64 x4 broadcasts_S1x1_S512x64 (ix2 p j) = _
  rw [b3, b4]

/-- Sixteen columns of the scales from column `o` on, each spread over its block's 64 codes: the slice, a trailing unit
    axis, the broadcast along it, and the two trailing axes merged. -/
def spread (sc : FVec Ideal S512x64 .f32) (o : Nat) (hs : S512x64.Slices ![0, o] S512x16) : FVec Ideal S512x1024 .f32 :=
  shapeCast S512x1024 (broadcastTo S512x16x64 (shapeCast S512x16x1 (shapeCast S512x16x1
    (extractStridedSlice S512x16 ![0, o] sc hs) shapeCasts_S512x16_S512x16x1) shapeCasts_S512x16x1_S512x16x1)
    broadcasts_S512x16x1_S512x16x64) shapeCasts_S512x16x64_S512x1024

/-- At an entry `(p, q)` it is the scale of block `o + q / 64` of row `p`: entry `(p, q)` of the merged array is entry
    `(p, q / 64, q % 64)` of the broadcast one, which is entry `(p, q / 64, 0)` before the broadcast, entry `(p, q / 64)`
    of the slice, entry `(p, o + q / 64)` of the scales. -/
theorem spread_apply (sc : FVec Ideal S512x64 .f32) (o : Nat) (ho : o + 16 ≤ 64) (hs : S512x64.Slices ![0, o] S512x16)
    (p : Fin 512) (q : Fin 1024) :
    spread sc o hs (ix2 p q) = sc (ix2 p ⟨o + q.val / 64, by have := q.isLt; omega⟩) := by
  have hq := q.isLt
  have hp := p.isLt
  unfold spread
  refine (shapeCast_apply _ shapeCasts_S512x16x64_S512x1024 (ix2 p q)
    (ix3 p (⟨q.val / 64, by omega⟩ : Fin 16) (⟨q.val % 64, by omega⟩ : Fin 64)) ?_).trans ?_
  · rw [Shape.rowMajor_val_three, Shape.rowMajor_val_two]
    show (p.val * 16 + q.val / 64) * 64 + q.val % 64 = p.val * 1024 + q.val
    omega
  refine (broadcastTo_apply _ broadcasts_S512x16x1_S512x16x64 _
    (ix3 p (⟨q.val / 64, by omega⟩ : Fin 16) (0 : Fin 1))
    (fun a => match a with | ⟨0, _⟩ => rfl | ⟨1, _⟩ => rfl | ⟨2, _⟩ => rfl)).trans ?_
  rw [shapeCast_self]
  refine (shapeCast_apply _ shapeCasts_S512x16_S512x16x1 _ (ix2 p (⟨q.val / 64, by omega⟩ : Fin 16)) ?_).trans ?_
  · rw [Shape.rowMajor_val_two, Shape.rowMajor_val_three]
    show p.val * 16 + q.val / 64 = (p.val * 16 + q.val / 64) * 1 + 0
    omega
  exact extractStridedSlice_apply _ sc hs _ _ (fun a => match a with
    | ⟨0, _⟩ => by show p.val = 0 + p.val; omega
    | ⟨1, _⟩ => by show o + q.val / 64 = o + q.val / 64; rfl)

/-- The third quarter's product before the trailing cast, at an entry: the sixteen selections on the code word are the
    level table's chain, the spread scales are those of blocks 32 to 47. -/
theorem pay17_apply (sc : FVec Ideal S512x64 .f32) (v : Vec Ideal S512x1024 .i32) (i : S512x1024.Idx) :
    k1_pay17 (F := Ideal) sc (k1_pay13 v) (k1_pay14 v) (k1_pay15 v) (k1_pay16 (F := Ideal)) i
      = Cert.Spec.lut (v i) * spread sc 32 slices_S512x64_o0_32_S512x16 i := by
  have h13 : k1_pay13 v = v := shapeCast_self v _
  unfold k1_pay17 k1_pay14 k1_pay15 k1_pay16
  rw [h13]
  unfold Cert.Spec.lut spread
  rfl

/-- The fourth quarter's product before the trailing cast, at an entry, likewise with blocks 48 to 63. -/
theorem pay22_apply (sc : FVec Ideal S512x64 .f32) (v : Vec Ideal S512x1024 .i32) (i : S512x1024.Idx) :
    k1_pay22 (F := Ideal) sc (k1_pay19 v) (k1_pay20 v) (k1_pay21 v) (Scalar.ofBits .f32 0x3DA2FAFF#32) i
      = Cert.Spec.lut (v i) * spread sc 48 slices_S512x64_o0_48_S512x16 i := by
  have h19 : k1_pay19 v = v := shapeCast_self v _
  unfold k1_pay22 k1_pay20 k1_pay21
  rw [h19]
  unfold Cert.Spec.lut spread
  rfl

end P23

open P23

theorem piece2_apply (x1 : Vec Ideal S512x4096 .i32) (x2 : Vec Ideal S512x64 .i32) (x3 : Vec Ideal S512x1 .f32) (x4 : Vec Ideal S1x1 .f32)
    (p : Fin 512) (q : Fin 1024) :
    piece2 (F := Ideal) x1 x2 x3 x4 (ix2 p q) = Cert.Spec.lut (x1 (ix2 p ⟨2048 + q.val, by omega⟩)) * scl x2 x3 x4 p ⟨32 + q.val / 64, by omega⟩ := by
  unfold piece2 k1_pay18
  rw [shapeCast_self]
  refine (pay17_apply _ _ _).trans ?_
  rw [ld_rq2, spread_apply _ 32 (by omega), sc19_apply]

theorem piece3_apply (x1 : Vec Ideal S512x4096 .i32) (x2 : Vec Ideal S512x64 .i32) (x3 : Vec Ideal S512x1 .f32) (x4 : Vec Ideal S1x1 .f32)
    (p : Fin 512) (q : Fin 1024) :
    piece3 (F := Ideal) x1 x2 x3 x4 (ix2 p q) = Cert.Spec.lut (x1 (ix2 p ⟨3072 + q.val, by omega⟩)) * scl x2 x3 x4 p ⟨48 + q.val / 64, by omega⟩ := by
  unfold piece3 k1_pay1
  rw [shapeCast_self]
  refine (pay22_apply _ _ _).trans ?_
  rw [ld_rq3, spread_apply _ 48 (by omega), sc19_apply]

end Cert.KernelIdeal.Hand

end
-- ==== Proof.KI.Value1.lean ====
/-
  The second pallas_call's output as ONE function of the arrays the region finds.

  The scratch tile, read at an entry (p, k), is the level of code (p, k) times the scale of the 64-code block k / 64 of
  row p: the four column quarters each hold that on their 1024 columns, and together they tile the 4096 columns. The output
  block is the activation block times the transposed tile: entry (a, n) is the sum over the 4096 columns k of activation
  (a, k) times tile (n, k). Point t = 32 j + i of the 24 × 32 grid takes activation rows 128 i …, weight rows 512 j …, and
  writes output block (i, j); the blocks tile the 4096 × 12288 output, so the array ends at entry (r, n) holding the sum
  over k of activation (r, k) times the dequantised weight (n, k).
-/
import proofs.«421015_j11192684773387_3_alg».proof.Proof.KI.Pieces01
import proofs.«421015_j11192684773387_3_alg».proof.Proof.KI.Pieces23
import proofs.«421015_j11192684773387_3_alg».proof.Proof.KI.Scl
import proofs.«421015_j11192684773387_3_alg».proof.Proof.KI.R1Defs
import proofs.«421015_j11192684773387_3_alg».proof.Proof.Spec
import Idealize.ShloMosaic.Lib.Pipeline.Value
import Idealize.ShloMosaic.Lib.ValueIdx
import Idealize.ShloMosaic.Lib.ValueLayout
import Idealize.ShloMosaic.Lib.Ring
import Idealize.ShloMosaic.Lib.Tactic
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The tile and the product, read at an entry -/

/-- The level-times-scale function the four quarters are blocks of. -/
def tileFn (x1 : Vec Ideal S512x4096 .i32) (x2 : Vec Ideal S512x64 .i32) (x3 : Vec Ideal S512x1 .f32) (x4 : Vec Ideal S1x1 .f32) :
    S512x4096.Idx → EReal := fun y =>
  Cert.Spec.lut (x1 (ix2 (y 0) (y 1))) * scl x2 x3 x4 (y 0) ⟨(y 1).val / 64, by have := idx2_lt1 y; omega⟩

theorem tileFn_ix2 (x1 : Vec Ideal S512x4096 .i32) (x2 : Vec Ideal S512x64 .i32) (x3 : Vec Ideal S512x1 .f32) (x4 : Vec Ideal S1x1 .f32)
    (p : Fin 512) (k : Fin 4096) :
    tileFn x1 x2 x3 x4 (ix2 p k) = Cert.Spec.lut (x1 (ix2 p k)) * scl x2 x3 x4 p ⟨k.val / 64, by omega⟩ := rfl

/-- Where a quarter's entry sits in the tile: same row, the quarter's first column plus the column inside it. -/
theorem quarter_emb (o : Nat) (inb : ∀ a, (![0, o] : Fin 2 → Nat) a + S512x1024.size a ≤ S512x4096.size a) (p : Fin 512) (q : Fin 1024) (h : o + q.val < 4096) :
    (Rect.unit (s := S512x4096) ![0, o] S512x1024.size inb).emb (ix2 p q) = ix2 p ⟨o + q.val, h⟩ := by
  funext a; apply Fin.ext
  match a with
  | ⟨0, _⟩ => show 0 + 1 * p.val = p.val; omega
  | ⟨1, _⟩ => show o + 1 * q.val = o + q.val; omega

/-- Two spellings of one column and of one block number give one entry. -/
theorem tile_entry_congr (x1 : Vec Ideal S512x4096 .i32) (x2 : Vec Ideal S512x64 .i32) (x3 : Vec Ideal S512x1 .f32) (x4 : Vec Ideal S1x1 .f32)
    (r : Fin 512) (a b : Nat) (ha : a < 4096) (hb : b < 4096) (u v : Nat) (hu : u < 64) (hv : v < 64) (hab : a = b) (huv : u = v) :
    Cert.Spec.lut (x1 (ix2 r ⟨a, ha⟩)) * scl x2 x3 x4 r ⟨u, hu⟩ = Cert.Spec.lut (x1 (ix2 r ⟨b, hb⟩)) * scl x2 x3 x4 r ⟨v, hv⟩ := by
  subst hab; subst huv; rfl

/-- The tile at entry (p, k): the level of the code there times the scale of its block of 64. -/
theorem wq_apply (x1 : Vec Ideal S512x4096 .i32) (x2 : Vec Ideal S512x64 .i32) (x3 : Vec Ideal S512x1 .f32) (x4 : Vec Ideal S1x1 .f32)
    (p : Fin 512) (k : Fin 4096) :
    wq (F := Ideal) x1 x2 x3 x4 (ix2 p k) = Cert.Spec.lut (x1 (ix2 p k)) * scl x2 x3 x4 p ⟨k.val / 64, by omega⟩ := by
  unfold wq
  refine (View.canon_apply_of_pieces (tileFn x1 x2 x3 x4) _ ?_ (ix2 p k) ?_).trans (tileFn_ix2 x1 x2 x3 x4 p k)
  · intro pc hpc
    simp only [List.mem_cons, List.mem_nil_iff, or_false] at hpc
    rcases hpc with rfl | rfl | rfl | rfl
    · intro x
      obtain ⟨r, q, rfl⟩ : ∃ (r : Fin 512) (q : Fin 1024), x = ix2 r q := ⟨x 0, x 1, eq_ix2 x⟩
      show piece3 (F := Ideal) x1 x2 x3 x4 (ix2 r q) = tileFn x1 x2 x3 x4 (rq3.emb (ix2 r q))
      rw [quarter_emb 3072 _ r q (by omega), piece3_apply, tileFn_ix2]
      exact tile_entry_congr x1 x2 x3 x4 r _ _ _ _ _ _ _ _ (by omega) (by show 48 + q.val / 64 = (3072 + q.val) / 64; omega)
    · intro x
      obtain ⟨r, q, rfl⟩ : ∃ (r : Fin 512) (q : Fin 1024), x = ix2 r q := ⟨x 0, x 1, eq_ix2 x⟩
      show piece2 (F := Ideal) x1 x2 x3 x4 (ix2 r q) = tileFn x1 x2 x3 x4 (rq2.emb (ix2 r q))
      rw [quarter_emb 2048 _ r q (by omega), piece2_apply, tileFn_ix2]
      exact tile_entry_congr x1 x2 x3 x4 r _ _ _ _ _ _ _ _ (by omega) (by show 32 + q.val / 64 = (2048 + q.val) / 64; omega)
    · intro x
      obtain ⟨r, q, rfl⟩ : ∃ (r : Fin 512) (q : Fin 1024), x = ix2 r q := ⟨x 0, x 1, eq_ix2 x⟩
      show piece1 (F := Ideal) x1 x2 x3 x4 (ix2 r q) = tileFn x1 x2 x3 x4 (rq1.emb (ix2 r q))
      rw [quarter_emb 1024 _ r q (by omega), piece1_apply, tileFn_ix2]
      exact tile_entry_congr x1 x2 x3 x4 r _ _ _ _ _ _ _ _ (by omega) (by show 16 + q.val / 64 = (1024 + q.val) / 64; omega)
    · intro x
      obtain ⟨r, q, rfl⟩ : ∃ (r : Fin 512) (q : Fin 1024), x = ix2 r q := ⟨x 0, x 1, eq_ix2 x⟩
      show piece0 (F := Ideal) x1 x2 x3 x4 (ix2 r q) = tileFn x1 x2 x3 x4 (rq0.emb (ix2 r q))
      rw [quarter_emb 0 _ r q (by omega), piece0_apply, tileFn_ix2]
      exact tile_entry_congr x1 x2 x3 x4 r _ _ _ _ _ _ _ _ (by omega) (by show q.val / 64 = (0 + q.val) / 64; omega)
  · exact View.cover_of_tiledL (s := S512x4096) _ ![512, 1024] (by sl_kernel_rfl) (ix2 p k)

/-- The zero offsets of a whole-block load or store. -/
theorem off2_zero : (![0, 0] : Fin 2 → Nat) = fun _ => 0 := funext fun a => by fin_cases a <;> rfl

/-! The product's operand indices, axis by axis: the left operand is read at (output row, contraction position), the
    right operand at (contraction position, output column). -/

theorem lhs_mm_0 (i : S128x512.Idx) (q : dot_S128x4096_S4096x512_S128x512_1_0_0_1_n_n.contr.Idx) :
    (dot_S128x4096_S4096x512_S128x512_1_0_0_1_n_n.lhsIdx i q 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl

theorem lhs_mm_1 (i : S128x512.Idx) (q : dot_S128x4096_S4096x512_S128x512_1_0_0_1_n_n.contr.Idx) :
    (dot_S128x4096_S4096x512_S128x512_1_0_0_1_n_n.lhsIdx i q 1).val = (q ⟨0, by decide⟩).val :=
  dot_S128x4096_S4096x512_S128x512_1_0_0_1_n_n.lhsIdx_val_of_single rfl i q

theorem rhs_mm_0 (i : S128x512.Idx) (q : dot_S128x4096_S4096x512_S128x512_1_0_0_1_n_n.contr.Idx) :
    (dot_S128x4096_S4096x512_S128x512_1_0_0_1_n_n.rhsIdx i q 0).val = (q ⟨0, by decide⟩).val :=
  dot_S128x4096_S4096x512_S128x512_1_0_0_1_n_n.rhsIdx_val_of_single rfl i q

theorem rhs_mm_1 (i : S128x512.Idx) (q : dot_S128x4096_S4096x512_S128x512_1_0_0_1_n_n.contr.Idx) :
    (dot_S128x4096_S4096x512_S128x512_1_0_0_1_n_n.rhsIdx i q 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl

/-- The product payload at entry (a, n): the sum over the 4096 columns of the left operand's row a against the right
    operand's row n (the right operand enters transposed). -/
theorem matmul_pay_apply (x0 : FVec Ideal S128x4096 .bf16) (xs : FVec Ideal S512x4096 .bf16) (a : Fin 128) (n : Fin 512) :
    k1_pay2 (F := Ideal) x0 xs (ix2 a n) = ∑ k : Fin 4096, x0 (ix2 a k) * xs (ix2 n k) := by
  unfold k1_pay2
  simp only [shapeCast_self, matmul]
  rw [Ideal.matmul_constant_zero_apply, ← Equiv.sum_comp (contrEquiv1 dot_S128x4096_S4096x512_S128x512_1_0_0_1_n_n 4096 rfl rfl).symm]
  refine Finset.sum_congr rfl fun k _ => ?_
  have hk := contrEquiv1_symm_val dot_S128x4096_S4096x512_S128x512_1_0_0_1_n_n 4096 rfl rfl k
  have el : dot_S128x4096_S4096x512_S128x512_1_0_0_1_n_n.lhsIdx (ix2 a n) ((contrEquiv1 dot_S128x4096_S4096x512_S128x512_1_0_0_1_n_n 4096 rfl rfl).symm k) = ix2 a k := funext fun b => Fin.ext (by
    match b with
    | ⟨0, _⟩ => exact lhs_mm_0 _ _
    | ⟨1, _⟩ => exact (lhs_mm_1 _ _).trans hk)
  have er : dot_S128x4096_S4096x512_S128x512_1_0_0_1_n_n.rhsIdx (ix2 a n) ((contrEquiv1 dot_S128x4096_S4096x512_S128x512_1_0_0_1_n_n 4096 rfl rfl).symm k) = ix2 k n := funext fun b => Fin.ext (by
    match b with
    | ⟨0, _⟩ => exact (rhs_mm_0 _ _).trans hk
    | ⟨1, _⟩ => exact rhs_mm_1 _ _)
  rw [el, er, transpose_ix2_apply]

/-- The output block at entry (a, n): row a of the activation block against row n of the tile. -/
theorem mm_apply (x0 : Vec Ideal S128x4096 .bf16) (xs : Vec Ideal S512x4096 .bf16) (a : Fin 128) (n : Fin 512) :
    mm (F := Ideal) x0 xs (ix2 a n) = ∑ k : Fin 4096, x0 (ix2 a k) * xs (ix2 n k) := by
  unfold mm
  rw [View.canon_unit_zero off2_zero]
  simp only [View.ld_unit_zero (S := S128x4096) off2_zero, View.ld_unit_zero (S := S512x4096) off2_zero]
  exact matmul_pay_apply x0 xs a n

/-! ## The arrays the region finds, and the output as a function of them -/

variable (V : (c : Dev nD) → (b : Ref sig .tc) → Buf (Elt Ideal) ((c : Thread nD τ).loc b))

/-- The normalised activations, the codes, the scalers, the factors and the mean, as the region finds them. -/
abbrev aAct (c : Dev nD) : Vec Ideal S4096x4096 .bf16 := V c main_v0_1
abbrev aCodes (c : Dev nD) : Vec Ideal S12288x4096 .i32 := V c main_v1
abbrev aScal (c : Dev nD) : Vec Ideal S12288x64 .i32 := V c main_v2
abbrev aFac (c : Dev nD) : Vec Ideal S12288x1 .f32 := V c main_v5
abbrev aMean (c : Dev nD) : Vec Ideal S1x1 .f32 := V c main_v6

/-- Entry (r, n) of the output: the sum over k of activation (r, k) times the level of code (n, k) times the scale of block
    k / 64 of weight row n (its scaler over the row's factor, plus the mean). -/
def outV (c : Dev nD) : Vec Ideal S4096x12288 .f32 := fun j =>
  ∑ k : Fin 4096, aAct V c (ix2 (j 0) k) * (Cert.Spec.lut (aCodes V c (ix2 (j 1) k)) * (Ideal.div ((((aScal V c) (ix2 (j 1) ⟨k.val / 64, by omega⟩)).toInt : ℝ) : EReal) (aFac V c (ix2 (j 1) 0)) + aMean V c (ix2 0 0)))

/-! ## The blocks at a point, read off the arrays

Point t = 32 j + i takes block (i, 0) of the activations (128 rows), block (j, 0) of the codes, the scalers and the factors
(512 rows each), the one block of the mean, and writes block (i, j) of the output. -/

/-- The blocks of the five inputs at point t. -/
abbrev bAct (c : Dev nD) (t : Fin cfg1.N) : Vec Ideal S128x4096 .bf16 := iblk1 V c 0 t
abbrev bCodes (c : Dev nD) (t : Fin cfg1.N) : Vec Ideal S512x4096 .i32 := iblk1 V c 1 t
abbrev bScal (c : Dev nD) (t : Fin cfg1.N) : Vec Ideal S512x64 .i32 := iblk1 V c 2 t
abbrev bFac (c : Dev nD) (t : Fin cfg1.N) : Vec Ideal S512x1 .f32 := iblk1 V c 3 t
abbrev bMean (c : Dev nD) (t : Fin cfg1.N) : Vec Ideal S1x1 .f32 := iblk1 V c 4 t

/-- The block indices of the six windows at a point, decided over the grid. -/
theorem blk_index1 : ∀ t : Fin cfg1.N,
    win1_0.index t (0 : Fin 2) = t.val % 32 ∧ win1_0.index t (1 : Fin 2) = 0
    ∧ win1_1.index t (0 : Fin 2) = t.val / 32 ∧ win1_1.index t (1 : Fin 2) = 0
    ∧ win1_2.index t (0 : Fin 2) = t.val / 32 ∧ win1_2.index t (1 : Fin 2) = 0
    ∧ win1_3.index t (0 : Fin 2) = t.val / 32 ∧ win1_3.index t (1 : Fin 2) = 0
    ∧ win1_4.index t (0 : Fin 2) = 0 ∧ win1_4.index t (1 : Fin 2) = 0
    ∧ win1_5.index t (0 : Fin 2) = t.val % 32 ∧ win1_5.index t (1 : Fin 2) = t.val / 32 :=
  (by decide +kernel : ∀ t : Fin grid1.N, _)

theorem pt1_lt (t : Fin cfg1.N) : t.val < 768 := Nat.lt_of_lt_of_eq (show t.val < grid1.N from t.isLt) N_1

theorem bAct_apply (c : Dev nD) (t : Fin cfg1.N) (a : Fin 128) (k : Fin 4096) :
    bAct V c t (ix2 a k) = aAct V c (ix2 ⟨128 * (t.val % 32) + a.val, by omega⟩ k) := by
  obtain ⟨e0, e1, -⟩ := blk_index1 t
  show V c main_v0_1 (((cfg1.win 0).blk t).view.emb (ix2 a k)) = V c main_v0_1 (ix2 ⟨128 * (t.val % 32) + a.val, by omega⟩ k)
  refine congrArg (V c main_v0_1) (funext fun b => Fin.ext ?_)
  match b with
  | ⟨0, _⟩ => show win1_0.index t (0 : Fin 2) * 128 + 1 * a.val = 128 * (t.val % 32) + a.val; rw [e0]; omega
  | ⟨1, _⟩ => show win1_0.index t (1 : Fin 2) * 4096 + 1 * k.val = k.val; rw [e1]; omega

theorem bCodes_apply (c : Dev nD) (t : Fin cfg1.N) (n : Fin 512) (k : Fin 4096) :
    bCodes V c t (ix2 n k) = aCodes V c (ix2 ⟨512 * (t.val / 32) + n.val, by have := pt1_lt t; omega⟩ k) := by
  obtain ⟨-, -, e0, e1, -⟩ := blk_index1 t
  show V c main_v1 (((cfg1.win 1).blk t).view.emb (ix2 n k)) = V c main_v1 (ix2 ⟨512 * (t.val / 32) + n.val, by have := pt1_lt t; omega⟩ k)
  refine congrArg (V c main_v1) (funext fun b => Fin.ext ?_)
  match b with
  | ⟨0, _⟩ => show win1_1.index t (0 : Fin 2) * 512 + 1 * n.val = 512 * (t.val / 32) + n.val; rw [e0]; omega
  | ⟨1, _⟩ => show win1_1.index t (1 : Fin 2) * 4096 + 1 * k.val = k.val; rw [e1]; omega

theorem bScal_apply (c : Dev nD) (t : Fin cfg1.N) (n : Fin 512) (j : Fin 64) :
    bScal V c t (ix2 n j) = aScal V c (ix2 ⟨512 * (t.val / 32) + n.val, by have := pt1_lt t; omega⟩ j) := by
  obtain ⟨-, -, -, -, e0, e1, -⟩ := blk_index1 t
  show V c main_v2 (((cfg1.win 2).blk t).view.emb (ix2 n j)) = V c main_v2 (ix2 ⟨512 * (t.val / 32) + n.val, by have := pt1_lt t; omega⟩ j)
  refine congrArg (V c main_v2) (funext fun b => Fin.ext ?_)
  match b with
  | ⟨0, _⟩ => show win1_2.index t (0 : Fin 2) * 512 + 1 * n.val = 512 * (t.val / 32) + n.val; rw [e0]; omega
  | ⟨1, _⟩ => show win1_2.index t (1 : Fin 2) * 64 + 1 * j.val = j.val; rw [e1]; omega

theorem bFac_apply (c : Dev nD) (t : Fin cfg1.N) (n : Fin 512) :
    bFac V c t (ix2 n 0) = aFac V c (ix2 ⟨512 * (t.val / 32) + n.val, by have := pt1_lt t; omega⟩ 0) := by
  obtain ⟨-, -, -, -, -, -, e0, e1, -⟩ := blk_index1 t
  show V c main_v5 (((cfg1.win 3).blk t).view.emb (ix2 n 0)) = V c main_v5 (ix2 ⟨512 * (t.val / 32) + n.val, by have := pt1_lt t; omega⟩ 0)
  refine congrArg (V c main_v5) (funext fun b => Fin.ext ?_)
  match b with
  | ⟨0, _⟩ => show win1_3.index t (0 : Fin 2) * 512 + 1 * n.val = 512 * (t.val / 32) + n.val; rw [e0]; omega
  | ⟨1, _⟩ => show win1_3.index t (1 : Fin 2) * 1 + 1 * 0 = 0; rw [e1]

theorem bMean_apply (c : Dev nD) (t : Fin cfg1.N) :
    bMean V c t (ix2 0 0) = aMean V c (ix2 0 0) := by
  obtain ⟨-, -, -, -, -, -, -, -, e0, e1, -⟩ := blk_index1 t
  show V c main_v6 (((cfg1.win 4).blk t).view.emb (ix2 0 0)) = V c main_v6 (ix2 0 0)
  refine congrArg (V c main_v6) (funext fun b => Fin.ext ?_)
  match b with
  | ⟨0, _⟩ => show win1_4.index t (0 : Fin 2) * 1 + 1 * 0 = 0; rw [e0]
  | ⟨1, _⟩ => show win1_4.index t (1 : Fin 2) * 1 + 1 * 0 = 0; rw [e1]

/-- Where an entry of the output block at point t sits in the output. -/
theorem out1_emb (t : Fin cfg1.N) (a : Fin 128) (n : Fin 512) :
    ((cfg1.win 5).blk t).view.emb (ix2 a n)
      = (ix2 ⟨128 * (t.val % 32) + a.val, by omega⟩ ⟨512 * (t.val / 32) + n.val, by have := pt1_lt t; omega⟩ : S4096x12288.Idx) := by
  obtain ⟨-, -, -, -, -, -, -, -, -, -, e0, e1⟩ := blk_index1 t
  funext b; apply Fin.ext
  match b with
  | ⟨0, _⟩ => show win1_5.index t (0 : Fin 2) * 128 + 1 * a.val = 128 * (t.val % 32) + a.val; rw [e0]; omega
  | ⟨1, _⟩ => show win1_5.index t (1 : Fin 2) * 512 + 1 * n.val = 512 * (t.val / 32) + n.val; rw [e1]; omega

/-! ## What a point writes back, the cover, the array -/

/-- The scale of a block of 64 codes of a weight row of the point, read off the arrays. -/
theorem scl_blk1 (c : Dev nD) (t : Fin cfg1.N) (n : Fin 512) (j : Fin 64) :
    scl (bScal V c t) (bFac V c t) (bMean V c t) n j
      = Ideal.div ((((aScal V c) (ix2 ⟨512 * (t.val / 32) + n.val, by have := pt1_lt t; omega⟩ j)).toInt : ℝ) : EReal)
          (aFac V c (ix2 ⟨512 * (t.val / 32) + n.val, by have := pt1_lt t; omega⟩ 0)) + aMean V c (ix2 0 0) := by
  unfold scl
  rw [bScal_apply V c t n j, bFac_apply V c t n, bMean_apply V c t]

/-- What point t writes back is its block of the output function. -/
theorem flushed1_5 (c : Dev nD) (t : Fin cfg1.N) :
    (dat1 (F := Ideal) V c).flushed 5 t = ((cfg1.win 5).blk t).view.read (Elt Ideal) (outV V c) := by
  show (cfg1.win 5).cut (grid1.coords t) ((dat1 (F := Ideal) V c).after 5 t) = _
  rw [after1_5]
  funext y
  obtain ⟨a, n, rfl⟩ : ∃ (a : Fin 128) (n : Fin 512), y = ix2 a n := ⟨y 0, y 1, eq_ix2 y⟩
  show mm (F := Ideal) (bAct V c t) (scAt V c t) (ix2 a n) = outV V c (((cfg1.win 5).blk t).view.emb (ix2 a n))
  rw [out1_emb t a n]
  refine (mm_apply (bAct V c t) (scAt V c t) a n).trans ?_
  show _ = ∑ k : Fin 4096, aAct V c (ix2 ⟨128 * (t.val % 32) + a.val, by omega⟩ k) * (Cert.Spec.lut (aCodes V c (ix2 ⟨512 * (t.val / 32) + n.val, by have := pt1_lt t; omega⟩ k)) * (Ideal.div ((((aScal V c) (ix2 ⟨512 * (t.val / 32) + n.val, by have := pt1_lt t; omega⟩ ⟨k.val / 64, by omega⟩)).toInt : ℝ) : EReal) (aFac V c (ix2 ⟨512 * (t.val / 32) + n.val, by have := pt1_lt t; omega⟩ 0)) + aMean V c (ix2 0 0)))
  refine Finset.sum_congr rfl fun k _ => ?_
  rw [bAct_apply V c t a k]
  refine congrArg (aAct V c (ix2 ⟨128 * (t.val % 32) + a.val, by omega⟩ k) * ·) ?_
  show wq (F := Ideal) (bCodes V c t) (bScal V c t) (bFac V c t) (bMean V c t) (ix2 n k) = _
  rw [wq_apply (bCodes V c t) (bScal V c t) (bFac V c t) (bMean V c t) n k, bCodes_apply V c t n k, scl_blk1 V c t n ⟨k.val / 64, by omega⟩]

/-- An entry is in point t's output block iff each coordinate is in the block's range on its axis. -/
theorem mem_blk1_5 (t : Fin cfg1.N) (i : S4096x12288.Idx) :
    i ∈ ((cfg1.win 5).blk t).view.set ↔ ∀ a : Fin 2, win1_5.index t a * S128x512.size a ≤ (i a).val ∧ (i a).val < win1_5.index t a * S128x512.size a + S128x512.size a := by
  show i ∈ ((View.whole main_v7).slice (win1_5.rect t)).set ↔ _
  rw [View.set_slice_whole, Rect.mem_set_unit]
  exact Iff.rfl

/-- The point that takes the row blocks of entry (r, n): 32 (n / 512) + r / 128. -/
def ptOf1 (i : S4096x12288.Idx) : Fin cfg1.N :=
  ⟨32 * ((i 1).val / 512) + (i 0).val / 128, by
    have h0 : (i 0).val < 4096 := idx2_lt0 i
    have h1 : (i 1).val < 12288 := idx2_lt1 i
    show _ < grid1.N
    rw [N_1]; omega⟩

/-- Every entry of the output is in the block of the point that takes its rows' blocks. -/
theorem cover1_5 (i : S4096x12288.Idx) :
    ∃ t : Fin cfg1.N, (cfg1.win 5).flush t = true ∧ i ∈ ((cfg1.win 5).blk t).view.set := by
  have h0 : (i 0).val < 4096 := idx2_lt0 i
  have h1 : (i 1).val < 12288 := idx2_lt1 i
  refine ⟨ptOf1 i, flush1_5 _, ?_⟩
  obtain ⟨-, -, -, -, -, -, -, -, -, -, e0, e1⟩ := blk_index1 (ptOf1 i)
  have hv : (ptOf1 i).val = 32 * ((i 1).val / 512) + (i 0).val / 128 := rfl
  rw [mem_blk1_5]
  intro b
  match b with
  | ⟨0, _⟩ =>
    show win1_5.index (ptOf1 i) (0 : Fin 2) * 128 ≤ (i 0).val ∧ (i 0).val < win1_5.index (ptOf1 i) (0 : Fin 2) * 128 + 128
    rw [e0, hv]; omega
  | ⟨1, _⟩ =>
    show win1_5.index (ptOf1 i) (1 : Fin 2) * 512 ≤ (i 1).val ∧ (i 1).val < win1_5.index (ptOf1 i) (1 : Fin 2) * 512 + 512
    rw [e1, hv]; omega

/-- The output array after the region. -/
theorem final1_5 (c : Dev nD) : (dat1 (F := Ideal) V c).arrAt 5 cfg1.N = outV V c :=
  (dat1 (F := Ideal) V c).arrAt_eq_of_cover 5 (outV V c) (fun t _ => flushed1_5 V c t) cover1_5

end Cert.KernelIdeal.Hand

end
-- ==== Proof.KI.Bridge.lean ====
/-
  The two result arrays the kernel program's run ends with, as the specification's functions of the launch memory.

  The normalised array is what the first region leaves, and that region reads only the three launch arrays x, w, b.

  The linear layer's output is what the second region leaves: at entry (r, n) the sum over k of activation (r, k) times
  the level of code (n, k) times the scale of block k / 64 of weight row n, over the five arrays that region finds. Those
  five are read back to the launch memory one by one. The activations are the first region's bf16 result, which nothing
  in between writes: the layer normalisation again. The other four were written by the host operations between the two
  regions, each a relabelling of one launch array in row-major order:
    codes    [786432, 64] as [12288, 4096]: entry (n, k) has position n * 4096 + k = (n * 64 + k / 64) * 64 + k % 64,
             so it is code k % 64 of block n * 64 + k / 64;
    scalers  [786432] as [12288, 64]: entry (n, j) is scaler n * 64 + j;
    factors  [3072] repeated along a new axis of 4, flattened to [12288] and then to a column: entry n of the flat
             array is entry (n / 4, n % 4) of the repeated one, which is factor n / 4;
    mean     [1] as [1, 1].
  With these the two sums agree term by term.
-/
import proofs.«421015_j11192684773387_3_alg».proof.Proof.KI.RunDefs
import proofs.«421015_j11192684773387_3_alg».proof.Proof.KI.Value0
import proofs.«421015_j11192684773387_3_alg».proof.Proof.KI.Value1
import proofs.«421015_j11192684773387_3_alg».proof.Proof.Spec
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The reshapes and the broadcast, read at an index -/

/-- The codes laid out as 12288 rows of 4096: entry (n, k) is code k % 64 of block n * 64 + k / 64. -/
theorem codes2d_apply (x : S786432x64.Idx → BitVec 32) (n : Fin 12288) (k : Fin 4096) :
    shapeCast S12288x4096 x shapeCasts_S786432x64_S12288x4096 (ix2 n k)
      = x (ix2 ⟨n.val * 64 + k.val / 64, by omega⟩ ⟨k.val % 64, by omega⟩) := by
  refine shapeCast_apply x _ _ _ ?_
  rw [Shape.rowMajor_val_two, Shape.rowMajor_val_two]
  show (n.val * 64 + k.val / 64) * 64 + k.val % 64 = n.val * 4096 + k.val
  omega

/-- The scalers laid out as 12288 rows of 64: entry (n, j) is the scaler of block n * 64 + j. -/
theorem scalers2d_apply (x : S786432.Idx → BitVec 32) (n : Fin 12288) (j : Fin 64) :
    shapeCast S12288x64 x shapeCasts_S786432_S12288x64 (ix2 n j) = x (ix1 ⟨n.val * 64 + j.val, by omega⟩) := by
  refine shapeCast_apply x _ _ _ ?_
  rw [Shape.rowMajor_val_one, Shape.rowMajor_val_two]
  show n.val * 64 + j.val = n.val * 64 + j.val
  rfl

/-- The factors, each repeated four times and laid out as a column of 12288: entry (n, 0) is the factor of group n / 4. -/
theorem factors_apply (x : S3072.Idx → EReal) (n : Fin 12288) :
    shapeCast S12288x1 (shapeCast S12288 (broadcastInDim S3072x4 (![0] : Fin 1 → Fin S3072x4.rank) bcast_S3072_S3072x4_0 x)
        shapeCasts_S3072x4_S12288) shapeCasts_S12288_S12288x1 (ix2 n (0 : Fin 1))
      = x (ix1 ⟨n.val / 4, by omega⟩) := by
  rw [shapeCast_apply _ shapeCasts_S12288_S12288x1 (ix2 n (0 : Fin 1)) (ix1 n) (by
    rw [Shape.rowMajor_val_one, Shape.rowMajor_val_two]
    show n.val = n.val * 1 + 0
    omega)]
  rw [shapeCast_apply _ shapeCasts_S3072x4_S12288 (ix1 n) (ix2 (⟨n.val / 4, by omega⟩ : Fin 3072) (⟨n.val % 4, by omega⟩ : Fin 4)) (by
    rw [Shape.rowMajor_val_one, Shape.rowMajor_val_two]
    show n.val / 4 * 4 + n.val % 4 = n.val
    omega)]
  refine broadcastInDim_apply _ _ x _ _ ?_
  intro a
  match a with
  | ⟨0, _⟩ => rfl

/-- The mean as a one-by-one array. -/
theorem mean_apply (x : S1.Idx → EReal) :
    shapeCast S1x1 x shapeCasts_S1_S1x1 (ix2 (0 : Fin 1) (0 : Fin 1)) = x (ix1 0) := by
  refine shapeCast_apply x _ _ _ ?_
  rw [Shape.rowMajor_val_one, Shape.rowMajor_val_two]
  rfl

/-! ## The four arrays the host stretch wrote -/

variable (m : (ℓ : Loc nD τ sig) → Buf (Elt Ideal) ℓ) (ρ : Dev nD → PrngReg)

theorem V3_main_v1 (c : Dev nD) :
    (V3 m ρ c main_v1 : S12288x4096.Idx → BitVec 32)
      = shapeCast S12288x4096 (m ((c : Thread nD τ).loc main_arg5) : S786432x64.Idx → BitVec 32) shapeCasts_S786432x64_S12288x4096 := by
  show StableHlo.after hostOps1 (W2 m ρ c) (Proc.devRef .tc main_v1) = _
  after_results
  rw [W2_of_ne m ρ c main_arg5 (by decide)]
  rfl

theorem V3_main_v2 (c : Dev nD) :
    (V3 m ρ c main_v2 : S12288x64.Idx → BitVec 32)
      = shapeCast S12288x64 (m ((c : Thread nD τ).loc main_arg6) : S786432.Idx → BitVec 32) shapeCasts_S786432_S12288x64 := by
  show StableHlo.after hostOps1 (W2 m ρ c) (Proc.devRef .tc main_v2) = _
  after_results
  rw [W2_of_ne m ρ c main_arg6 (by decide)]
  rfl

theorem V3_main_v5 (c : Dev nD) :
    (V3 m ρ c main_v5 : S12288x1.Idx → EReal)
      = shapeCast S12288x1 (shapeCast S12288 (broadcastInDim S3072x4 (![0] : Fin 1 → Fin S3072x4.rank) bcast_S3072_S3072x4_0
          (m ((c : Thread nD τ).loc main_arg3) : S3072.Idx → EReal)) shapeCasts_S3072x4_S12288) shapeCasts_S12288_S12288x1 := by
  show StableHlo.after hostOps1 (W2 m ρ c) (Proc.devRef .tc main_v5) = _
  after_results
  rw [W2_of_ne m ρ c main_arg3 (by decide)]
  rfl

theorem V3_main_v6 (c : Dev nD) :
    (V3 m ρ c main_v6 : S1x1.Idx → EReal)
      = shapeCast S1x1 (m ((c : Thread nD τ).loc main_arg4) : S1.Idx → EReal) shapeCasts_S1_S1x1 := by
  show StableHlo.after hostOps1 (W2 m ρ c) (Proc.devRef .tc main_v6) = _
  after_results
  rw [W2_of_ne m ρ c main_arg4 (by decide)]
  rfl

/-! ## The second region's five input arrays, as functions of the launch memory -/

/-- The activations the second region finds are the layer normalisation of the launch arrays. -/
theorem aAct_eq (c : Dev nD) :
    aAct (V3 m ρ) c = Cert.Spec.ln (m ((c : Thread nD τ).loc main_arg0)) (m ((c : Thread nD τ).loc main_arg1)) (m ((c : Thread nD τ).loc main_arg2)) :=
  (V3_main_v0_1 m ρ c).trans (final0_4 (V1 m ρ) c)

/-- Code (n, k) of the weight matrix is code k % 64 of block n * 64 + k / 64 of the launch code array. -/
theorem aCodes_apply (c : Dev nD) (n : Fin 12288) (k : Fin 4096) :
    aCodes (V3 m ρ) c (ix2 n k)
      = (m ((c : Thread nD τ).loc main_arg5) : S786432x64.Idx → BitVec 32) (ix2 ⟨n.val * 64 + k.val / 64, by omega⟩ ⟨k.val % 64, by omega⟩) :=
  (congrFun (V3_main_v1 m ρ c) (ix2 n k)).trans (codes2d_apply _ n k)

/-- Scaler (n, j) is the launch scaler of block n * 64 + j. -/
theorem aScal_apply (c : Dev nD) (n : Fin 12288) (j : Fin 64) :
    aScal (V3 m ρ) c (ix2 n j)
      = (m ((c : Thread nD τ).loc main_arg6) : S786432.Idx → BitVec 32) (ix1 ⟨n.val * 64 + j.val, by omega⟩) :=
  (congrFun (V3_main_v2 m ρ c) (ix2 n j)).trans (scalers2d_apply _ n j)

/-- Row n's factor is the launch factor of its group of four rows. -/
theorem aFac_apply (c : Dev nD) (n : Fin 12288) :
    aFac (V3 m ρ) c (ix2 n (0 : Fin 1))
      = (m ((c : Thread nD τ).loc main_arg3) : S3072.Idx → EReal) (ix1 ⟨n.val / 4, by omega⟩) :=
  (congrFun (V3_main_v5 m ρ c) (ix2 n (0 : Fin 1))).trans (factors_apply _ n)

/-- The mean is the launch mean. -/
theorem aMean_apply (c : Dev nD) :
    aMean (V3 m ρ) c (ix2 (0 : Fin 1) (0 : Fin 1)) = (m ((c : Thread nD τ).loc main_arg4) : S1.Idx → EReal) (ix1 0) :=
  (congrFun (V3_main_v6 m ρ c) (ix2 (0 : Fin 1) (0 : Fin 1))).trans (mean_apply _)

/-! ## The two results -/

/-- The normalised array the run ends with is the specification's layer normalisation of the launch arrays. -/
theorem kernel_ln_eq (c : Dev nD) :
    (dat0 (F := Ideal) (V1 m ρ) c).arrAt 3 cfg0.N
      = Cert.Spec.ln (m ((c : Thread nD τ).loc main_arg0)) (m ((c : Thread nD τ).loc main_arg1)) (m ((c : Thread nD τ).loc main_arg2)) :=
  final0_3 (V1 m ρ) c

/-- One entry of the linear layer's output: the two sums over the 4096 columns agree term by term. -/
theorem out_entry (c : Dev nD) (r : Fin 4096) (n : Fin 12288) :
    outV (V3 m ρ) c (ix2 r n)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 r n) := by
  show (∑ k : Fin 4096, aAct (V3 m ρ) c (ix2 r k) * (Cert.Spec.lut (aCodes (V3 m ρ) c (ix2 n k))
        * (Ideal.div ((((aScal (V3 m ρ) c) (ix2 n (⟨k.val / 64, by omega⟩ : Fin 64))).toInt : ℝ) : EReal) (aFac (V3 m ρ) c (ix2 n (0 : Fin 1)))
            + aMean (V3 m ρ) c (ix2 (0 : Fin 1) (0 : Fin 1)))))
    = ∑ k : Fin 4096, Cert.Spec.ln (m ((c : Thread nD τ).loc main_arg0)) (m ((c : Thread nD τ).loc main_arg1)) (m ((c : Thread nD τ).loc main_arg2)) (ix2 r k)
        * Cert.Spec.wd (m ((c : Thread nD τ).loc main_arg5)) (m ((c : Thread nD τ).loc main_arg6)) (m ((c : Thread nD τ).loc main_arg3))
            (m ((c : Thread nD τ).loc main_arg4)) n k
  refine Finset.sum_congr rfl fun k _ => ?_
  rw [aAct_eq m ρ c, aCodes_apply m ρ c n k, aScal_apply m ρ c n ⟨k.val / 64, by omega⟩, aFac_apply m ρ c n, aMean_apply m ρ c]
  rfl

/-- The linear layer's output array the run ends with is the specification's function of the seven launch arrays. -/
theorem kernel_out_eq (c : Dev nD) :
    (dat1 (F := Ideal) (V3 m ρ) c).arrAt 5 cfg1.N
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [final1_5 (V3 m ρ) c]
  funext j
  obtain ⟨r, n, rfl⟩ : ∃ (r : Fin 4096) (n : Fin 12288), j = ix2 r n := ⟨j 0, j 1, eq_ix2 j⟩
  exact out_entry m ρ c r n

end Cert.KernelIdeal.Hand

end
-- ==== Proof.Ref.Term.lean ====
/-
  The reference program's two results as pure terms of its seven argument arrays: each operation of the printed
  straight line applied to the values of the operations before it, in the printed order, over any float values.

  `refLn` is the value of the layer normalisation (operations %0 to %23): the row sums of `x` over 4096 give the
  row means, the row sums of the squared deviations over 4096 give the variances, and each deviation is multiplied
  by the reciprocal square root of its row's variance plus epsilon, then by the weight of its column, and the bias
  of its column is added.

  `refOut` is the value of the linear layer (operations %24 to %44 over `refLn`): each block's integer scaler,
  converted, divided by its group's factor, plus the mean, is the block's scale; each code, sixteen added where it
  is negative, indexes the sixteen-level table; level times scale, reshaped to 12288 rows of 4096 and transposed,
  is the right operand of the product with the layer normalisation.
-/
import proofs.«421015_j11192684773387_3_alg».proof.Proof.Gen.ReferenceIdeal

noncomputable section

namespace Cert.ReferenceIdeal.Hand

open Cert.ReferenceIdeal Cert.ReferenceIdeal.Gen Idealize.ShloMosaic

variable {F : FTy → Type} [FloatOps F]

/-- The layer normalisation of `x` with weight `w` and bias `b`, as the operations %0 to %23 compose it. -/
def refLn (x : FVec F S4096x4096 .f32) (w b : FVec F S4096 .f32) : FVec F S4096x4096 .f32 :=
  -- the row means
  let v0 : FVec F S4096 .f32 := Host.reduceAdd x (constant S_ .f32 0x00000000#32) reducesTo_S4096x4096_S4096_d1 h_S_
  let v1 : FVec F S4096x1 .f32 := broadcastInDim S4096x1 ![0] bcast_S4096_S4096x1_0 v0
  let v2 : FVec F S4096x1 .f32 := broadcastInDim S4096x1 ![] bcast_S_S4096x1 (constant S_ .f32 0x45800000#32)
  let v3 : FVec F S4096x1 .f32 := Host.divf v1 v2
  -- the squared deviations and the row variances
  let v4 : FVec F S4096x4096 .f32 := broadcastInDim S4096x4096 ![0, 1] bcast_S4096x1_S4096x4096_0_1 v3
  let v5 : FVec F S4096x4096 .f32 := subf x v4
  let v6 : FVec F S4096x4096 .f32 := mulf v5 v5
  let v7 : FVec F S4096 .f32 := Host.reduceAdd v6 (constant S_ .f32 0x00000000#32) reducesTo_S4096x4096_S4096_d1 h_S_
  let v8 : FVec F S4096x1 .f32 := broadcastInDim S4096x1 ![0] bcast_S4096_S4096x1_0 v7
  let v9 : FVec F S4096x1 .f32 := broadcastInDim S4096x1 ![] bcast_S_S4096x1 (constant S_ .f32 0x45800000#32)
  let v10 : FVec F S4096x1 .f32 := Host.divf v8 v9
  -- the deviations times the reciprocal square root of variance plus epsilon
  let v11 : FVec F S4096x4096 .f32 := broadcastInDim S4096x4096 ![0, 1] bcast_S4096x1_S4096x4096_0_1 v3
  let v12 : FVec F S4096x4096 .f32 := subf x v11
  let v13 : FVec F S4096x1 .f32 := broadcastInDim S4096x1 ![] bcast_S_S4096x1 (constant S_ .f32 0x3727C5AC#32)
  let v14 : FVec F S4096x1 .f32 := addf v10 v13
  let v15 : FVec F S4096x1 .f32 := Host.rsqrt v14
  let v16 : FVec F S4096x4096 .f32 := broadcastInDim S4096x4096 ![0, 1] bcast_S4096x1_S4096x4096_0_1 v15
  let v17 : FVec F S4096x4096 .f32 := mulf v12 v16
  -- times the column's weight, plus the column's bias
  let v18 : FVec F S1x4096 .f32 := broadcastInDim S1x4096 ![1] bcast_S4096_S1x4096_1 w
  let v19 : FVec F S4096x4096 .f32 := broadcastInDim S4096x4096 ![0, 1] bcast_S1x4096_S4096x4096_0_1 v18
  let v20 : FVec F S4096x4096 .f32 := mulf v17 v19
  let v21 : FVec F S1x4096 .f32 := broadcastInDim S1x4096 ![1] bcast_S4096_S1x4096_1 b
  let v22 : FVec F S4096x4096 .f32 := broadcastInDim S4096x4096 ![0, 1] bcast_S1x4096_S4096x4096_0_1 v21
  addf v20 v22

/-- The linear layer's output, as the operations %24 to %44 compose it over the layer normalisation. -/
def refOut (x : FVec F S4096x4096 .f32) (w b : FVec F S4096 .f32) (qf : FVec F S3072 .f32) (sm : FVec F S1 .f32)
    (codes : IVec S786432x64 32) (qs : IVec S786432 32) : FVec F S4096x12288 .f32 :=
  -- the blocks' scales: scaler over the group's factor, plus the mean
  let v24 : FVec F S786432 .f32 := sitofp .f32 qs
  let v25 : FVec F S3072x256 .f32 := shapeCast S3072x256 v24 shapeCasts_S786432_S3072x256
  let v26 : FVec F S3072x1 .f32 := broadcastInDim S3072x1 ![0] bcast_S3072_S3072x1_0 qf
  let v27 : FVec F S3072x256 .f32 := broadcastInDim S3072x256 ![0, 1] bcast_S3072x1_S3072x256_0_1 v26
  let v28 : FVec F S3072x256 .f32 := Host.divf v25 v27
  let v29 : FVec F S1x1 .f32 := broadcastInDim S1x1 ![1] bcast_S1_S1x1_1 sm
  let v30 : FVec F S3072x256 .f32 := broadcastInDim S3072x256 ![0, 1] bcast_S1x1_S3072x256_0_1 v29
  let v31 : FVec F S3072x256 .f32 := addf v28 v30
  let v32 : FVec F S786432x1 .f32 := shapeCast S786432x1 v31 shapeCasts_S3072x256_S786432x1
  -- the sixteen-level table: entry `i` is the float of the `i`-th listed word
  let cst : FVec F S16 .f32 := fun i => FloatOps.ofBits .f32 (lit0 (S16.rowMajor i))
  -- the codes, sixteen added where negative, looked up in the table
  let v33 : IVec S786432x64 32 := broadcastInDim S786432x64 ![] bcast_S_S786432x64 (constantI S_ 32 0#32)
  let v34 : IVec S786432x64 1 := cmpi .slt codes v33
  let v35 : IVec S786432x64 32 := broadcastInDim S786432x64 ![] bcast_S_S786432x64 (constantI S_ 32 16#32)
  let v36 : IVec S786432x64 32 := addi codes v35
  let v37 : IVec S786432x64 32 := select v34 v36 codes
  let v38 : IVec S786432x64x1 32 := broadcastInDim S786432x64x1 ![0, 1] bcast_S786432x64_S786432x64x1_0_1 v37
  let v39 : FVec F S786432x64 .f32 := Host.gather gather_S16_S786432x64x1_S786432x64_n_0_n_n_0_2_1 cst v38
  -- level times scale, as 12288 rows of 4096, transposed
  let v40 : FVec F S786432x64 .f32 := broadcastInDim S786432x64 ![0, 1] bcast_S786432x1_S786432x64_0_1 v32
  let v41 : FVec F S786432x64 .f32 := mulf v39 v40
  let v42 : FVec F S12288x4096 .f32 := shapeCast S12288x4096 v41 shapeCasts_S786432x64_S12288x4096
  let v43 : FVec F S4096x12288 .f32 := transpose S4096x12288 [1, 0] v42 transposes_S12288x4096_S4096x12288_1_0
  Host.dotGeneral dot_S4096x4096_S4096x12288_S4096x12288_1_0_0_1_n_n none (refLn x w b) v43

end Cert.ReferenceIdeal.Hand

end
-- ==== Proof.Ref.Run.lean ====
/-
  The reference program's run: its straight line of 53 host operations, listed in the printed order, run from any
  memory with zero counters. Every weakly fair execution terminates; each buffer then holds the fold of the
  operations' results over the launch contents, which at the two result buffers is the composed term of the argument
  arrays (`refOut`, `refLn`) and at the seven argument buffers, which no operation writes, is what was there.
-/
import proofs.«421015_j11192684773387_3_alg».proof.Proof.Gen.ReferenceIdeal
import proofs.«421015_j11192684773387_3_alg».proof.Proof.Ref.Term
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 53 operations, in order. -/
abbrev ops : List (HloOp τ sig (Elt F)) :=
  [ nullary main_cst (fun i => FloatOps.ofBits .f32 (lit0 (S16.rowMajor i))),
    nullary main_cst_0 (constant S_ .f32 0x00000000#32),
    binary main_arg0 main_cst_0 main_v0 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v0 main_v1 (broadcastInDim S4096x1 ![0] bcast_S4096_S4096x1_0 : (⟨S4096, .f32⟩ : BufTy).Contents (Elt F) → (⟨S4096x1, .f32⟩ : BufTy).Contents (Elt F)),
    nullary main_cst_1 (constant S_ .f32 0x45800000#32),
    unary main_cst_1 main_v2 (broadcastInDim S4096x1 ![] bcast_S_S4096x1 : (⟨S_, .f32⟩ : BufTy).Contents (Elt F) → (⟨S4096x1, .f32⟩ : BufTy).Contents (Elt F)),
    binary main_v1 main_v2 main_v3 (Host.divf : (⟨S4096x1, .f32⟩ : BufTy).Contents (Elt F) → (⟨S4096x1, .f32⟩ : BufTy).Contents (Elt F) → (⟨S4096x1, .f32⟩ : BufTy).Contents (Elt F)),
    unary main_v3 main_v4 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v4 main_v5 (subf : (⟨S4096x4096, .f32⟩ : BufTy).Contents (Elt F) → (⟨S4096x4096, .f32⟩ : BufTy).Contents (Elt F) → (⟨S4096x4096, .f32⟩ : BufTy).Contents (Elt F)),
    binary main_v5 main_v5 main_v6 (mulf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x00000000#32),
    binary main_v6 main_cst_2 main_v7 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    nullary main_cst_3 (constant S_ .f32 0x45800000#32),
    unary main_cst_3 main_v9 (broadcastInDim S4096x1 ![] bcast_S_S4096x1 : (⟨S_, .f32⟩ : BufTy).Contents (Elt F) → (⟨S4096x1, .f32⟩ : BufTy).Contents (Elt F)),
    binary main_v8 main_v9 main_v10 (Host.divf : (⟨S4096x1, .f32⟩ : BufTy).Contents (Elt F) → (⟨S4096x1, .f32⟩ : BufTy).Contents (Elt F) → (⟨S4096x1, .f32⟩ : BufTy).Contents (Elt F)),
    unary main_v3 main_v11 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v11 main_v12 (subf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x3727C5AC#32),
    unary main_cst_4 main_v13 (broadcastInDim S4096x1 ![] bcast_S_S4096x1 : (⟨S_, .f32⟩ : BufTy).Contents (Elt F) → (⟨S4096x1, .f32⟩ : BufTy).Contents (Elt F)),
    binary main_v10 main_v13 main_v14 (addf : (⟨S4096x1, .f32⟩ : BufTy).Contents (Elt F) → (⟨S4096x1, .f32⟩ : BufTy).Contents (Elt F) → (⟨S4096x1, .f32⟩ : BufTy).Contents (Elt F)),
    unary main_v14 main_v15 (Host.rsqrt : (⟨S4096x1, .f32⟩ : BufTy).Contents (Elt F) → (⟨S4096x1, .f32⟩ : BufTy).Contents (Elt F)),
    unary main_v15 main_v16 (broadcastInDim S4096x4096 ![0, 1] bcast_S4096x1_S4096x4096_0_1 : (⟨S4096x1, .f32⟩ : BufTy).Contents (Elt F) → (⟨S4096x4096, .f32⟩ : BufTy).Contents (Elt F)),
    binary main_v12 main_v16 main_v17 (mulf : (⟨S4096x4096, .f32⟩ : BufTy).Contents (Elt F) → (⟨S4096x4096, .f32⟩ : BufTy).Contents (Elt F) → (⟨S4096x4096, .f32⟩ : BufTy).Contents (Elt F)),
    unary main_arg1 main_v18 (broadcastInDim S1x4096 ![1] bcast_S4096_S1x4096_1 : (⟨S4096, .f32⟩ : BufTy).Contents (Elt F) → (⟨S1x4096, .f32⟩ : BufTy).Contents (Elt F)),
    unary main_v18 main_v19 (broadcastInDim S4096x4096 ![0, 1] bcast_S1x4096_S4096x4096_0_1 : (⟨S1x4096, .f32⟩ : BufTy).Contents (Elt F) → (⟨S4096x4096, .f32⟩ : BufTy).Contents (Elt F)),
    binary main_v17 main_v19 main_v20 (mulf : (⟨S4096x4096, .f32⟩ : BufTy).Contents (Elt F) → (⟨S4096x4096, .f32⟩ : BufTy).Contents (Elt F) → (⟨S4096x4096, .f32⟩ : BufTy).Contents (Elt F)),
    unary main_arg2 main_v21 (broadcastInDim S1x4096 ![1] bcast_S4096_S1x4096_1 : (⟨S4096, .f32⟩ : BufTy).Contents (Elt F) → (⟨S1x4096, .f32⟩ : BufTy).Contents (Elt F)),
    unary main_v21 main_v22 (broadcastInDim S4096x4096 ![0, 1] bcast_S1x4096_S4096x4096_0_1 : (⟨S1x4096, .f32⟩ : BufTy).Contents (Elt F) → (⟨S4096x4096, .f32⟩ : BufTy).Contents (Elt F)),
    binary main_v20 main_v22 main_v23 (addf : (⟨S4096x4096, .f32⟩ : BufTy).Contents (Elt F) → (⟨S4096x4096, .f32⟩ : BufTy).Contents (Elt F) → (⟨S4096x4096, .f32⟩ : BufTy).Contents (Elt F)),
    unary main_arg6 main_v24 (sitofp .f32 : (⟨S786432, .i32⟩ : BufTy).Contents (Elt F) → (⟨S786432, .f32⟩ : BufTy).Contents (Elt F)),
    reshape main_v24 main_v25 rfl shapeCasts_S786432_S3072x256,
    unary main_arg3 main_v26 (broadcastInDim S3072x1 ![0] bcast_S3072_S3072x1_0 : (⟨S3072, .f32⟩ : BufTy).Contents (Elt F) → (⟨S3072x1, .f32⟩ : BufTy).Contents (Elt F)),
    unary main_v26 main_v27 (broadcastInDim S3072x256 ![0, 1] bcast_S3072x1_S3072x256_0_1 : (⟨S3072x1, .f32⟩ : BufTy).Contents (Elt F) → (⟨S3072x256, .f32⟩ : BufTy).Contents (Elt F)),
    binary main_v25 main_v27 main_v28 (Host.divf : (⟨S3072x256, .f32⟩ : BufTy).Contents (Elt F) → (⟨S3072x256, .f32⟩ : BufTy).Contents (Elt F) → (⟨S3072x256, .f32⟩ : BufTy).Contents (Elt F)),
    unary main_arg4 main_v29 (broadcastInDim S1x1 ![1] bcast_S1_S1x1_1 : (⟨S1, .f32⟩ : BufTy).Contents (Elt F) → (⟨S1x1, .f32⟩ : BufTy).Contents (Elt F)),
    unary main_v29 main_v30 (broadcastInDim S3072x256 ![0, 1] bcast_S1x1_S3072x256_0_1 : (⟨S1x1, .f32⟩ : BufTy).Contents (Elt F) → (⟨S3072x256, .f32⟩ : BufTy).Contents (Elt F)),
    binary main_v28 main_v30 main_v31 (addf : (⟨S3072x256, .f32⟩ : BufTy).Contents (Elt F) → (⟨S3072x256, .f32⟩ : BufTy).Contents (Elt F) → (⟨S3072x256, .f32⟩ : BufTy).Contents (Elt F)),
    reshape main_v31 main_v32 rfl shapeCasts_S3072x256_S786432x1,
    nullary main_c (constantI S_ 32 0#32),
    unary main_c main_v33 (broadcastInDim S786432x64 ![] bcast_S_S786432x64 : (⟨S_, .i32⟩ : BufTy).Contents (Elt F) → (⟨S786432x64, .i32⟩ : BufTy).Contents (Elt F)),
    binary main_arg5 main_v33 main_v34 (cmpi .slt : (⟨S786432x64, .i32⟩ : BufTy).Contents (Elt F) → (⟨S786432x64, .i32⟩ : BufTy).Contents (Elt F) → (⟨S786432x64, .i1⟩ : BufTy).Contents (Elt F)),
    nullary main_c_5 (constantI S_ 32 16#32),
    unary main_c_5 main_v35 (broadcastInDim S786432x64 ![] bcast_S_S786432x64 : (⟨S_, .i32⟩ : BufTy).Contents (Elt F) → (⟨S786432x64, .i32⟩ : BufTy).Contents (Elt F)),
    binary main_arg5 main_v35 main_v36 (addi : (⟨S786432x64, .i32⟩ : BufTy).Contents (Elt F) → (⟨S786432x64, .i32⟩ : BufTy).Contents (Elt F) → (⟨S786432x64, .i32⟩ : BufTy).Contents (Elt F)),
    ternary main_v34 main_v36 main_arg5 main_v37 (select : (⟨S786432x64, .i1⟩ : BufTy).Contents (Elt F) → (⟨S786432x64, .i32⟩ : BufTy).Contents (Elt F) → (⟨S786432x64, .i32⟩ : BufTy).Contents (Elt F) → (⟨S786432x64, .i32⟩ : BufTy).Contents (Elt F)),
    unary main_v37 main_v38 (broadcastInDim S786432x64x1 ![0, 1] bcast_S786432x64_S786432x64x1_0_1 : (⟨S786432x64, .i32⟩ : BufTy).Contents (Elt F) → (⟨S786432x64x1, .i32⟩ : BufTy).Contents (Elt F)),
    binary main_cst main_v38 main_v39 ((fun x i => Host.gather gather_S16_S786432x64x1_S786432x64_n_0_n_n_0_2_1 x i) : (⟨S16, .f32⟩ : BufTy).Contents (Elt F) → (⟨S786432x64x1, .i32⟩ : BufTy).Contents (Elt F) → (⟨S786432x64, .f32⟩ : BufTy).Contents (Elt F)),
    unary main_v32 main_v40 (broadcastInDim S786432x64 ![0, 1] bcast_S786432x1_S786432x64_0_1 : (⟨S786432x1, .f32⟩ : BufTy).Contents (Elt F) → (⟨S786432x64, .f32⟩ : BufTy).Contents (Elt F)),
    binary main_v39 main_v40 main_v41 (mulf : (⟨S786432x64, .f32⟩ : BufTy).Contents (Elt F) → (⟨S786432x64, .f32⟩ : BufTy).Contents (Elt F) → (⟨S786432x64, .f32⟩ : BufTy).Contents (Elt F)),
    reshape main_v41 main_v42 rfl shapeCasts_S786432x64_S12288x4096,
    unary main_v42 main_v43 ((transpose S4096x12288 [1, 0] · transposes_S12288x4096_S4096x12288_1_0) : (⟨S12288x4096, .f32⟩ : BufTy).Contents (Elt F) → (⟨S4096x12288, .f32⟩ : BufTy).Contents (Elt F)),
    binary main_v23 main_v43 main_v44 ((fun l r => Host.dotGeneral dot_S4096x4096_S4096x12288_S4096x12288_1_0_0_1_n_n none l r) : (⟨S4096x4096, .f32⟩ : BufTy).Contents (Elt F) → (⟨S4096x12288, .f32⟩ : BufTy).Contents (Elt F) → (⟨S4096x12288, .f32⟩ : BufTy).Contents (Elt F)) ]

/-- The printed program is the straight line of these operations. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., reshape_bufs_sub .., unary_bufs_sub .., binary_bufs_sub ..⟩

/-- The fold of the operations at the two result buffers is the composed term of the argument buffers' contents. -/
theorem after_v44 (V : Valuation τ sig (Elt F)) :
    after ops V (Proc.devRef .tc main_v44)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  after_results_simp
  rfl

theorem after_v23 (V : Valuation τ sig (Elt F)) :
    after ops V (Proc.devRef .tc main_v23)
      = refLn (V (Proc.devRef .tc main_arg0)) (V (Proc.devRef .tc main_arg1)) (V (Proc.devRef .tc main_arg2)) := by
  after_results_simp
  rfl

/-- No operation writes an argument buffer. -/
theorem after_arg0 (V : Valuation τ sig (Elt F)) : after ops V (Proc.devRef .tc main_arg0) = V (Proc.devRef .tc main_arg0) := by after_results_simp
theorem after_arg1 (V : Valuation τ sig (Elt F)) : after ops V (Proc.devRef .tc main_arg1) = V (Proc.devRef .tc main_arg1) := by after_results_simp
theorem after_arg2 (V : Valuation τ sig (Elt F)) : after ops V (Proc.devRef .tc main_arg2) = V (Proc.devRef .tc main_arg2) := by after_results_simp
theorem after_arg3 (V : Valuation τ sig (Elt F)) : after ops V (Proc.devRef .tc main_arg3) = V (Proc.devRef .tc main_arg3) := by after_results_simp
theorem after_arg4 (V : Valuation τ sig (Elt F)) : after ops V (Proc.devRef .tc main_arg4) = V (Proc.devRef .tc main_arg4) := by after_results_simp
theorem after_arg5 (V : Valuation τ sig (Elt F)) : after ops V (Proc.devRef .tc main_arg5) = V (Proc.devRef .tc main_arg5) := by after_results_simp
theorem after_arg6 (V : Valuation τ sig (Elt F)) : after ops V (Proc.devRef .tc main_arg6) = V (Proc.devRef .tc main_arg6) := by after_results_simp

/-- On every device, for any float values, from any memory with zero counters: every weakly fair execution of
    @main terminates with the two results at the operations' composed terms of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v23) = refLn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v44).trans (after_v44 _), (h c main_v23).trans (after_v23 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _)⟩)
    (run_seq scopedRefs_eq scopedSems_eq defs main (fun _ => ops) main_eq (fun _ => ops_sub) m ρ)

end Cert.ReferenceIdeal.Hand

end
-- ==== Proof.Ref.Value.lean ====
/-
  The reference's two composed terms, read at an index on the extended reals, are the two results of the
  specification.

  Every operation of the reference is read at one index of its result as its operand at one index: a broadcast reads
  the coordinates its dimension list names (zero on an axis of extent one), a reshape the index at the same
  row-major position, a transpose the swapped index, a row reduction the sum over the row, the gather the table at
  the clamped start index, the product the sum over the contracted axis. Composing these readings, operation by
  operation, gives the specification's closed forms.

  The layer normalisation: the row sum over 4096 divided by the word of 4096 is the mean; the row sum of the squared
  deviations over the same word is the variance; the deviation times the reciprocal square root of variance plus
  epsilon, times the column's weight, plus the column's bias, is the entry.

  The linear layer. Entry (n, k) of the [12288, 4096] reshape of a [786432, 64] array is its entry
  (n * 64 + k / 64, k % 64), because (n * 64 + k / 64) * 64 + k % 64 = n * 4096 + k. Block m of the scales, as a
  [786432, 1] column, is entry (m / 256, m % 256) of the [3072, 256] array, itself entry m of the converted
  scalers; and for m = n * 64 + j with j < 64 the group m / 256 is n / 4. A code between 0 and 15 is not negative,
  so the selection that adds sixteen to negative codes returns the code itself; the clamp of the gather leaves it
  where it is; and the table's entry at it is the chain of sixteen selections on the code word, by the sixteen cases.
-/
import proofs.«421015_j11192684773387_3_alg».proof.Proof.Spec
import proofs.«421015_j11192684773387_3_alg».proof.Proof.Ref.Term
import Idealize.ShloMosaic.Lib.IdealHost
import Idealize.ShloMosaic.Lib.ValueLayout

noncomputable section

namespace Cert.ReferenceIdeal.Hand

open Cert.ReferenceIdeal Cert.ReferenceIdeal.Gen Idealize.ShloMosaic Idealize.ShloMosaic.ValueIdx

variable {α : Type}

/-! ## The layer normalisation: broadcasts and the row sum at an index -/

/-- A vector of 4096 laid out as a column reads, at row `r`, its entry `r`. -/
theorem bcast_col_apply (h : S4096.BroadcastsInDim S4096x1 ![0]) (v : S4096.Idx → α) (r : Fin 4096) (c : Fin 1) :
    broadcastInDim S4096x1 ![0] h v (ix2 r c) = v (ix1 r) :=
  broadcastInDim_apply _ h v _ _ fun a => match a with | ⟨0, _⟩ => rfl

/-- A column broadcast along the rows reads, at `(r, k)`, the column's entry `r`. -/
theorem bcast_row_apply (h : S4096x1.BroadcastsInDim S4096x4096 ![0, 1]) (v : S4096x1.Idx → α) (r k : Fin 4096) :
    broadcastInDim S4096x4096 ![0, 1] h v (ix2 r k) = v (ix2 r 0) :=
  broadcastInDim_apply _ h v _ _ fun a => match a with | ⟨0, _⟩ => rfl | ⟨1, _⟩ => rfl

/-- A vector of 4096 laid out as one row reads, at column `k`, its entry `k`. -/
theorem bcast_vec_apply (h : S4096.BroadcastsInDim S1x4096 ![1]) (v : S4096.Idx → α) (c : Fin 1) (k : Fin 4096) :
    broadcastInDim S1x4096 ![1] h v (ix2 c k) = v (ix1 k) :=
  broadcastInDim_apply _ h v _ _ fun a => match a with | ⟨0, _⟩ => rfl

/-- One row broadcast down the rows reads, at `(r, k)`, the row's entry `k`. -/
theorem bcast_rows_apply (h : S1x4096.BroadcastsInDim S4096x4096 ![0, 1]) (v : S1x4096.Idx → α) (r k : Fin 4096) :
    broadcastInDim S4096x4096 ![0, 1] h v (ix2 r k) = v (ix2 0 k) :=
  broadcastInDim_apply _ h v _ _ fun a => match a with | ⟨0, _⟩ => rfl | ⟨1, _⟩ => rfl

/-- The sum along axis 1 from the zero word reads, at row `r`, the sum of the row's 4096 entries: the zero word is
    the extended real zero, and the index with `k` inserted on axis 1 of `(r)` is `(r, k)`. -/
theorem rowSum_apply (y : FVec Ideal S4096x4096 .f32) (h : S4096x4096.ReducesTo [1] S4096) (hu : 0 < S_.numel) (r : Fin 4096) :
    Host.reduceAdd y (constant (F := Ideal) S_ .f32 0x00000000#32) h hu (ix1 r) = ∑ k : Fin 4096, y (ix2 r k) := by
  rw [hostReduceAdd_apply, Ideal.hostReduceAdd_single h (by decide : S4096x4096.Reduces [1] S4096)]
  rw [constant_apply, Ideal.ofBits_zero_f32, zero_add]
  refine Finset.sum_congr rfl fun k _ => congrArg y ?_
  funext a
  match a with
  | ⟨0, _⟩ => rfl
  | ⟨1, _⟩ => rfl

/-- The reciprocal square root of an array reads, at an index, the reciprocal square root of the element. -/
theorem hostRsqrt_apply {s : Shape} {φ : FTy} (a : FVec Ideal s φ) (i : s.Idx) : Host.rsqrt a i = Ideal.rsqrt (a i) := rfl

/-- The column of row sums over the broadcast word of 4096 reads, at row `r`, the row's mean. -/
theorem mean_apply (x : FVec Ideal S4096x4096 .f32) (r : Fin 4096) (c : Fin 1) :
    Host.divf (broadcastInDim S4096x1 ![0] bcast_S4096_S4096x1_0
        (Host.reduceAdd x (constant (F := Ideal) S_ .f32 0x00000000#32) reducesTo_S4096x4096_S4096_d1 h_S_))
      (broadcastInDim S4096x1 ![] bcast_S_S4096x1 (constant (F := Ideal) S_ .f32 0x45800000#32)) (ix2 r c)
      = Cert.Spec.mu x r := by
  rw [hostDivf_apply, bcast_col_apply, rowSum_apply, broadcastInDim_scalar_apply, constant_apply]
  rfl

/-- For a column `m` that holds the row means, the column of row sums of the squared deviations from `m`, over the
    broadcast word of 4096, reads at row `r` the row's variance. -/
theorem var_apply (x : FVec Ideal S4096x4096 .f32) (m : FVec Ideal S4096x1 .f32)
    (hm : ∀ r c, m (ix2 r c) = Cert.Spec.mu x r) (r : Fin 4096) (c : Fin 1) :
    Host.divf (broadcastInDim S4096x1 ![0] bcast_S4096_S4096x1_0
        (Host.reduceAdd
          (mulf (subf x (broadcastInDim S4096x4096 ![0, 1] bcast_S4096x1_S4096x4096_0_1 m))
            (subf x (broadcastInDim S4096x4096 ![0, 1] bcast_S4096x1_S4096x4096_0_1 m)))
          (constant (F := Ideal) S_ .f32 0x00000000#32) reducesTo_S4096x4096_S4096_d1 h_S_))
      (broadcastInDim S4096x1 ![] bcast_S_S4096x1 (constant (F := Ideal) S_ .f32 0x45800000#32)) (ix2 r c)
      = Cert.Spec.var x r := by
  rw [hostDivf_apply, bcast_col_apply, rowSum_apply, broadcastInDim_scalar_apply, constant_apply]
  show Ideal.div (∑ k : Fin 4096, _) _ = Ideal.div (∑ k : Fin 4096, _) _
  refine congrArg (fun s => Ideal.div s _) (Finset.sum_congr rfl fun k _ => ?_)
  rw [mulf_apply, subf_apply, bcast_row_apply, hm]

/-- THE FIRST RESULT: the reference's layer normalisation is the specification's, entry by entry. -/
theorem refLn_eq (x : FVec Ideal S4096x4096 .f32) (w b : FVec Ideal S4096 .f32) :
    refLn (F := Ideal) x w b = Cert.Spec.ln x w b := by
  funext i
  obtain ⟨r, k, rfl⟩ : ∃ r k, i = ix2 r k := ⟨i 0, i 1, eq_ix2 i⟩
  simp only [refLn]
  rw [addf_apply, mulf_apply, mulf_apply, subf_apply, bcast_row_apply, mean_apply, bcast_row_apply, hostRsqrt_apply,
    addf_apply, var_apply x _ (mean_apply x), broadcastInDim_scalar_apply, constant_apply,
    bcast_rows_apply, bcast_vec_apply, bcast_rows_apply, bcast_vec_apply]
  rfl

/-! ## The linear layer: reshapes and broadcasts at an index -/

/-- The 786432 blocks as 3072 groups of 256: entry `(g, t)` is block `g * 256 + t`. -/
theorem cast_groups_apply (h : S786432.ShapeCasts S3072x256) (v : S786432.Idx → α) (g : Fin 3072) (t : Fin 256) :
    shapeCast S3072x256 v h (ix2 g t) = v (ix1 ⟨g.val * 256 + t.val, by omega⟩) :=
  shapeCast_apply v h _ _ (by rw [Shape.rowMajor_val_one, Shape.rowMajor_val_two]; rfl)

/-- The 3072 groups of 256 as one column of 786432: block `m` is entry `(m / 256, m % 256)`. -/
theorem cast_blocks_apply (h : S3072x256.ShapeCasts S786432x1) (v : S3072x256.Idx → α) (m : Fin 786432) (c : Fin 1) :
    shapeCast S786432x1 v h (ix2 m c) = v (ix2 ⟨m.val / 256, by omega⟩ ⟨m.val % 256, by omega⟩) :=
  shapeCast_apply v h _ _ (by
    rw [Shape.rowMajor_val_two, Shape.rowMajor_val_two]
    show m.val / 256 * 256 + m.val % 256 = m.val * 1 + c.val
    omega)

/-- The 786432 blocks of 64 as 12288 rows of 4096: entry `(n, k)` is entry `k % 64` of block `n * 64 + k / 64`. -/
theorem cast_rows_apply (h : S786432x64.ShapeCasts S12288x4096) (v : S786432x64.Idx → α) (n : Fin 12288) (k : Fin 4096) :
    shapeCast S12288x4096 v h (ix2 n k) = v (ix2 ⟨n.val * 64 + k.val / 64, by omega⟩ ⟨k.val % 64, by omega⟩) :=
  shapeCast_apply v h _ _ (by
    rw [Shape.rowMajor_val_two, Shape.rowMajor_val_two]
    show (n.val * 64 + k.val / 64) * 64 + k.val % 64 = n.val * 4096 + k.val
    omega)

/-- The 3072 factors laid out as a column read, at group `g`, factor `g`. -/
theorem bcast_qf_col_apply (h : S3072.BroadcastsInDim S3072x1 ![0]) (v : S3072.Idx → α) (g : Fin 3072) (c : Fin 1) :
    broadcastInDim S3072x1 ![0] h v (ix2 g c) = v (ix1 g) :=
  broadcastInDim_apply _ h v _ _ fun a => match a with | ⟨0, _⟩ => rfl

/-- The column of factors broadcast along the 256 reads, at `(g, t)`, the column's entry `g`. -/
theorem bcast_qf_row_apply (h : S3072x1.BroadcastsInDim S3072x256 ![0, 1]) (v : S3072x1.Idx → α) (g : Fin 3072) (t : Fin 256) :
    broadcastInDim S3072x256 ![0, 1] h v (ix2 g t) = v (ix2 g 0) :=
  broadcastInDim_apply _ h v _ _ fun a => match a with | ⟨0, _⟩ => rfl | ⟨1, _⟩ => rfl

/-- The one-element mean as a 1 × 1 array reads its one element. -/
theorem bcast_sm_apply (h : S1.BroadcastsInDim S1x1 ![1]) (v : S1.Idx → α) (a c : Fin 1) :
    broadcastInDim S1x1 ![1] h v (ix2 a c) = v (ix1 0) :=
  broadcastInDim_apply _ h v _ _ fun a => match a with | ⟨0, _⟩ => rfl

/-- The 1 × 1 array broadcast over the groups reads its one element everywhere. -/
theorem bcast_sm_all_apply (h : S1x1.BroadcastsInDim S3072x256 ![0, 1]) (v : S1x1.Idx → α) (g : Fin 3072) (t : Fin 256) :
    broadcastInDim S3072x256 ![0, 1] h v (ix2 g t) = v (ix2 0 0) :=
  broadcastInDim_apply _ h v _ _ fun a => match a with | ⟨0, _⟩ => rfl | ⟨1, _⟩ => rfl

/-- The column of scales broadcast along a block's 64 codes reads, at `(m, c)`, the scale of block `m`. -/
theorem bcast_scale_apply (h : S786432x1.BroadcastsInDim S786432x64 ![0, 1]) (v : S786432x1.Idx → α) (m : Fin 786432) (c : Fin 64) :
    broadcastInDim S786432x64 ![0, 1] h v (ix2 m c) = v (ix2 m 0) :=
  broadcastInDim_apply _ h v _ _ fun a => match a with | ⟨0, _⟩ => rfl | ⟨1, _⟩ => rfl

/-- The codes with a trailing unit axis read, at the start-index position `(m, c, 0)`, code `(m, c)`. -/
theorem bcast_codes_apply (h : S786432x64.BroadcastsInDim S786432x64x1 ![0, 1]) (v : S786432x64.Idx → α) (m : Fin 786432) (c : Fin 64) :
    broadcastInDim S786432x64x1 ![0, 1] h v (takeIdx (ix2 m c)) = v (ix2 m c) :=
  broadcastInDim_apply _ h v _ _ fun a => match a with | ⟨0, _⟩ => rfl | ⟨1, _⟩ => rfl

/-! ## The blocks' scales -/

/-- The column of scales reads, at block `m`, the block's integer scaler over the factor of group `m / 256`, plus the
    mean: block `m` sits at `(m / 256, m % 256)` of the groups, which is block `m / 256 * 256 + m % 256 = m` of the
    converted scalers. -/
theorem scale_apply (qs : IVec S786432 32) (qf : FVec Ideal S3072 .f32) (sm : FVec Ideal S1 .f32) (m : Fin 786432) (c : Fin 1) :
    shapeCast S786432x1
      (addf
        (Host.divf (shapeCast S3072x256 (sitofp (F := Ideal) .f32 qs) shapeCasts_S786432_S3072x256)
          (broadcastInDim S3072x256 ![0, 1] bcast_S3072x1_S3072x256_0_1 (broadcastInDim S3072x1 ![0] bcast_S3072_S3072x1_0 qf)))
        (broadcastInDim S3072x256 ![0, 1] bcast_S1x1_S3072x256_0_1 (broadcastInDim S1x1 ![1] bcast_S1_S1x1_1 sm)))
      shapeCasts_S3072x256_S786432x1 (ix2 m c)
      = Ideal.div (((qs (ix1 m)).toInt : ℝ) : EReal) (qf (ix1 ⟨m.val / 256, by omega⟩)) + sm (ix1 0) := by
  rw [cast_blocks_apply, addf_apply, hostDivf_apply, cast_groups_apply, sitofp_apply, bcast_qf_row_apply, bcast_qf_col_apply,
    bcast_sm_all_apply, bcast_sm_apply]
  have hm : (⟨m.val / 256 * 256 + m.val % 256, by omega⟩ : Fin 786432) = m :=
    Fin.ext (by show m.val / 256 * 256 + m.val % 256 = m.val; omega)
  rw [hm]
  rfl

/-! ## The codes and the table -/

/-- On codes that are not negative the selection that adds sixteen to the negative ones returns the code: the
    comparison "code < 0" is the zero bit. -/
theorem wrap_apply (codes : IVec S786432x64 32) (hcodes : ∀ i : S786432x64.Idx, 0 ≤ (codes i).toInt ∧ (codes i).toInt < 16)
    (m : Fin 786432) (c : Fin 64) :
    select (cmpi .slt codes (broadcastInDim S786432x64 ![] bcast_S_S786432x64 (constantI S_ 32 0#32)))
      (addi codes (broadcastInDim S786432x64 ![] bcast_S_S786432x64 (constantI S_ 32 16#32))) codes (ix2 m c)
      = codes (ix2 m c) := by
  rw [select_apply]
  have h0 : cmpi .slt codes (broadcastInDim S786432x64 ![] bcast_S_S786432x64 (constantI S_ 32 0#32)) (ix2 m c) = 0#1 := by
    refine eq_zero_of_ne_one fun h1 => ?_
    have h2 : IntOp.cmpi .slt (codes (ix2 m c)) 0#32 = 1#1 := by
      rw [← h1]
      show _ = IntOp.cmpi .slt (codes (ix2 m c)) (broadcastInDim S786432x64 ![] bcast_S_S786432x64 (constantI S_ 32 0#32) (ix2 m c))
      rw [broadcastInDim_scalar_apply, constantI_apply]
    have h3 := IntOp.cmpi_slt.mp h2
    have h4 := (hcodes (ix2 m c)).1
    have h5 : (0#32 : BitVec 32).toInt = 0 := by decide
    omega
  rw [h0, select_zero]

/-- The gather from the sixteen-entry table reads, at `(m, c)`, the table at the start index there, read signed and
    clamped into `[0, 15]`; `v` names the start index's word. -/
theorem gather_apply (T : FVec Ideal S16 .f32) (idx : IVec S786432x64x1 32) (m : Fin 786432) (c : Fin 64) (v : BitVec 32)
    (hv : idx (takeIdx (ix2 m c)) = v) :
    Host.gather gather_S16_S786432x64x1_S786432x64_n_0_n_n_0_2_1 T idx (ix2 m c)
      = T (ix1 ⟨min v.toInt.toNat 15, by omega⟩) := by
  subst hv
  exact gather_take_apply (by decide) gather_S16_S786432x64x1_S786432x64_n_0_n_n_0_2_1_wf T idx (ix2 m c)

/-- The sixteen cases: the table's `n`-th word denotes what the chain of sixteen selections gives on the code word `n`
    (every comparison of the word `n` with another of the sixteen is the zero bit, the one with itself the one bit). -/
theorem lut_ofNat (n : Nat) (hn : n < 16) : Ideal.ofBits .f32 (lit0 ⟨n, hn⟩) = Cert.Spec.lut (BitVec.ofNat 32 n) := by
  interval_cases n <;>
    (simp only [Cert.Spec.lut, Scalar.select, IntOp.cmpi, BitVec.reduceBEq, BitVec.ofBool_false, BitVec.ofBool_true,
      BitVec.reduceEq, ↓reduceIte]
     exact congrArg (Ideal.ofBits FTy.f32) (by rfl))

/-- A code word `c` with `0 ≤ c < 16` read signed is the word of the natural number `c.toNat < 16`; the clamp to 15
    leaves it, and the table's entry there is the chain of selections on `c`. -/
theorem table_apply (c : BitVec 32) (h0 : 0 ≤ c.toInt) (h16 : c.toInt < 16) :
    FloatOps.ofBits (F := Ideal) .f32 (lit0 (S16.rowMajor (ix1 (⟨min c.toInt.toNat 15, by omega⟩ : Fin 16))))
      = Cert.Spec.lut c := by
  have hlt : c.toNat < 2 ^ 32 := c.isLt
  have hI : c.toInt = (c.toNat : Int) := by
    rw [BitVec.toInt_eq_toNat_cond] at h0 ⊢
    split_ifs at h0 ⊢ <;> omega
  have hn : c.toNat < 16 := by omega
  have hc : BitVec.ofNat 32 c.toNat = c :=
    BitVec.eq_of_toNat_eq (by rw [BitVec.toNat_ofNat]; exact Nat.mod_eq_of_lt hlt)
  have hidx : S16.rowMajor (ix1 (⟨min c.toInt.toNat 15, by omega⟩ : Fin 16)) = (⟨c.toNat, hn⟩ : Fin 16) :=
    Fin.ext (by rw [Shape.rowMajor_val_one]; show min c.toInt.toNat 15 = c.toNat; omega)
  rw [hidx]
  exact (lut_ofNat c.toNat hn).trans (congrArg Cert.Spec.lut hc)

/-- The gathered level at `(m, c)` is the chain of selections on code `(m, c)`. -/
theorem level_apply (codes : IVec S786432x64 32) (hcodes : ∀ i : S786432x64.Idx, 0 ≤ (codes i).toInt ∧ (codes i).toInt < 16)
    (m : Fin 786432) (c : Fin 64) :
    Host.gather gather_S16_S786432x64x1_S786432x64_n_0_n_n_0_2_1
        (fun i : S16.Idx => FloatOps.ofBits (F := Ideal) .f32 (lit0 (S16.rowMajor i)))
        (broadcastInDim S786432x64x1 ![0, 1] bcast_S786432x64_S786432x64x1_0_1
          (select (cmpi .slt codes (broadcastInDim S786432x64 ![] bcast_S_S786432x64 (constantI S_ 32 0#32)))
            (addi codes (broadcastInDim S786432x64 ![] bcast_S_S786432x64 (constantI S_ 32 16#32))) codes)) (ix2 m c)
      = Cert.Spec.lut (codes (ix2 m c)) := by
  rw [gather_apply _ _ m c (codes (ix2 m c)) (by rw [bcast_codes_apply, wrap_apply codes hcodes])]
  exact table_apply _ (hcodes _).1 (hcodes _).2

/-! ## The product -/

/-- The product's operand indices at result index `j` and contraction index `k`: the left operand is read at
    `(j 0, k)`, the right one at `(k, j 1)` (this lemma and the three after it, one coordinate each). -/
theorem dot_lhs_0 (j : S4096x12288.Idx) (k : dot_S4096x4096_S4096x12288_S4096x12288_1_0_0_1_n_n.contr.Idx) :
    (dot_S4096x4096_S4096x12288_S4096x12288_1_0_0_1_n_n.lhsIdx j k 0 : ℕ) = j 0 := by
  simp [DotDims.lhsIdx, dot_S4096x4096_S4096x12288_S4096x12288_1_0_0_1_n_n]; rfl
theorem dot_lhs_1 (j : S4096x12288.Idx) (k : dot_S4096x4096_S4096x12288_S4096x12288_1_0_0_1_n_n.contr.Idx) :
    (dot_S4096x4096_S4096x12288_S4096x12288_1_0_0_1_n_n.lhsIdx j k 1 : ℕ) = k ⟨0, by decide⟩ := by
  simp [DotDims.lhsIdx, dot_S4096x4096_S4096x12288_S4096x12288_1_0_0_1_n_n]; rfl
theorem dot_rhs_0 (j : S4096x12288.Idx) (k : dot_S4096x4096_S4096x12288_S4096x12288_1_0_0_1_n_n.contr.Idx) :
    (dot_S4096x4096_S4096x12288_S4096x12288_1_0_0_1_n_n.rhsIdx j k 0 : ℕ) = k ⟨0, by decide⟩ := by
  simp [DotDims.rhsIdx, dot_S4096x4096_S4096x12288_S4096x12288_1_0_0_1_n_n]; rfl
theorem dot_rhs_1 (j : S4096x12288.Idx) (k : dot_S4096x4096_S4096x12288_S4096x12288_1_0_0_1_n_n.contr.Idx) :
    (dot_S4096x4096_S4096x12288_S4096x12288_1_0_0_1_n_n.rhsIdx j k 1 : ℕ) = j 1 := by
  simp [DotDims.rhsIdx, dot_S4096x4096_S4096x12288_S4096x12288_1_0_0_1_n_n]; rfl

/-- The product read at `(p, n)`: the sum over `k` below 4096 of `l (p, k) * r (k, n)`, the contraction index
    re-indexed by its one coordinate. -/
theorem dot_apply (l : FVec Ideal S4096x4096 .f32) (r : FVec Ideal S4096x12288 .f32) (p : Fin 4096) (n : Fin 12288) :
    Host.dotGeneral dot_S4096x4096_S4096x12288_S4096x12288_1_0_0_1_n_n none l r (ix2 p n)
      = ∑ k : Fin 4096, l (ix2 p k) * r (ix2 k n) := by
  refine (Ideal.dotGeneral_apply dot_S4096x4096_S4096x12288_S4096x12288_1_0_0_1_n_n none .single l r (ix2 p n)).trans ?_
  rw [← Equiv.sum_comp (contrEquiv1 dot_S4096x4096_S4096x12288_S4096x12288_1_0_0_1_n_n 4096 rfl rfl).symm]
  refine Finset.sum_congr rfl fun k _ => ?_
  refine congrArg₂ (· * ·) (congrArg l ?_) (congrArg r ?_)
  · apply Shape.idx_ext₂
    · exact dot_lhs_0 _ _
    · exact (dot_lhs_1 _ _).trans (contrEquiv1_symm_val _ 4096 rfl rfl k)
  · apply Shape.idx_ext₂
    · exact (dot_rhs_0 _ _).trans (contrEquiv1_symm_val _ 4096 rfl rfl k)
    · exact dot_rhs_1 _ _

/-! ## The second result -/

/-- Level times scale at block `n * 64 + k / 64` is the specification's dequantised weight `(n, k)`: the block's group
    `(n * 64 + k / 64) / 256` is `n / 4`, since `k / 64 < 64`. -/
theorem weight_apply (qf : FVec Ideal S3072 .f32) (sm : FVec Ideal S1 .f32) (codes : IVec S786432x64 32) (qs : IVec S786432 32)
    (n : Fin 12288) (k : Fin 4096) :
    Cert.Spec.lut (codes (ix2 ⟨n.val * 64 + k.val / 64, by omega⟩ ⟨k.val % 64, by omega⟩))
        * (Ideal.div (((qs (ix1 ⟨n.val * 64 + k.val / 64, by omega⟩)).toInt : ℝ) : EReal)
            (qf (ix1 ⟨(n.val * 64 + k.val / 64) / 256, by omega⟩)) + sm (ix1 0))
      = Cert.Spec.wd codes qs qf sm n k := by
  have hg : (⟨(n.val * 64 + k.val / 64) / 256, by omega⟩ : Fin 3072) = ⟨n.val / 4, by omega⟩ := Fin.ext (by
    show (n.val * 64 + k.val / 64) / 256 = n.val / 4
    omega)
  rw [hg]
  rfl

/-- THE SECOND RESULT: on codes between 0 and 15 the reference's linear layer is the specification's, entry by entry:
    the sum over `k` of the normalised entry `(p, k)` times the transposed, reshaped, dequantised weight `(k, n)`. -/
theorem refOut_eq (x : FVec Ideal S4096x4096 .f32) (w b : FVec Ideal S4096 .f32) (qf : FVec Ideal S3072 .f32)
    (sm : FVec Ideal S1 .f32) (codes : IVec S786432x64 32) (qs : IVec S786432 32)
    (hcodes : ∀ i : S786432x64.Idx, 0 ≤ (codes i).toInt ∧ (codes i).toInt < 16) :
    refOut (F := Ideal) x w b qf sm codes qs = Cert.Spec.out x w b qf sm codes qs := by
  funext j
  obtain ⟨p, n, rfl⟩ : ∃ p n, j = ix2 p n := ⟨j 0, j 1, eq_ix2 j⟩
  simp only [refOut]
  rw [dot_apply, refLn_eq]
  show _ = ∑ k : Fin 4096, Cert.Spec.ln x w b (ix2 p k) * Cert.Spec.wd codes qs qf sm n k
  refine Finset.sum_congr rfl fun k _ => congrArg (Cert.Spec.ln x w b (ix2 p k) * ·) ?_
  rw [transpose_ix2_apply, cast_rows_apply, mulf_apply, level_apply codes hcodes, bcast_scale_apply, scale_apply]
  exact weight_apply qf sm codes qs n k

end Cert.ReferenceIdeal.Hand

end
-- ==== Proof.Pre.lean ====
/-
  The precondition of this certificate, read back at the code words. The printed predicate is a chain of
  conjunctions of six "all elements satisfy …" reductions; the last says of the packed code array that every word c
  has 0 ≤ c and c < 16, both compared signed. The claim states that the whole predicate is the bit 1. A conjunction of
  bits is 1 exactly when both bits are; a reduction by "and" over every axis is 1 only when every element reduced is 1;
  and a signed comparison bit is 1 exactly when the comparison holds of the words' signed values. Followed from the
  outermost conjunction inwards, this gives 0 ≤ c < 16 for the code word at every index. Nothing is evaluated over the
  array: the argument is at one symbolic index.
-/
import proofs.«421015_j11192684773387_3_alg».proof.Pre_finite_inputs
import proofs.«421015_j11192684773387_3_alg».proof.Proof.Gen.Pre_finite_inputs
import Idealize.ShloMosaic.Lib.ReduceAll
import Idealize.ShloMosaic.Lib.StableHlo.Predicate
import Idealize.ShloMosaic.Lib.ValueIdx

namespace Cert.Pre_finite_inputs.Hand

open Idealize.ShloMosaic Cert.Pre_finite_inputs

/-- A rank-0 array has one index: an index is a function out of the empty set of axes. -/
instance subsingleton_S_ : Subsingleton S_.Idx := ⟨fun a b => funext fun d => d.elim0⟩

/-- The signed values of the two bounds the code words are compared with. -/
theorem toInt_zero32 : (0#32 : BitVec 32).toInt = 0 := by decide
theorem toInt_sixteen32 : (16#32 : BitVec 32).toInt = 16 := by decide

/-- One word between the bounds: the bit of "0 ≤ c and c < 16" is 1 only if 0 ≤ c < 16 as signed integers. -/
theorem word_range (c : BitVec 32)
    (e : IntOp.andi (IntOp.cmpi .sge c (0#32)) (IntOp.cmpi .slt c (16#32)) = 1#1) :
    0 ≤ c.toInt ∧ c.toInt < 16 := by
  obtain ⟨h0, h16⟩ := IntOp.andi_eq_one.1 e
  have l := IntOp.cmpi_sge.1 h0
  have u := IntOp.cmpi_slt.1 h16
  rw [toInt_zero32] at l
  rw [toInt_sixteen32] at u
  exact ⟨l, u⟩

/-- THE CODE WORDS ARE IN RANGE. If the printed precondition holds of the seven inputs, every word of the packed code
    array lies in 0 … 15 (signed). -/
theorem codes_range [Cert.Pre_finite_inputs.Facts] {F : FTy → Type} [FloatOps F]
    (a0 : FVec F S4096x4096 .f32) (a1 a2 : FVec F S4096 .f32) (a3 : FVec F S3072 .f32) (a4 : FVec F S1 .f32)
    (a5 : IVec S786432x64 32) (a6 : IVec S786432 32)
    (h : Cert.Pre_finite_inputs.fn (F := F) a0 a1 a2 a3 a4 a5 a6 = fun _ => 1#1) :
    ∀ i : S786432x64.Idx, 0 ≤ (a5 i).toInt ∧ (a5 i).toInt < 16 := by
  intro i
  -- the predicate's one bit
  have e := congrFun h ValueIdx.ix0
  dsimp only [Cert.Pre_finite_inputs.fn, Cert.Pre_finite_inputs.fn_part1] at e
  -- the outermost conjunction: its right operand is the reduction over the code array
  have e29 := (IntOp.andi_eq_one.1 e).2
  -- a reduction by "and" over both axes that is 1 has a 1 at index i
  have ei := Host.reduce_andi_all _ _ _ _ _ e29 i
  -- at index i the element is the conjunction of the two comparison bits of word a5 i; a scalar broadcast reads
  -- its scalar at every index
  exact word_range (a5 i) ei

end Cert.Pre_finite_inputs.Hand
-- ==== Proof.lean ====
/-
  The certificate: the quantised linear layer after a layer normalisation, as a Pallas program of two kernels, against its
  jnp reference, over the extended reals, for inputs whose floats are finite and whose code words lie in 0 … 15.

  Both programs compute the same two functions of the seven argument arrays (Proof/Spec.lean): the layer normalisation of
  each row of `x`, and its product with the transposed dequantised weights. The kernel program's run is three segments —
  the normalisation kernel over 16 row blocks, six host reshapes and broadcasts, the dequantise-and-multiply kernel over a
  24 × 32 grid whose scratch buffer carries the dequantised 512 × 4096 weight tile from point to point — and its two
  result arrays are read off the pipelines' write-backs block by block (Proof/KI/). The reference is one straight line of
  host operations, read operation by operation at an index (Proof/Ref/). The two differ in how the sixteen-level table is
  looked up — a chain of selections on the code word in the kernel, a clamped gather in the reference — which agree on
  the words 0 … 15 and nowhere else: that is what the precondition's last conjunct is for (Proof/Pre.lean decodes it).
  No law of the extended reals beyond commutativity of a finite sum's order is needed, so finiteness is never used.
  The word-level program's frame is the idealized program's frame read at the other instance (Proof/K/).
-/
import proofs.«421015_j11192684773387_3_alg».proof.Defs
import proofs.«421015_j11192684773387_3_alg».proof.Proof.Gen.Kernel
import proofs.«421015_j11192684773387_3_alg».proof.Proof.Gen.KernelIdeal
import proofs.«421015_j11192684773387_3_alg».proof.Proof.Gen.ReferenceIdeal
import proofs.«421015_j11192684773387_3_alg».proof.Proof.Gen.Pre_finite_inputs
import proofs.«421015_j11192684773387_3_alg».proof.Proof.K.Run
import proofs.«421015_j11192684773387_3_alg».proof.Proof.KI.Run
import proofs.«421015_j11192684773387_3_alg».proof.Proof.KI.Bridge
import proofs.«421015_j11192684773387_3_alg».proof.Proof.Ref.Run
import proofs.«421015_j11192684773387_3_alg».proof.Proof.Ref.Value
import proofs.«421015_j11192684773387_3_alg».proof.Proof.Pre
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- The ideal pass rewrote nothing. -/
theorem preserves : Cert.preserves_Kernel_KernelIdeal := trivial

/-- Both programs end with the specification's two functions of the arguments: the kernel program by its pipelines'
    write-backs, the reference by its operations read at an index, the code words in range. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.ln (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_out_eq m ρ c),
        (h c).2.1.trans (Cert.KernelIdeal.Hand.kernel_ln_eq m ρ c), (h c).2.2⟩)
      (Cert.KernelIdeal.Hand.run_results (F := Ideal) m ρ)
  · refine (θ_run Cert.ReferenceIdeal.defs _ _).mono (fun _ h c => ?_) (Cert.ReferenceIdeal.Hand.run (F := Ideal) m' ρ')
    obtain ⟨h0, h1, h2, h3, h4, h5, h6⟩ := hagree c
    have hcodes := Cert.Pre_finite_inputs.Hand.codes_range _ _ _ _ _ _ _ (hpre c)
    refine ⟨?_, ?_, (h c).2.2⟩
    · rw [(h c).1, h0, h1, h2, h3, h4, h5, h6]
      exact Cert.ReferenceIdeal.Hand.refOut_eq _ _ _ _ _ _ _ hcodes
    · rw [(h c).2.1, h0, h1, h2]
      exact Cert.ReferenceIdeal.Hand.refLn_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
